-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S1024x128 .f32) (main_arg6 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x2048x1024 .f32) (main_arg1 : FVec F S1024x128 .f32) (main_arg2 : FVec F S128 .f32) (main_arg3 : FVec F S1024x128 .f32) (main_arg4 : FVec F S128 .f32) (main_arg5 : FVec F S1024x128 .f32) (main_arg6 : FVec F S128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S8x2048x1024 : Shape := ⟨3, ![8, 2048, 1024]⟩
abbrev S1024x128 : Shape := ⟨2, ![1024, 128]⟩
abbrev S128 : Shape := ⟨1, ![128]⟩
abbrev S1024x384 : Shape := ⟨2, ![1024, 384]⟩
abbrev S384 : Shape := ⟨1, ![384]⟩
abbrev S1x384 : Shape := ⟨2, ![1, 384]⟩
abbrev S8x2048x128 : Shape := ⟨3, ![8, 2048, 128]⟩
abbrev S1x2048x1024 : Shape := ⟨3, ![1, 2048, 1024]⟩
abbrev S1x2048x128 : Shape := ⟨3, ![1, 2048, 128]⟩
abbrev S2048x128 : Shape := ⟨2, ![2048, 128]⟩
abbrev S512x1 : Shape := ⟨2, ![512, 1]⟩
abbrev S512x128 : Shape := ⟨2, ![512, 128]⟩
abbrev S2048x1024 : Shape := ⟨2, ![2048, 1024]⟩
abbrev S2048x384 : Shape := ⟨2, ![2048, 384]⟩
abbrev S512x512 : Shape := ⟨2, ![512, 512]⟩
abbrev S512 : Shape := ⟨1, ![512]⟩
abbrev S1x512x128 : Shape := ⟨3, ![1, 512, 128]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S1024x384, .f32⟩
  | .hbm, ⟨8, _⟩ => ⟨S1024x384, .bf16⟩
  | .hbm, ⟨9, _⟩ => ⟨S384, .f32⟩
  | .hbm, ⟨10, _⟩ => ⟨S1x384, .f32⟩
  | .hbm, ⟨11, _⟩ => ⟨S8x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x384, .bf16⟩
  | .local _ .vmem, ⟨3, _⟩ => ⟨S1x384, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S512x1, .f32⟩
  | .local _ .vmem, ⟨10, _⟩ => ⟨S512x1, .f32⟩
  | .local _ .vmem, ⟨11, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S1024x128_S1024x128_S1024x128_S1024x384_d1 : Shape.Concatenates [S1024x128, S1024x128, S1024x128] S1024x384 1
  bitsLt_bf16_f32 : FTy.bits .bf16 < FTy.bits .f32
  concatenates_S128_S128_S128_S384_d0 : Shape.Concatenates [S128, S128, S128] S384 0
  shapeCasts_S384_S1x384 : S384.ShapeCasts S1x384
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  slices_S2048x384_o0_128_S2048x128 : S2048x384.Slices ![0, 128] S2048x128
  slices_S2048x384_o0_256_S2048x128 : S2048x384.Slices ![0, 256] S2048x128
  inb_S2048x128_S512x128_0_0 : ∀ a, (![0, 0] : Fin 2 → Nat) a + S512x128.size a ≤ S2048x128.size a
  h_S512x128 : 0 < S512x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  shapeCasts_S512x128_S512x128 : S512x128.ShapeCasts S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  inb_S1x2048x128_S1x512x128_0_0_0 : ∀ a, (![0, 0, 0] : Fin 3 → Nat) a + S1x512x128.size a ≤ S1x2048x128.size a
  h_S1x512x128 : 0 < S1x512x128.numel
  shapeCasts_S1x512x128_S512x128 : S1x512x128.ShapeCasts S512x128
  shapeCasts_S512x128_S1x512x128 : S512x128.ShapeCasts S1x512x128
  inb_S2048x128_S512x128_512_0 : ∀ a, (![512, 0] : Fin 2 → Nat) a + S512x128.size a ≤ S2048x128.size a
  inb_S1x2048x128_S1x512x128_0_512_0 : ∀ a, (![0, 512, 0] : Fin 3 → Nat) a + S1x512x128.size a ≤ S1x2048x128.size a
  inb_S2048x128_S512x128_1024_0 : ∀ a, (![1024, 0] : Fin 2 → Nat) a + S512x128.size a ≤ S2048x128.size a
  inb_S1x2048x128_S1x512x128_0_1024_0 : ∀ a, (![0, 1024, 0] : Fin 3 → Nat) a + S1x512x128.size a ≤ S1x2048x128.size a
  inb_S2048x128_S512x128_1536_0 : ∀ a, (![1536, 0] : Fin 2 → Nat) a + S512x128.size a ≤ S2048x128.size a
  inb_S1x2048x128_S1x512x128_0_1536_0 : ∀ a, (![0, 1536, 0] : Fin 3 → Nat) a + S1x512x128.size a ≤ S1x2048x128.size a
  dot_S2048x1024_S1024x384_S2048x384_1_0_0_1_n_n_wf : DotDims.WF S2048x1024 S1024x384 S2048x384 [1] [0] [0] [1] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x128.size a
  hwx0_3 : ∀ i : grid0.Coords, EltTy.bits .f32 = 32 ∨ (Rect.block (s := S8x2048x128) S1x2048x128.size (cc0_transform_3 i) (hinb0_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S128 : Shape := ⟨1, ![128]⟩
abbrev S8x2048x128 : Shape := ⟨3, ![8, 2048, 128]⟩
abbrev S1x1x128 : Shape := ⟨3, ![1, 1, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S8x2048x128, .f32⟩
  | .hbm, ⟨8, _⟩ => ⟨S1x1x128, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .hbm, ⟨12, _⟩ => ⟨S1x1x128, .f32⟩
  | .hbm, ⟨13, _⟩ => ⟨S8x2048x128, .f32⟩
  | .hbm, ⟨14, _⟩ => ⟨S8x2048x128, .f32⟩
  | .hbm, ⟨15, _⟩ => ⟨S8x2048x128, .f32⟩
  | .hbm, ⟨16, _⟩ => ⟨S1x1x128, .f32⟩
  | .hbm, ⟨17, _⟩ => ⟨S8x2048x128, .f32⟩
  | .hbm, ⟨18, _⟩ => ⟨S8x2048x128, .f32⟩
  | .hbm, ⟨19, _⟩ => ⟨S8x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.K.Kit.lean ====
/-
  The launch side of the fused attention kernel's one pipelined region: what the arrays hold when the region is
  entered (the three weight matrices laid side by side and rounded, the three bias vectors laid end to end and
  viewed as one row), the block each window stages at a batch index, and the frame statement read off a run whose
  final arrays are the pipeline's.
-/
import proofs.«427742_j6957847019746_3_alg».proof.Proof.Gen.Kernel.Launch
import proofs.«427742_j6957847019746_3_alg».proof.Proof.Gen.Kernel.Skeleton
import proofs.«427742_j6957847019746_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents after the four host
    operations (two concatenations, one rounding, one reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host operations writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or kept it from an earlier point, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or kept it from an earlier point, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or kept it from an earlier point, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the pipeline's post -/

/-- The seven argument arrays end as launched: the first is the staged input window's array, which the pipeline only
    reads; the other six bypass the region, and no host operation writes any of the seven. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The memrefs the body is called with -/

/-- Each window's current staging memref at point `t`, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- One staging buffer of the output window, through which its contents are stated. -/
abbrev VO0_3 : View sig .tc .vmem S1x2048x128 .f32 := (Memref.whole cc0_stg3_0 : Memref sig .tc .vmem S1x2048x128 .f32).view
/-- The six scratch operands: the projected queries, keys and values of the batch, and the running maximum,
    running denominator and running numerator of the query tile being worked on. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x128 .f32 := Memref.whole cc0_scratch5

/-- The region's invariant with the scratch operands as memrefs owned at some contents: every scratch buffer is
    written whole before it is read at each grid point, so nothing about its contents is kept between points. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.K.Run0.lean ====
/-
  The kernel body run once on whole staging and scratch memrefs: from the three input blocks it terminates, faults
  nowhere, leaves the inputs as they were, and leaves in the output's staging buffer four row tiles, one per
  query tile, each a pure function of the three input blocks.
-/
import proofs.«427742_j6957847019746_3_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four output stores leave (last first), with the proof that the body runs to a continuation
    holding the inputs as they were, the output's buffer with those pieces written, and every scratch buffer at some
    contents. -/
noncomputable def kernelRun0 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) :
    { L3 : List (View.Piece (Elt F) S1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _, _; isplitr
      swap; · iexact H4
      ipureintro; rfl
    isplitl [H5]
    · iexists _, _; isplitr
      swap; · iexact H5
      ipureintro; rfl
    isplitl [H6]
    · iexists _, _; isplitr
      swap; · iexact H6
      ipureintro; rfl
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

end Cert.Kernel.Hand

end
-- ==== Proof.K.Body.lean ====
/-
  The pipeline's proof data and the body obligation. After the body at batch index t the three input windows'
  staging buffers hold their blocks untouched and the output window's buffer holds the four row tiles the body
  stored, read back as one block; the six scratch buffers are handed over at any contents and taken back at any
  contents, since the body writes each before it reads it.
-/
import proofs.«427742_j6957847019746_3_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stored tiles (512 rows each) tile the output block, so every index of the block is covered. -/
theorem cover0_3 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) (y : S1x2048x128.Idx) :
    ∃ pc ∈ (kernelRun0 c i arg1 harg1 arg2 harg2 arg3 harg3 arg4 harg4 arg5 harg5 arg6 harg6 arg7 harg7 arg8 harg8 arg9 harg9 arg10 harg10 x0 x1 x2).1, y ∈ pc.1.set :=
  View.cover_of_tiledL (kernelRun0 c i arg1 harg1 arg2 harg2 arg3 harg3 arg4 harg4 arg5 harg5 arg6 harg6 arg7 harg7 arg8 harg8 arg9 harg9 arg10 harg10 x0 x1 x2).1 S1x512x128.size (by sl_kernel_rfl) y

/-- What the body leaves in the output window's staging buffer: its four tiles read back as one block. -/
def out0_3 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) : Vec F S1x2048x128 .f32 :=
  VO0_3.read (Elt F) (VO0_3.writes (Elt F) VO0_3.junk (kernelRun0 c i arg1 harg1 arg2 harg2 arg3 harg3 arg4 harg4 arg5 harg5 arg6 harg6 arg7 harg7 arg8 harg8 arg9 harg9 arg10 harg10 x0 x1 x2).1)

/-- The output block after the body at point `t`, as a function of the three input blocks there. -/
def outAt0 (c : Dev nD) (t : Fin cfg0.N) : Vec F S1x2048x128 .f32 :=
  out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks, so the run applies; the scratch buffers pass
    through at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outAt0 out0_3
  iintro ⟨⟨⟨S0, S1, S2, S3, S4, S5⟩, Hg⟩, Ho, ⟨%d0, H0⟩, ⟨%d1, H1⟩, ⟨%d2, H2⟩, ⟨%d3, H3⟩⟩
  iapply ((kernelRun0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, ⟨%e3, H3⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Main.lean ====
/-
  The run of @main and the frame: from any memory with zero counters every weakly fair execution terminates with
  every array of the pipeline at what the proof data computes and every other unscoped buffer as the region found
  it; read at the seven argument arrays, they end as launched.
-/
import proofs.«427742_j6957847019746_3_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement of this program, at any reading of floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KI.Kit.lean ====
/-
  The launch side of the fused attention kernel's one pipelined region: what the arrays hold when the region is
  entered (the three weight matrices laid side by side and rounded, the three bias vectors laid end to end and
  viewed as one row), the block each window stages at a batch index, and the frame statement read off a run whose
  final arrays are the pipeline's.
-/
import proofs.«427742_j6957847019746_3_alg».proof.Proof.Gen.KernelIdeal.Launch
import proofs.«427742_j6957847019746_3_alg».proof.Proof.Gen.KernelIdeal.Skeleton
import proofs.«427742_j6957847019746_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents after the four host
    operations (two concatenations, one rounding, one reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the four host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host operations writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host operations writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or kept it from an earlier point, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or kept it from an earlier point, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or kept it from an earlier point, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the pipeline's post -/

/-- The seven argument arrays end as launched: the first is the staged input window's array, which the pipeline only
    reads; the other six bypass the region, and no host operation writes any of the seven. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The memrefs the body is called with -/

/-- Each window's current staging memref at point `t`, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- One staging buffer of the output window, through which its contents are stated. -/
abbrev VO0_3 : View sig .tc .vmem S1x2048x128 .f32 := (Memref.whole cc0_stg3_0 : Memref sig .tc .vmem S1x2048x128 .f32).view
/-- The six scratch operands: the projected queries, keys and values of the batch, and the running maximum,
    running denominator and running numerator of the query tile being worked on. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x128 .f32 := Memref.whole cc0_scratch5

/-- The region's invariant with the scratch operands as memrefs owned at some contents: every scratch buffer is
    written whole before it is read at each grid point, so nothing about its contents is kept between points. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.Run0.lean ====
/-
  The kernel body run once on whole staging and scratch memrefs: from the three input blocks it terminates, faults
  nowhere, leaves the inputs as they were, and leaves in the output's staging buffer four row tiles, one per
  query tile, each a pure function of the three input blocks.
-/
import proofs.«427742_j6957847019746_3_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four output stores leave (last first), with the proof that the body runs to a continuation
    holding the inputs as they were, the output's buffer with those pieces written, and every scratch buffer at some
    contents. -/
noncomputable def kernelRun0 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) :
    { L3 : List (View.Piece (Elt F) S1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _, _; isplitr
      swap; · iexact H4
      ipureintro; rfl
    isplitl [H5]
    · iexists _, _; isplitr
      swap; · iexact H5
      ipureintro; rfl
    isplitl [H6]
    · iexists _, _; isplitr
      swap; · iexact H6
      ipureintro; rfl
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

end Cert.KernelIdeal.Hand

end
-- ==== Proof.KI.Body.lean ====
/-
  The pipeline's proof data and the body obligation. After the body at batch index t the three input windows'
  staging buffers hold their blocks untouched and the output window's buffer holds the four row tiles the body
  stored, read back as one block; the six scratch buffers are handed over at any contents and taken back at any
  contents, since the body writes each before it reads it.
-/
import proofs.«427742_j6957847019746_3_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four stored tiles (512 rows each) tile the output block, so every index of the block is covered. -/
theorem cover0_3 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) (y : S1x2048x128.Idx) :
    ∃ pc ∈ (kernelRun0 c i arg1 harg1 arg2 harg2 arg3 harg3 arg4 harg4 arg5 harg5 arg6 harg6 arg7 harg7 arg8 harg8 arg9 harg9 arg10 harg10 x0 x1 x2).1, y ∈ pc.1.set :=
  View.cover_of_tiledL (kernelRun0 c i arg1 harg1 arg2 harg2 arg3 harg3 arg4 harg4 arg5 harg5 arg6 harg6 arg7 harg7 arg8 harg8 arg9 harg9 arg10 harg10 x0 x1 x2).1 S1x512x128.size (by sl_kernel_rfl) y

/-- What the body leaves in the output window's staging buffer: its four tiles read back as one block. -/
def out0_3 (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x2048x1024 .f32) (x1 : Vec F S1024x384 .bf16) (x2 : Vec F S1x384 .f32) : Vec F S1x2048x128 .f32 :=
  VO0_3.read (Elt F) (VO0_3.writes (Elt F) VO0_3.junk (kernelRun0 c i arg1 harg1 arg2 harg2 arg3 harg3 arg4 harg4 arg5 harg5 arg6 harg6 arg7 harg7 arg8 harg8 arg9 harg9 arg10 harg10 x0 x1 x2).1)

/-- The output block after the body at point `t`, as a function of the three input blocks there. -/
def outAt0 (c : Dev nD) (t : Fin cfg0.N) : Vec F S1x2048x128 .f32 :=
  out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks, so the run applies; the scratch buffers pass
    through at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outAt0 out0_3
  iintro ⟨⟨⟨S0, S1, S2, S3, S4, S5⟩, Hg⟩, Ho, ⟨%d0, H0⟩, ⟨%d1, H1⟩, ⟨%d2, H2⟩, ⟨%d3, H3⟩⟩
  iapply ((kernelRun0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, ⟨%e3, H3⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Main.lean ====
/-
  The run of @main and the frame: from any memory with zero counters every weakly fair execution terminates with
  every array of the pipeline at what the proof data computes and every other unscoped buffer as the region found
  it; read at the seven argument arrays, they end as launched.
-/
import proofs.«427742_j6957847019746_3_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement of this program, at any reading of floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KI.RunValue.lean ====
/-
  The run of @main re-posted with the result array named: after the run the result array holds what the pipeline's
  proof data computes for the output window, and the seven argument arrays are as launched.
-/
import proofs.«427742_j6957847019746_3_alg».proof.Proof.KI.Main

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v4) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Hand

end
-- ==== Proof.KI.Steps.lean ====
/-
  One step of the running softmax as the kernel spells it, as pure functions of a 512-row query tile, a 512-row key
  tile, a 512-row value tile and the running triple (m, l, acc) — the maximum so far, the denominator so far, the
  numerator so far, per query row — at any reading of floats:
    s      the 512×512 scores, query rows against key rows (on the diagonal tile: -∞ above the diagonal);
    m'     = max m (row maximum of s);
    a      = exp (m - m');        p = exp (s - m');
    l'     = a · l + row sum of p;
    acc'   = a · acc + p · V;
  and, after the last key tile of a query tile, the stored rows acc / l.
-/
import proofs.«427742_j6957847019746_3_alg».proof.Proof.Gen.KernelIdeal
import proofs.«427742_j6957847019746_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- Scores of a query tile against a key tile: inner products over the 128 head coordinates. -/
def scoreU (qt kt : Vec F S512x128 .bf16) : FVec F S512x512 .f32 :=
  matmul dot_S512x128_S512x128_S512x512_1_1_0_0_n_n none qt kt (constant S512x512 .f32 0x00000000#32)

/-- Scores on a diagonal tile whose rows and columns both start at position `off`: kept where the row position is at
    least the column position, the named -∞ elsewhere. -/
def scoreM (off : BitVec 32) (qt kt : Vec F S512x128 .bf16) : FVec F S512x512 .f32 :=
  select (cmpi .sge (addi (broadcast S512x512 off) (iota .tc S512x512 32 [0] iota_S512x512_d0_w32))
      (addi (broadcast S512x512 off) (iota .tc S512x512 32 [1] iota_S512x512_d1_w32)))
    (scoreU qt kt) (broadcast S512x512 (Named.named κ "neg_big" 0xFF333332#32))

/-- The row maxima of a score tile, as a column. -/
def rowMax (s : FVec F S512x512 .f32) : FVec F S512x1 .f32 :=
  shapeCast S512x1 (multiReduction .maximumf [1] S512 s 0xFF800000#32 reduces_S512x512_S512 (.inl rfl) rfl) shapeCasts_S512_S512x1

/-- The row sums of a tile, as a column. -/
def rowSum (p : FVec F S512x512 .f32) : FVec F S512x1 .f32 :=
  shapeCast S512x1 (multiReduction .add [1] S512 p 0x00000000#32 reduces_S512x512_S512 (.inl rfl) rfl) shapeCasts_S512_S512x1

def mNew (s : FVec F S512x512 .f32) (m : Vec F S512x1 .f32) : FVec F S512x1 .f32 := maximumf m (rowMax s)

def alpha (s : FVec F S512x512 .f32) (m : Vec F S512x1 .f32) : FVec F S512x1 .f32 := exp (subf m (mNew s m))

def probs (s : FVec F S512x512 .f32) (m : Vec F S512x1 .f32) : FVec F S512x512 .f32 :=
  exp (subf s (broadcastTo S512x512 (mNew s m) broadcasts_S512x1_S512x512))

def lNew (s : FVec F S512x512 .f32) (m l : Vec F S512x1 .f32) : FVec F S512x1 .f32 :=
  addf (mulf (alpha s m) l) (rowSum (probs s m))

def accNew (s : FVec F S512x512 .f32) (m : Vec F S512x1 .f32) (acc : Vec F S512x128 .f32) (vt : Vec F S512x128 .bf16) : FVec F S512x128 .f32 :=
  addf (mulf (broadcastTo S512x128 (alpha s m) broadcasts_S512x1_S512x128) acc)
    (matmul dot_S512x512_S512x128_S512x128_1_0_0_1_n_n none (truncf .bf16 (probs s m) bitsLt_bf16_f32) vt (constant S512x128 .f32 0x00000000#32))

/-- The stored rows of a finished query tile: numerator over denominator. -/
def outTile (acc : Vec F S512x128 .f32) (l : Vec F S512x1 .f32) : FVec F S1x512x128 .f32 :=
  shapeCast S1x512x128 (divf acc (broadcastTo S512x128 l broadcasts_S512x1_S512x128)) shapeCasts_S512x128_S1x512x128

/-- The empty running triple a query tile starts from. -/
def mInit : FVec F S512x1 .f32 := broadcast S512x1 (Scalar.ofBits .f32 0xFF800000#32)
def lInit : FVec F S512x1 .f32 := broadcast S512x1 (Scalar.ofBits .f32 0x00000000#32)
def accInit : FVec F S512x128 .f32 := broadcast S512x128 (Scalar.ofBits .f32 0x00000000#32)

/-- Rows of a 2048-row array seen through a 512-row load box. -/
def tileOf (B : LoadRect S2048x128) (a : Vec F S2048x128 .bf16) : B.shape.Idx → Elt F .bf16 := fun j => a (B.idx j)

end Cert.KernelIdeal.Hand

end
-- ==== Proof.KI.Chain.lean ====
/-
  The body's run, key tile by key tile. For each of the ten (query tile, key tile) pairs the three values the body stores
  into the running-maximum, running-denominator and running-numerator scratch buffers are the clean step functions of
  the three values stored before them (read back through the scratch buffers) and of the query, key and value row
  tiles loaded from the projection scratch buffers; each query tile starts from the empty triple and ends by storing
  numerator over denominator.
-/
import proofs.«427742_j6957847019746_3_alg».proof.Proof.KI.Run0
import proofs.«427742_j6957847019746_3_alg».proof.Proof.KI.Steps
import Idealize.ShloMosaic.Lib.Pipeline.Value

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F] [Named F]

variable (c : Dev nD) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
  (x0 : Vec F S1x2048x1024 .f32) (x1 : Vec F S1024x384 .bf16) (x2 : Vec F S1x384 .f32)

/-- Query tile 0 starts from the empty triple (-∞, 0, 0). -/
theorem init_0 :
    Cert.KernelIdeal.Hand.kernelRun0.sl.v29 = mInit (F := F) ∧ Cert.KernelIdeal.Gen.k0_pay10 Cert.KernelIdeal.Hand.kernelRun0.sl.v30 = lInit (F := F) ∧ Cert.KernelIdeal.Gen.k0_pay11 = accInit (F := F) := by
  refine ⟨?_, ?_, ?_⟩ <;>
    simp only [Cert.KernelIdeal.Hand.kernelRun0.sl.v29, Cert.KernelIdeal.Hand.kernelRun0.sl.v26, Cert.KernelIdeal.Hand.kernelRun0.sl.cst_14, Cert.KernelIdeal.Hand.kernelRun0.sl.v30, Cert.KernelIdeal.Hand.kernelRun0.sl.cst_17, k0_pay10, k0_pay11, mNew, alpha, probs, lNew, accNew, rowMax, rowSum, scoreU, scoreM, outTile, mInit, lInit, accInit, View.readCov_cons_toLoadRect, shapeCast_self] <;> (try rfl)

/-- Query tile 1 starts from the empty triple (-∞, 0, 0). -/
theorem init_1 :
    Cert.KernelIdeal.Hand.kernelRun0.sl.v29 = mInit (F := F) ∧ Cert.KernelIdeal.Hand.kernelRun0.sl.v94 = lInit (F := F) ∧ Cert.KernelIdeal.Hand.kernelRun0.sl.v98 = accInit (F := F) := by
  refine ⟨?_, ?_, ?_⟩ <;>
    simp only [Cert.KernelIdeal.Hand.kernelRun0.sl.v29, Cert.KernelIdeal.Hand.kernelRun0.sl.v26, Cert.KernelIdeal.Hand.kernelRun0.sl.cst_14, Cert.KernelIdeal.Hand.kernelRun0.sl.v94, Cert.KernelIdeal.Hand.kernelRun0.sl.v30, Cert.KernelIdeal.Hand.kernelRun0.sl.cst_17, Cert.KernelIdeal.Hand.kernelRun0.sl.v98, Cert.KernelIdeal.Hand.kernelRun0.sl.v95, mNew, alpha, probs, lNew, accNew, rowMax, rowSum, scoreU, scoreM, outTile, mInit, lInit, accInit, View.readCov_cons_toLoadRect, shapeCast_self] <;> (try rfl)

/-- Query tile 2 starts from the empty triple (-∞, 0, 0). -/
theorem init_2 :
    Cert.KernelIdeal.Hand.kernelRun0.sl.v29 = mInit (F := F) ∧ Cert.KernelIdeal.Hand.kernelRun0.sl.v94 = lInit (F := F) ∧ Cert.KernelIdeal.Hand.kernelRun0.sl.v98 = accInit (F := F) := by
  refine ⟨?_, ?_, ?_⟩ <;>
    simp only [Cert.KernelIdeal.Hand.kernelRun0.sl.v29, Cert.KernelIdeal.Hand.kernelRun0.sl.v26, Cert.KernelIdeal.Hand.kernelRun0.sl.cst_14, Cert.KernelIdeal.Hand.kernelRun0.sl.v94, Cert.KernelIdeal.Hand.kernelRun0.sl.v30, Cert.KernelIdeal.Hand.kernelRun0.sl.cst_17, Cert.KernelIdeal.Hand.kernelRun0.sl.v98, Cert.KernelIdeal.Hand.kernelRun0.sl.v95, mNew, alpha, probs, lNew, accNew, rowMax, rowSum, scoreU, scoreM, outTile, mInit, lInit, accInit, View.readCov_cons_toLoadRect, shapeCast_self] <;> (try rfl)

/-- Query tile 3 starts from the empty triple (-∞, 0, 0). -/
theorem init_3 :
    Cert.KernelIdeal.Hand.kernelRun0.sl.v29 = mInit (F := F) ∧ Cert.KernelIdeal.Hand.kernelRun0.sl.v94 = lInit (F := F) ∧ Cert.KernelIdeal.Hand.kernelRun0.sl.v98 = accInit (F := F) := by
  refine ⟨?_, ?_, ?_⟩ <;>
    simp only [Cert.KernelIdeal.Hand.kernelRun0.sl.v29, Cert.KernelIdeal.Hand.kernelRun0.sl.v26, Cert.KernelIdeal.Hand.kernelRun0.sl.cst_14, Cert.KernelIdeal.Hand.kernelRun0.sl.v94, Cert.KernelIdeal.Hand.kernelRun0.sl.v30, Cert.KernelIdeal.Hand.kernelRun0.sl.cst_17, Cert.KernelIdeal.Hand.kernelRun0.sl.v98, Cert.KernelIdeal.Hand.kernelRun0.sl.v95, mNew, alpha, probs, lNew, accNew, rowMax, rowSum, scoreU, scoreM, outTile, mInit, lInit, accInit, View.readCov_cons_toLoadRect, shapeCast_self] <;> (try rfl)

/-- Query tile 0, key tile 0 (the diagonal tile, masked): the three stored values from the three stored before. -/
theorem step_0_0 :
    Cert.KernelIdeal.Hand.kernelRun0.sl.v78 c arg1 harg1 arg2 harg2 arg3 harg3 arg5 arg6 arg8 x0 x1 x2 = mNew (scoreM (F := F) 0#32 (arg5.view.readCov (Cert.KernelIdeal.Hand.kernelRun0.sl.H4_1 c arg1 harg1 arg2 harg2 arg3 harg3 x0 x1 x2) (Rect.unit (s := S2048x128) ![0, 0] S512x128.size inb_S2048x128_S512x128_0_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29)
    ∧ Cert.KernelIdeal.Gen.k0_pay16 (Cert.KernelIdeal.Hand.kernelRun0.sl.v25 c arg1 harg1 arg2 harg2 arg3 harg3 arg5 x0 x1 x2) (Cert.KernelIdeal.Hand.kernelRun0.sl.v38 c arg1 harg1 arg2 harg2 arg3 harg3 arg6 x0 x1 x2) (Cert.KernelIdeal.Hand.kernelRun0.sl.v50 c arg8) (Cert.KernelIdeal.Hand.kernelRun0.sl.v59 c arg9) = lNew (scoreM (F := F) 0#32 (arg5.view.readCov (Cert.KernelIdeal.Hand.kernelRun0.sl.H4_1 c arg1 harg1 arg2 harg2 arg3 harg3 x0 x1 x2) (Rect.unit (s := S2048x128) ![0, 0] S512x128.size inb_S2048x128_S512x128_0_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Gen.k0_pay10 Cert.KernelIdeal.Hand.kernelRun0.sl.v30)
    ∧ Cert.KernelIdeal.Hand.kernelRun0.sl.v75 c arg1 harg1 arg2 harg2 arg3 harg3 arg5 arg6 arg7 arg8 arg10 x0 x1 x2 = accNew (scoreM (F := F) 0#32 (arg5.view.readCov (Cert.KernelIdeal.Hand.kernelRun0.sl.H4_1 c arg1 harg1 arg2 harg2 arg3 harg3 x0 x1 x2) (Rect.unit (s := S2048x128) ![0, 0] S512x128.size inb_S2048x128_S512x128_0_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Gen.k0_pay11) (arg7.view.readCov (Cert.KernelIdeal.Hand.kernelRun0.sl.H6_1 c arg1 harg1 arg2 harg2 arg3 harg3 x0 x1 x2) (Rect.unit (s := S2048x128) ![0, 0] S512x128.size inb_S2048x128_S512x128_0_0).toLoadRect) := by
  refine ⟨?_, ?_, ?_⟩ <;>
    simp only [Cert.KernelIdeal.Hand.kernelRun0.sl.v78, Cert.KernelIdeal.Hand.kernelRun0.sl.r, Cert.KernelIdeal.Hand.kernelRun0.sl.v25, Cert.KernelIdeal.Hand.kernelRun0.sl.v38, Cert.KernelIdeal.Hand.kernelRun0.sl.v50, Cert.KernelIdeal.Hand.kernelRun0.sl.H7_1, Cert.KernelIdeal.Hand.kernelRun0.sl.v59, Cert.KernelIdeal.Hand.kernelRun0.sl.H8_1, Cert.KernelIdeal.Hand.kernelRun0.sl.v75, Cert.KernelIdeal.Hand.kernelRun0.sl.v72, Cert.KernelIdeal.Hand.kernelRun0.sl.v69, Cert.KernelIdeal.Hand.kernelRun0.sl.r_2, Cert.KernelIdeal.Hand.kernelRun0.sl.v67, Cert.KernelIdeal.Hand.kernelRun0.sl.H9_1, Cert.KernelIdeal.Hand.kernelRun0.sl.v71, Cert.KernelIdeal.Hand.kernelRun0.sl.v70, Cert.KernelIdeal.Hand.kernelRun0.sl.r_1, Cert.KernelIdeal.Hand.kernelRun0.sl.v39, Cert.KernelIdeal.Hand.kernelRun0.sl.cst_40, Cert.KernelIdeal.Hand.kernelRun0.sl.H7_1, Cert.KernelIdeal.Hand.kernelRun0.sl.H8_1, Cert.KernelIdeal.Hand.kernelRun0.sl.H9_1, k0_pay13, k0_pay10, k0_pay17, k0_pay11, k0_pay15, k0_pay16, mNew, alpha, probs, lNew, accNew, rowMax, rowSum, scoreU, scoreM, outTile, mInit, lInit, accInit, View.readCov_cons_toLoadRect, shapeCast_self] <;> (try rfl)

/-- Query tile 1, key tile 0: the three stored values from the three stored before. -/
theorem step_1_0 :
    Cert.KernelIdeal.Hand.kernelRun0.sl.v130 c arg1 harg1 arg2 harg2 arg3 harg3 arg5 arg6 arg8 x0 x1 x2 = mNew (scoreU (F := F) (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29)
    ∧ Cert.KernelIdeal.Hand.kernelRun0.sl.v118 c arg1 harg1 arg2 harg2 arg3 harg3 arg5 arg6 arg8 arg9 x0 x1 x2 = lNew (scoreU (F := F) (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v94)
    ∧ Cert.KernelIdeal.Hand.kernelRun0.sl.v127 c arg1 harg1 arg2 harg2 arg3 harg3 arg5 arg6 arg7 arg8 arg10 x0 x1 x2 = accNew (scoreU (F := F) (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v98) (arg7.view.readCov (Cert.KernelIdeal.Hand.kernelRun0.sl.H6_1 c arg1 harg1 arg2 harg2 arg3 harg3 x0 x1 x2) (Rect.unit (s := S2048x128) ![0, 0] S512x128.size inb_S2048x128_S512x128_0_0).toLoadRect) := by
  refine ⟨?_, ?_, ?_⟩ <;>
    simp only [Cert.KernelIdeal.Hand.kernelRun0.sl.v130, Cert.KernelIdeal.Hand.kernelRun0.sl.v105, Cert.KernelIdeal.Hand.kernelRun0.sl.v102, Cert.KernelIdeal.Hand.kernelRun0.sl.H7_3, Cert.KernelIdeal.Hand.kernelRun0.sl.v104, Cert.KernelIdeal.Hand.kernelRun0.sl.v103, Cert.KernelIdeal.Hand.kernelRun0.sl.v101, Cert.KernelIdeal.Hand.kernelRun0.sl.v86, Cert.KernelIdeal.Hand.kernelRun0.sl.v99, Cert.KernelIdeal.Hand.kernelRun0.sl.cst_66, Cert.KernelIdeal.Hand.kernelRun0.sl.v118, Cert.KernelIdeal.Hand.kernelRun0.sl.v115, Cert.KernelIdeal.Hand.kernelRun0.sl.v112, Cert.KernelIdeal.Hand.kernelRun0.sl.v107, Cert.KernelIdeal.Hand.kernelRun0.sl.v106, Cert.KernelIdeal.Hand.kernelRun0.sl.v111, Cert.KernelIdeal.Hand.kernelRun0.sl.H8_3, Cert.KernelIdeal.Hand.kernelRun0.sl.v114, Cert.KernelIdeal.Hand.kernelRun0.sl.v113, Cert.KernelIdeal.Hand.kernelRun0.sl.v110, Cert.KernelIdeal.Hand.kernelRun0.sl.v109, Cert.KernelIdeal.Hand.kernelRun0.sl.v108, Cert.KernelIdeal.Hand.kernelRun0.sl.v127, Cert.KernelIdeal.Hand.kernelRun0.sl.v124, Cert.KernelIdeal.Hand.kernelRun0.sl.v121, Cert.KernelIdeal.Hand.kernelRun0.sl.v120, Cert.KernelIdeal.Hand.kernelRun0.sl.v119, Cert.KernelIdeal.Hand.kernelRun0.sl.H9_3, Cert.KernelIdeal.Hand.kernelRun0.sl.v123, Cert.KernelIdeal.Hand.kernelRun0.sl.v122, Cert.KernelIdeal.Hand.kernelRun0.sl.v100, Cert.KernelIdeal.Hand.kernelRun0.sl.cst_40, Cert.KernelIdeal.Hand.kernelRun0.sl.H7_3, Cert.KernelIdeal.Hand.kernelRun0.sl.H8_3, Cert.KernelIdeal.Hand.kernelRun0.sl.H9_3, mNew, alpha, probs, lNew, accNew, rowMax, rowSum, scoreU, scoreM, outTile, mInit, lInit, accInit, View.readCov_cons_toLoadRect, shapeCast_self] <;> (try rfl)

/-- Query tile 1, key tile 1 (the diagonal tile, masked): the three stored values from the three stored before. -/
theorem step_1_1 :
    Cert.KernelIdeal.Hand.kernelRun0.sl.r_3 c arg1 harg1 arg2 harg2 arg3 harg3 arg5 arg6 arg8 x0 x1 x2 = mNew (scoreM (F := F) 512#32 (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v130 c arg1 harg1 arg2 harg2 arg3 harg3 arg5 arg6 arg8 x0 x1 x2)
    ∧ Cert.KernelIdeal.Gen.k0_pay35 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v143 c arg1 harg1 arg2 harg2 arg3 harg3 arg5 arg6 arg8 x0 x1 x2) (Cert.KernelIdeal.Hand.kernelRun0.sl.v152 c arg1 harg1 arg2 harg2 arg3 harg3 arg5 arg6 arg8 arg9 x0 x1 x2) = lNew (scoreM (F := F) 512#32 (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v130 c arg1 harg1 arg2 harg2 arg3 harg3 arg5 arg6 arg8 x0 x1 x2) (Cert.KernelIdeal.Hand.kernelRun0.sl.v118 c arg1 harg1 arg2 harg2 arg3 harg3 arg5 arg6 arg8 arg9 x0 x1 x2)
    ∧ Cert.KernelIdeal.Gen.k0_pay36 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v132 c arg1 harg1 arg2 harg2 arg3 harg3 arg7 x0 x1 x2) (Cert.KernelIdeal.Hand.kernelRun0.sl.v143 c arg1 harg1 arg2 harg2 arg3 harg3 arg5 arg6 arg8 x0 x1 x2) (Cert.KernelIdeal.Hand.kernelRun0.sl.v160 c arg1 harg1 arg2 harg2 arg3 harg3 arg5 arg6 arg7 arg8 arg10 x0 x1 x2) = accNew (scoreM (F := F) 512#32 (arg5.view.readCov (Cert.KernelIdeal.Hand.kernelRun0.sl.H4_1 c arg1 harg1 arg2 harg2 arg3 harg3 x0 x1 x2) (Rect.unit (s := S2048x128) ![512, 0] S512x128.size inb_S2048x128_S512x128_512_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v130 c arg1 harg1 arg2 harg2 arg3 harg3 arg5 arg6 arg8 x0 x1 x2) (Cert.KernelIdeal.Hand.kernelRun0.sl.v127 c arg1 harg1 arg2 harg2 arg3 harg3 arg5 arg6 arg7 arg8 arg10 x0 x1 x2) (arg7.view.readCov (Cert.KernelIdeal.Hand.kernelRun0.sl.H6_1 c arg1 harg1 arg2 harg2 arg3 harg3 x0 x1 x2) (Rect.unit (s := S2048x128) ![512, 0] S512x128.size inb_S2048x128_S512x128_512_0).toLoadRect) := by
  refine ⟨?_, ?_, ?_⟩ <;>
    simp only [Cert.KernelIdeal.Hand.kernelRun0.sl.r_3, Cert.KernelIdeal.Hand.kernelRun0.sl.v86, Cert.KernelIdeal.Hand.kernelRun0.sl.v131, Cert.KernelIdeal.Hand.kernelRun0.sl.v143, Cert.KernelIdeal.Hand.kernelRun0.sl.H7_4, Cert.KernelIdeal.Hand.kernelRun0.sl.v152, Cert.KernelIdeal.Hand.kernelRun0.sl.H8_4, Cert.KernelIdeal.Hand.kernelRun0.sl.v132, Cert.KernelIdeal.Hand.kernelRun0.sl.v160, Cert.KernelIdeal.Hand.kernelRun0.sl.H9_4, Cert.KernelIdeal.Hand.kernelRun0.sl.H7_4, Cert.KernelIdeal.Hand.kernelRun0.sl.H8_4, Cert.KernelIdeal.Hand.kernelRun0.sl.H9_4, k0_pay37, k0_pay35, k0_pay36, mNew, alpha, probs, lNew, accNew, rowMax, rowSum, scoreU, scoreM, outTile, mInit, lInit, accInit, View.readCov_cons_toLoadRect, shapeCast_self] <;> (try rfl)

/-- Query tile 2, key tile 0: the three stored values from the three stored before. -/
theorem step_2_0 :
    Cert.KernelIdeal.Hand.kernelRun0.sl.v223 c arg1 harg1 arg2 harg2 arg3 harg3 arg5 arg6 arg8 x0 x1 x2 = mNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29)
    ∧ Cert.KernelIdeal.Hand.kernelRun0.sl.v211 c arg1 harg1 arg2 harg2 arg3 harg3 arg5 arg6 arg8 arg9 x0 x1 x2 = lNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v94)
    ∧ Cert.KernelIdeal.Hand.kernelRun0.sl.v220 c arg1 harg1 arg2 harg2 arg3 harg3 arg5 arg6 arg7 arg8 arg10 x0 x1 x2 = accNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v98) (arg7.view.readCov (Cert.KernelIdeal.Hand.kernelRun0.sl.H6_1 c arg1 harg1 arg2 harg2 arg3 harg3 x0 x1 x2) (Rect.unit (s := S2048x128) ![0, 0] S512x128.size inb_S2048x128_S512x128_0_0).toLoadRect) := by
  refine ⟨?_, ?_, ?_⟩ <;>
    simp only [Cert.KernelIdeal.Hand.kernelRun0.sl.v223, Cert.KernelIdeal.Hand.kernelRun0.sl.v198, Cert.KernelIdeal.Hand.kernelRun0.sl.v195, Cert.KernelIdeal.Hand.kernelRun0.sl.H7_6, Cert.KernelIdeal.Hand.kernelRun0.sl.v197, Cert.KernelIdeal.Hand.kernelRun0.sl.v196, Cert.KernelIdeal.Hand.kernelRun0.sl.v194, Cert.KernelIdeal.Hand.kernelRun0.sl.v179, Cert.KernelIdeal.Hand.kernelRun0.sl.v99, Cert.KernelIdeal.Hand.kernelRun0.sl.cst_66, Cert.KernelIdeal.Hand.kernelRun0.sl.v211, Cert.KernelIdeal.Hand.kernelRun0.sl.v208, Cert.KernelIdeal.Hand.kernelRun0.sl.v205, Cert.KernelIdeal.Hand.kernelRun0.sl.v200, Cert.KernelIdeal.Hand.kernelRun0.sl.v199, Cert.KernelIdeal.Hand.kernelRun0.sl.v204, Cert.KernelIdeal.Hand.kernelRun0.sl.H8_6, Cert.KernelIdeal.Hand.kernelRun0.sl.v207, Cert.KernelIdeal.Hand.kernelRun0.sl.v206, Cert.KernelIdeal.Hand.kernelRun0.sl.v203, Cert.KernelIdeal.Hand.kernelRun0.sl.v202, Cert.KernelIdeal.Hand.kernelRun0.sl.v201, Cert.KernelIdeal.Hand.kernelRun0.sl.v220, Cert.KernelIdeal.Hand.kernelRun0.sl.v217, Cert.KernelIdeal.Hand.kernelRun0.sl.v214, Cert.KernelIdeal.Hand.kernelRun0.sl.v213, Cert.KernelIdeal.Hand.kernelRun0.sl.v212, Cert.KernelIdeal.Hand.kernelRun0.sl.H9_6, Cert.KernelIdeal.Hand.kernelRun0.sl.v216, Cert.KernelIdeal.Hand.kernelRun0.sl.v215, Cert.KernelIdeal.Hand.kernelRun0.sl.v100, Cert.KernelIdeal.Hand.kernelRun0.sl.cst_40, Cert.KernelIdeal.Hand.kernelRun0.sl.H7_6, Cert.KernelIdeal.Hand.kernelRun0.sl.H8_6, Cert.KernelIdeal.Hand.kernelRun0.sl.H9_6, mNew, alpha, probs, lNew, accNew, rowMax, rowSum, scoreU, scoreM, outTile, mInit, lInit, accInit, View.readCov_cons_toLoadRect, shapeCast_self] <;> (try rfl)

/-- Query tile 2, key tile 1: the three stored values from the three stored before. -/
theorem step_2_1 :
    Cert.KernelIdeal.Gen.k0_pay55 (Cert.KernelIdeal.Hand.kernelRun0.sl.v230 c arg1 harg1 arg2 harg2 arg3 harg3 arg5 arg6 arg8 x0 x1 x2) = mNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v223 c arg1 harg1 arg2 harg2 arg3 harg3 arg5 arg6 arg8 x0 x1 x2)
    ∧ Cert.KernelIdeal.Gen.k0_pay53 (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v236 c arg1 harg1 arg2 harg2 arg3 harg3 arg5 arg6 arg8 arg9 x0 x1 x2) = lNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v223 c arg1 harg1 arg2 harg2 arg3 harg3 arg5 arg6 arg8 x0 x1 x2) (Cert.KernelIdeal.Hand.kernelRun0.sl.v211 c arg1 harg1 arg2 harg2 arg3 harg3 arg5 arg6 arg8 arg9 x0 x1 x2)
    ∧ Cert.KernelIdeal.Gen.k0_pay54 (Cert.KernelIdeal.Hand.kernelRun0.sl.v132 c arg1 harg1 arg2 harg2 arg3 harg3 arg7 x0 x1 x2) (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v244 c arg1 harg1 arg2 harg2 arg3 harg3 arg5 arg6 arg7 arg8 arg10 x0 x1 x2) = accNew (scoreU (F := F) (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v223 c arg1 harg1 arg2 harg2 arg3 harg3 arg5 arg6 arg8 x0 x1 x2) (Cert.KernelIdeal.Hand.kernelRun0.sl.v220 c arg1 harg1 arg2 harg2 arg3 harg3 arg5 arg6 arg7 arg8 arg10 x0 x1 x2) (arg7.view.readCov (Cert.KernelIdeal.Hand.kernelRun0.sl.H6_1 c arg1 harg1 arg2 harg2 arg3 harg3 x0 x1 x2) (Rect.unit (s := S2048x128) ![512, 0] S512x128.size inb_S2048x128_S512x128_512_0).toLoadRect) := by
  refine ⟨?_, ?_, ?_⟩ <;>
    simp only [Cert.KernelIdeal.Hand.kernelRun0.sl.v230, Cert.KernelIdeal.Hand.kernelRun0.sl.v227, Cert.KernelIdeal.Hand.kernelRun0.sl.H7_7, Cert.KernelIdeal.Hand.kernelRun0.sl.v229, Cert.KernelIdeal.Hand.kernelRun0.sl.v228, Cert.KernelIdeal.Hand.kernelRun0.sl.v226, Cert.KernelIdeal.Hand.kernelRun0.sl.v179, Cert.KernelIdeal.Hand.kernelRun0.sl.v131, Cert.KernelIdeal.Hand.kernelRun0.sl.cst_66, Cert.KernelIdeal.Hand.kernelRun0.sl.v232, Cert.KernelIdeal.Hand.kernelRun0.sl.v231, Cert.KernelIdeal.Hand.kernelRun0.sl.v235, Cert.KernelIdeal.Hand.kernelRun0.sl.v234, Cert.KernelIdeal.Hand.kernelRun0.sl.v233, Cert.KernelIdeal.Hand.kernelRun0.sl.v236, Cert.KernelIdeal.Hand.kernelRun0.sl.H8_7, Cert.KernelIdeal.Hand.kernelRun0.sl.v132, Cert.KernelIdeal.Hand.kernelRun0.sl.v244, Cert.KernelIdeal.Hand.kernelRun0.sl.H9_7, Cert.KernelIdeal.Hand.kernelRun0.sl.H7_7, Cert.KernelIdeal.Hand.kernelRun0.sl.H8_7, Cert.KernelIdeal.Hand.kernelRun0.sl.H9_7, k0_pay55, k0_pay53, k0_pay54, mNew, alpha, probs, lNew, accNew, rowMax, rowSum, scoreU, scoreM, outTile, mInit, lInit, accInit, View.readCov_cons_toLoadRect, shapeCast_self] <;> (try rfl)

/-- Query tile 2, key tile 2 (the diagonal tile, masked): the three stored values from the three stored before. -/
theorem step_2_2 :
    Cert.KernelIdeal.Hand.kernelRun0.sl.v296 c arg1 harg1 arg2 harg2 arg3 harg3 arg5 arg6 arg8 x0 x1 x2 = mNew (scoreM (F := F) 1024#32 (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Gen.k0_pay55 (Cert.KernelIdeal.Hand.kernelRun0.sl.v230 c arg1 harg1 arg2 harg2 arg3 harg3 arg5 arg6 arg8 x0 x1 x2))
    ∧ Cert.KernelIdeal.Hand.kernelRun0.sl.v284 c arg1 harg1 arg2 harg2 arg3 harg3 arg5 arg6 arg8 arg9 x0 x1 x2 = lNew (scoreM (F := F) 1024#32 (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Gen.k0_pay55 (Cert.KernelIdeal.Hand.kernelRun0.sl.v230 c arg1 harg1 arg2 harg2 arg3 harg3 arg5 arg6 arg8 x0 x1 x2)) (Cert.KernelIdeal.Gen.k0_pay53 (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v236 c arg1 harg1 arg2 harg2 arg3 harg3 arg5 arg6 arg8 arg9 x0 x1 x2))
    ∧ Cert.KernelIdeal.Hand.kernelRun0.sl.v293 c arg1 harg1 arg2 harg2 arg3 harg3 arg5 arg6 arg7 arg8 arg10 x0 x1 x2 = accNew (scoreM (F := F) 1024#32 (arg5.view.readCov (Cert.KernelIdeal.Hand.kernelRun0.sl.H4_1 c arg1 harg1 arg2 harg2 arg3 harg3 x0 x1 x2) (Rect.unit (s := S2048x128) ![1024, 0] S512x128.size inb_S2048x128_S512x128_1024_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Gen.k0_pay55 (Cert.KernelIdeal.Hand.kernelRun0.sl.v230 c arg1 harg1 arg2 harg2 arg3 harg3 arg5 arg6 arg8 x0 x1 x2)) (Cert.KernelIdeal.Gen.k0_pay54 (Cert.KernelIdeal.Hand.kernelRun0.sl.v132 c arg1 harg1 arg2 harg2 arg3 harg3 arg7 x0 x1 x2) (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v244 c arg1 harg1 arg2 harg2 arg3 harg3 arg5 arg6 arg7 arg8 arg10 x0 x1 x2)) (arg7.view.readCov (Cert.KernelIdeal.Hand.kernelRun0.sl.H6_1 c arg1 harg1 arg2 harg2 arg3 harg3 x0 x1 x2) (Rect.unit (s := S2048x128) ![1024, 0] S512x128.size inb_S2048x128_S512x128_1024_0).toLoadRect) := by
  refine ⟨?_, ?_, ?_⟩ <;>
    simp only [Cert.KernelIdeal.Hand.kernelRun0.sl.v296, Cert.KernelIdeal.Hand.kernelRun0.sl.r_5, Cert.KernelIdeal.Hand.kernelRun0.sl.v179, Cert.KernelIdeal.Hand.kernelRun0.sl.v256, Cert.KernelIdeal.Hand.kernelRun0.sl.v268, Cert.KernelIdeal.Hand.kernelRun0.sl.H7_8, Cert.KernelIdeal.Hand.kernelRun0.sl.v284, Cert.KernelIdeal.Hand.kernelRun0.sl.v281, Cert.KernelIdeal.Hand.kernelRun0.sl.v278, Cert.KernelIdeal.Hand.kernelRun0.sl.v273, Cert.KernelIdeal.Hand.kernelRun0.sl.v272, Cert.KernelIdeal.Hand.kernelRun0.sl.v277, Cert.KernelIdeal.Hand.kernelRun0.sl.H8_8, Cert.KernelIdeal.Hand.kernelRun0.sl.v280, Cert.KernelIdeal.Hand.kernelRun0.sl.v279, Cert.KernelIdeal.Hand.kernelRun0.sl.v276, Cert.KernelIdeal.Hand.kernelRun0.sl.v275, Cert.KernelIdeal.Hand.kernelRun0.sl.r_4, Cert.KernelIdeal.Hand.kernelRun0.sl.v274, Cert.KernelIdeal.Hand.kernelRun0.sl.v293, Cert.KernelIdeal.Hand.kernelRun0.sl.v290, Cert.KernelIdeal.Hand.kernelRun0.sl.v287, Cert.KernelIdeal.Hand.kernelRun0.sl.v286, Cert.KernelIdeal.Hand.kernelRun0.sl.v285, Cert.KernelIdeal.Hand.kernelRun0.sl.H9_8, Cert.KernelIdeal.Hand.kernelRun0.sl.v289, Cert.KernelIdeal.Hand.kernelRun0.sl.v288, Cert.KernelIdeal.Hand.kernelRun0.sl.v257, Cert.KernelIdeal.Hand.kernelRun0.sl.cst_40, Cert.KernelIdeal.Hand.kernelRun0.sl.H7_8, Cert.KernelIdeal.Hand.kernelRun0.sl.H8_8, Cert.KernelIdeal.Hand.kernelRun0.sl.H9_8, k0_pay57, k0_pay55, k0_pay53, k0_pay56, k0_pay54, mNew, alpha, probs, lNew, accNew, rowMax, rowSum, scoreU, scoreM, outTile, mInit, lInit, accInit, View.readCov_cons_toLoadRect, shapeCast_self] <;> (try rfl)

/-- Query tile 3, key tile 0: the three stored values from the three stored before. -/
theorem step_3_0 :
    Cert.KernelIdeal.Hand.kernelRun0.sl.v348 c arg1 harg1 arg2 harg2 arg3 harg3 arg5 arg6 arg8 x0 x1 x2 = mNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29)
    ∧ Cert.KernelIdeal.Hand.kernelRun0.sl.v336 c arg1 harg1 arg2 harg2 arg3 harg3 arg5 arg6 arg8 arg9 x0 x1 x2 = lNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v94)
    ∧ Cert.KernelIdeal.Hand.kernelRun0.sl.v345 c arg1 harg1 arg2 harg2 arg3 harg3 arg5 arg6 arg7 arg8 arg10 x0 x1 x2 = accNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![0, 0] S512x128.size inb_S2048x128_S512x128_0_0).toLoadRect)) (Cert.KernelIdeal.Hand.kernelRun0.sl.v29) (Cert.KernelIdeal.Hand.kernelRun0.sl.v98) (arg7.view.readCov (Cert.KernelIdeal.Hand.kernelRun0.sl.H6_1 c arg1 harg1 arg2 harg2 arg3 harg3 x0 x1 x2) (Rect.unit (s := S2048x128) ![0, 0] S512x128.size inb_S2048x128_S512x128_0_0).toLoadRect) := by
  refine ⟨?_, ?_, ?_⟩ <;>
    simp only [Cert.KernelIdeal.Hand.kernelRun0.sl.v348, Cert.KernelIdeal.Hand.kernelRun0.sl.v323, Cert.KernelIdeal.Hand.kernelRun0.sl.v320, Cert.KernelIdeal.Hand.kernelRun0.sl.H7_10, Cert.KernelIdeal.Hand.kernelRun0.sl.v322, Cert.KernelIdeal.Hand.kernelRun0.sl.v321, Cert.KernelIdeal.Hand.kernelRun0.sl.v319, Cert.KernelIdeal.Hand.kernelRun0.sl.v304, Cert.KernelIdeal.Hand.kernelRun0.sl.v99, Cert.KernelIdeal.Hand.kernelRun0.sl.cst_66, Cert.KernelIdeal.Hand.kernelRun0.sl.v336, Cert.KernelIdeal.Hand.kernelRun0.sl.v333, Cert.KernelIdeal.Hand.kernelRun0.sl.v330, Cert.KernelIdeal.Hand.kernelRun0.sl.v325, Cert.KernelIdeal.Hand.kernelRun0.sl.v324, Cert.KernelIdeal.Hand.kernelRun0.sl.v329, Cert.KernelIdeal.Hand.kernelRun0.sl.H8_10, Cert.KernelIdeal.Hand.kernelRun0.sl.v332, Cert.KernelIdeal.Hand.kernelRun0.sl.v331, Cert.KernelIdeal.Hand.kernelRun0.sl.v328, Cert.KernelIdeal.Hand.kernelRun0.sl.v327, Cert.KernelIdeal.Hand.kernelRun0.sl.v326, Cert.KernelIdeal.Hand.kernelRun0.sl.v345, Cert.KernelIdeal.Hand.kernelRun0.sl.v342, Cert.KernelIdeal.Hand.kernelRun0.sl.v339, Cert.KernelIdeal.Hand.kernelRun0.sl.v338, Cert.KernelIdeal.Hand.kernelRun0.sl.v337, Cert.KernelIdeal.Hand.kernelRun0.sl.H9_10, Cert.KernelIdeal.Hand.kernelRun0.sl.v341, Cert.KernelIdeal.Hand.kernelRun0.sl.v340, Cert.KernelIdeal.Hand.kernelRun0.sl.v100, Cert.KernelIdeal.Hand.kernelRun0.sl.cst_40, Cert.KernelIdeal.Hand.kernelRun0.sl.H7_10, Cert.KernelIdeal.Hand.kernelRun0.sl.H8_10, Cert.KernelIdeal.Hand.kernelRun0.sl.H9_10, mNew, alpha, probs, lNew, accNew, rowMax, rowSum, scoreU, scoreM, outTile, mInit, lInit, accInit, View.readCov_cons_toLoadRect, shapeCast_self] <;> (try rfl)

/-- Query tile 3, key tile 1: the three stored values from the three stored before. -/
theorem step_3_1 :
    Cert.KernelIdeal.Hand.kernelRun0.sl.v380 c arg1 harg1 arg2 harg2 arg3 harg3 arg5 arg6 arg8 x0 x1 x2 = mNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v348 c arg1 harg1 arg2 harg2 arg3 harg3 arg5 arg6 arg8 x0 x1 x2)
    ∧ Cert.KernelIdeal.Hand.kernelRun0.sl.v368 c arg1 harg1 arg2 harg2 arg3 harg3 arg5 arg6 arg8 arg9 x0 x1 x2 = lNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v348 c arg1 harg1 arg2 harg2 arg3 harg3 arg5 arg6 arg8 x0 x1 x2) (Cert.KernelIdeal.Hand.kernelRun0.sl.v336 c arg1 harg1 arg2 harg2 arg3 harg3 arg5 arg6 arg8 arg9 x0 x1 x2)
    ∧ Cert.KernelIdeal.Hand.kernelRun0.sl.v377 c arg1 harg1 arg2 harg2 arg3 harg3 arg5 arg6 arg7 arg8 arg10 x0 x1 x2 = accNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![512, 0] S512x128.size inb_S2048x128_S512x128_512_0).toLoadRect)) (Cert.KernelIdeal.Hand.kernelRun0.sl.v348 c arg1 harg1 arg2 harg2 arg3 harg3 arg5 arg6 arg8 x0 x1 x2) (Cert.KernelIdeal.Hand.kernelRun0.sl.v345 c arg1 harg1 arg2 harg2 arg3 harg3 arg5 arg6 arg7 arg8 arg10 x0 x1 x2) (arg7.view.readCov (Cert.KernelIdeal.Hand.kernelRun0.sl.H6_1 c arg1 harg1 arg2 harg2 arg3 harg3 x0 x1 x2) (Rect.unit (s := S2048x128) ![512, 0] S512x128.size inb_S2048x128_S512x128_512_0).toLoadRect) := by
  refine ⟨?_, ?_, ?_⟩ <;>
    simp only [Cert.KernelIdeal.Hand.kernelRun0.sl.v380, Cert.KernelIdeal.Hand.kernelRun0.sl.v355, Cert.KernelIdeal.Hand.kernelRun0.sl.v352, Cert.KernelIdeal.Hand.kernelRun0.sl.H7_11, Cert.KernelIdeal.Hand.kernelRun0.sl.v354, Cert.KernelIdeal.Hand.kernelRun0.sl.v353, Cert.KernelIdeal.Hand.kernelRun0.sl.v351, Cert.KernelIdeal.Hand.kernelRun0.sl.v304, Cert.KernelIdeal.Hand.kernelRun0.sl.v131, Cert.KernelIdeal.Hand.kernelRun0.sl.cst_66, Cert.KernelIdeal.Hand.kernelRun0.sl.v368, Cert.KernelIdeal.Hand.kernelRun0.sl.v365, Cert.KernelIdeal.Hand.kernelRun0.sl.v362, Cert.KernelIdeal.Hand.kernelRun0.sl.v357, Cert.KernelIdeal.Hand.kernelRun0.sl.v356, Cert.KernelIdeal.Hand.kernelRun0.sl.v361, Cert.KernelIdeal.Hand.kernelRun0.sl.H8_11, Cert.KernelIdeal.Hand.kernelRun0.sl.v364, Cert.KernelIdeal.Hand.kernelRun0.sl.v363, Cert.KernelIdeal.Hand.kernelRun0.sl.v360, Cert.KernelIdeal.Hand.kernelRun0.sl.v359, Cert.KernelIdeal.Hand.kernelRun0.sl.v358, Cert.KernelIdeal.Hand.kernelRun0.sl.v377, Cert.KernelIdeal.Hand.kernelRun0.sl.v374, Cert.KernelIdeal.Hand.kernelRun0.sl.v371, Cert.KernelIdeal.Hand.kernelRun0.sl.v370, Cert.KernelIdeal.Hand.kernelRun0.sl.v369, Cert.KernelIdeal.Hand.kernelRun0.sl.H9_11, Cert.KernelIdeal.Hand.kernelRun0.sl.v373, Cert.KernelIdeal.Hand.kernelRun0.sl.v372, Cert.KernelIdeal.Hand.kernelRun0.sl.v132, Cert.KernelIdeal.Hand.kernelRun0.sl.cst_40, Cert.KernelIdeal.Hand.kernelRun0.sl.H7_11, Cert.KernelIdeal.Hand.kernelRun0.sl.H8_11, Cert.KernelIdeal.Hand.kernelRun0.sl.H9_11, mNew, alpha, probs, lNew, accNew, rowMax, rowSum, scoreU, scoreM, outTile, mInit, lInit, accInit, View.readCov_cons_toLoadRect, shapeCast_self] <;> (try rfl)

/-- Query tile 3, key tile 2: the three stored values from the three stored before. -/
theorem step_3_2 :
    Cert.KernelIdeal.Gen.k0_pay90 (Cert.KernelIdeal.Hand.kernelRun0.sl.v387 c arg1 harg1 arg2 harg2 arg3 harg3 arg5 arg6 arg8 x0 x1 x2) = mNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Hand.kernelRun0.sl.v380 c arg1 harg1 arg2 harg2 arg3 harg3 arg5 arg6 arg8 x0 x1 x2)
    ∧ Cert.KernelIdeal.Hand.kernelRun0.sl.v400 c arg1 harg1 arg2 harg2 arg3 harg3 arg5 arg6 arg8 arg9 x0 x1 x2 = lNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Hand.kernelRun0.sl.v380 c arg1 harg1 arg2 harg2 arg3 harg3 arg5 arg6 arg8 x0 x1 x2) (Cert.KernelIdeal.Hand.kernelRun0.sl.v368 c arg1 harg1 arg2 harg2 arg3 harg3 arg5 arg6 arg8 arg9 x0 x1 x2)
    ∧ Cert.KernelIdeal.Hand.kernelRun0.sl.v409 c arg1 harg1 arg2 harg2 arg3 harg3 arg5 arg6 arg7 arg8 arg10 x0 x1 x2 = accNew (scoreU (F := F) (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1024, 0] S512x128.size inb_S2048x128_S512x128_1024_0).toLoadRect)) (Cert.KernelIdeal.Hand.kernelRun0.sl.v380 c arg1 harg1 arg2 harg2 arg3 harg3 arg5 arg6 arg8 x0 x1 x2) (Cert.KernelIdeal.Hand.kernelRun0.sl.v377 c arg1 harg1 arg2 harg2 arg3 harg3 arg5 arg6 arg7 arg8 arg10 x0 x1 x2) (arg7.view.readCov (Cert.KernelIdeal.Hand.kernelRun0.sl.H6_1 c arg1 harg1 arg2 harg2 arg3 harg3 x0 x1 x2) (Rect.unit (s := S2048x128) ![1024, 0] S512x128.size inb_S2048x128_S512x128_1024_0).toLoadRect) := by
  refine ⟨?_, ?_, ?_⟩ <;>
    simp only [Cert.KernelIdeal.Hand.kernelRun0.sl.v387, Cert.KernelIdeal.Hand.kernelRun0.sl.v384, Cert.KernelIdeal.Hand.kernelRun0.sl.H7_12, Cert.KernelIdeal.Hand.kernelRun0.sl.v386, Cert.KernelIdeal.Hand.kernelRun0.sl.v385, Cert.KernelIdeal.Hand.kernelRun0.sl.v383, Cert.KernelIdeal.Hand.kernelRun0.sl.v304, Cert.KernelIdeal.Hand.kernelRun0.sl.v381, Cert.KernelIdeal.Hand.kernelRun0.sl.cst_66, Cert.KernelIdeal.Hand.kernelRun0.sl.v400, Cert.KernelIdeal.Hand.kernelRun0.sl.v397, Cert.KernelIdeal.Hand.kernelRun0.sl.v394, Cert.KernelIdeal.Hand.kernelRun0.sl.v389, Cert.KernelIdeal.Hand.kernelRun0.sl.v388, Cert.KernelIdeal.Hand.kernelRun0.sl.v393, Cert.KernelIdeal.Hand.kernelRun0.sl.H8_12, Cert.KernelIdeal.Hand.kernelRun0.sl.v396, Cert.KernelIdeal.Hand.kernelRun0.sl.v395, Cert.KernelIdeal.Hand.kernelRun0.sl.v392, Cert.KernelIdeal.Hand.kernelRun0.sl.v391, Cert.KernelIdeal.Hand.kernelRun0.sl.v390, Cert.KernelIdeal.Hand.kernelRun0.sl.v409, Cert.KernelIdeal.Hand.kernelRun0.sl.v406, Cert.KernelIdeal.Hand.kernelRun0.sl.v403, Cert.KernelIdeal.Hand.kernelRun0.sl.v402, Cert.KernelIdeal.Hand.kernelRun0.sl.v401, Cert.KernelIdeal.Hand.kernelRun0.sl.H9_12, Cert.KernelIdeal.Hand.kernelRun0.sl.v405, Cert.KernelIdeal.Hand.kernelRun0.sl.v404, Cert.KernelIdeal.Hand.kernelRun0.sl.v382, Cert.KernelIdeal.Hand.kernelRun0.sl.cst_40, Cert.KernelIdeal.Hand.kernelRun0.sl.H7_12, Cert.KernelIdeal.Hand.kernelRun0.sl.H8_12, Cert.KernelIdeal.Hand.kernelRun0.sl.H9_12, k0_pay90, mNew, alpha, probs, lNew, accNew, rowMax, rowSum, scoreU, scoreM, outTile, mInit, lInit, accInit, View.readCov_cons_toLoadRect, shapeCast_self] <;> (try rfl)

/-- Query tile 3, key tile 3 (the diagonal tile, masked): the three stored values from the three stored before. -/
theorem step_3_3 :
    k0_pay2 (Cert.KernelIdeal.Hand.kernelRun0.sl.r_6 c arg1 harg1 arg2 harg2 arg3 harg3 arg5 arg6 arg8 x0 x1 x2) = mNew (scoreM (F := F) 1536#32 (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1536, 0] S512x128.size inb_S2048x128_S512x128_1536_0).toLoadRect)) (Cert.KernelIdeal.Gen.k0_pay90 (Cert.KernelIdeal.Hand.kernelRun0.sl.v387 c arg1 harg1 arg2 harg2 arg3 harg3 arg5 arg6 arg8 x0 x1 x2))
    ∧ Cert.KernelIdeal.Gen.k0_pay95 (Cert.KernelIdeal.Hand.kernelRun0.sl.v304 c arg1 harg1 arg2 harg2 arg3 harg3 arg5 x0 x1 x2) (Cert.KernelIdeal.Hand.kernelRun0.sl.v413 c arg1 harg1 arg2 harg2 arg3 harg3 arg6 x0 x1 x2) (Cert.KernelIdeal.Hand.kernelRun0.sl.v425 c arg1 harg1 arg2 harg2 arg3 harg3 arg5 arg6 arg8 x0 x1 x2) (Cert.KernelIdeal.Hand.kernelRun0.sl.v434 c arg1 harg1 arg2 harg2 arg3 harg3 arg5 arg6 arg8 arg9 x0 x1 x2) = lNew (scoreM (F := F) 1536#32 (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1536, 0] S512x128.size inb_S2048x128_S512x128_1536_0).toLoadRect)) (Cert.KernelIdeal.Gen.k0_pay90 (Cert.KernelIdeal.Hand.kernelRun0.sl.v387 c arg1 harg1 arg2 harg2 arg3 harg3 arg5 arg6 arg8 x0 x1 x2)) (Cert.KernelIdeal.Hand.kernelRun0.sl.v400 c arg1 harg1 arg2 harg2 arg3 harg3 arg5 arg6 arg8 arg9 x0 x1 x2)
    ∧ Cert.KernelIdeal.Gen.k0_pay1 (Cert.KernelIdeal.Hand.kernelRun0.sl.v414 c arg1 harg1 arg2 harg2 arg3 harg3 arg7 x0 x1 x2) (Cert.KernelIdeal.Hand.kernelRun0.sl.r_7 c arg1 harg1 arg2 harg2 arg3 harg3 arg5 arg6 arg7 arg8 arg10 x0 x1 x2) (Cert.KernelIdeal.Hand.kernelRun0.sl.r_8 c arg1 harg1 arg2 harg2 arg3 harg3 arg5 arg6 arg8 x0 x1 x2) Cert.KernelIdeal.Hand.kernelRun0.sl.cst_40 = accNew (scoreM (F := F) 1536#32 (arg5.view.readCov (Cert.KernelIdeal.Hand.kernelRun0.sl.H4_1 c arg1 harg1 arg2 harg2 arg3 harg3 x0 x1 x2) (Rect.unit (s := S2048x128) ![1536, 0] S512x128.size inb_S2048x128_S512x128_1536_0).toLoadRect) (arg6.view.readCov (Cert.KernelIdeal.Hand.kernelRun0.sl.H5_1 c arg1 harg1 arg2 harg2 arg3 harg3 x0 x1 x2) (Rect.unit (s := S2048x128) ![1536, 0] S512x128.size inb_S2048x128_S512x128_1536_0).toLoadRect)) (Cert.KernelIdeal.Gen.k0_pay90 (Cert.KernelIdeal.Hand.kernelRun0.sl.v387 c arg1 harg1 arg2 harg2 arg3 harg3 arg5 arg6 arg8 x0 x1 x2)) (Cert.KernelIdeal.Hand.kernelRun0.sl.v409 c arg1 harg1 arg2 harg2 arg3 harg3 arg5 arg6 arg7 arg8 arg10 x0 x1 x2) (arg7.view.readCov (Cert.KernelIdeal.Hand.kernelRun0.sl.H6_1 c arg1 harg1 arg2 harg2 arg3 harg3 x0 x1 x2) (Rect.unit (s := S2048x128) ![1536, 0] S512x128.size inb_S2048x128_S512x128_1536_0).toLoadRect) := by
  refine ⟨?_, ?_, ?_⟩ <;>
    simp only [Cert.KernelIdeal.Hand.kernelRun0.sl.r_6, Cert.KernelIdeal.Hand.kernelRun0.sl.v304, Cert.KernelIdeal.Hand.kernelRun0.sl.v413, Cert.KernelIdeal.Hand.kernelRun0.sl.v425, Cert.KernelIdeal.Hand.kernelRun0.sl.H7_13, Cert.KernelIdeal.Hand.kernelRun0.sl.v434, Cert.KernelIdeal.Hand.kernelRun0.sl.H8_13, Cert.KernelIdeal.Hand.kernelRun0.sl.v414, Cert.KernelIdeal.Hand.kernelRun0.sl.r_7, Cert.KernelIdeal.Hand.kernelRun0.sl.v442, Cert.KernelIdeal.Hand.kernelRun0.sl.H9_13, Cert.KernelIdeal.Hand.kernelRun0.sl.r_8, Cert.KernelIdeal.Hand.kernelRun0.sl.cst_40, Cert.KernelIdeal.Hand.kernelRun0.sl.H7_13, Cert.KernelIdeal.Hand.kernelRun0.sl.H8_13, Cert.KernelIdeal.Hand.kernelRun0.sl.H9_13, k0_pay92, k0_pay90, k0_pay96, k0_pay97, k0_pay2, k0_pay95, k0_pay1, mNew, alpha, probs, lNew, accNew, rowMax, rowSum, scoreU, scoreM, outTile, mInit, lInit, accInit, View.readCov_cons_toLoadRect, shapeCast_self] <;> (try rfl)

/-- Query tile 0's stored rows: the last numerator over the last denominator. -/
theorem out_0 :
    Cert.KernelIdeal.Hand.kernelRun0.sl.v85 c arg1 harg1 arg2 harg2 arg3 harg3 arg5 arg6 arg7 arg8 arg9 arg10 x0 x1 x2 = outTile (F := F) (Cert.KernelIdeal.Hand.kernelRun0.sl.v75 c arg1 harg1 arg2 harg2 arg3 harg3 arg5 arg6 arg7 arg8 arg10 x0 x1 x2) (Cert.KernelIdeal.Gen.k0_pay16 (Cert.KernelIdeal.Hand.kernelRun0.sl.v25 c arg1 harg1 arg2 harg2 arg3 harg3 arg5 x0 x1 x2) (Cert.KernelIdeal.Hand.kernelRun0.sl.v38 c arg1 harg1 arg2 harg2 arg3 harg3 arg6 x0 x1 x2) (Cert.KernelIdeal.Hand.kernelRun0.sl.v50 c arg8) (Cert.KernelIdeal.Hand.kernelRun0.sl.v59 c arg9)) := by
  simp only [Cert.KernelIdeal.Hand.kernelRun0.sl.v85, Cert.KernelIdeal.Hand.kernelRun0.sl.v82, Cert.KernelIdeal.Hand.kernelRun0.sl.v79, Cert.KernelIdeal.Hand.kernelRun0.sl.H9_2, Cert.KernelIdeal.Hand.kernelRun0.sl.v81, Cert.KernelIdeal.Hand.kernelRun0.sl.v80, Cert.KernelIdeal.Hand.kernelRun0.sl.H8_2, Cert.KernelIdeal.Hand.kernelRun0.sl.H8_2, Cert.KernelIdeal.Hand.kernelRun0.sl.H9_2, k0_pay16, mNew, alpha, probs, lNew, accNew, rowMax, rowSum, scoreU, scoreM, outTile, mInit, lInit, accInit, View.readCov_cons_toLoadRect, shapeCast_self] <;> (try rfl)

/-- Query tile 1's stored rows: the last numerator over the last denominator. -/
theorem out_1 :
    Cert.KernelIdeal.Hand.kernelRun0.sl.v178 c arg1 harg1 arg2 harg2 arg3 harg3 arg5 arg6 arg7 arg8 arg9 arg10 x0 x1 x2 = outTile (F := F) (Cert.KernelIdeal.Gen.k0_pay36 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v132 c arg1 harg1 arg2 harg2 arg3 harg3 arg7 x0 x1 x2) (Cert.KernelIdeal.Hand.kernelRun0.sl.v143 c arg1 harg1 arg2 harg2 arg3 harg3 arg5 arg6 arg8 x0 x1 x2) (Cert.KernelIdeal.Hand.kernelRun0.sl.v160 c arg1 harg1 arg2 harg2 arg3 harg3 arg5 arg6 arg7 arg8 arg10 x0 x1 x2)) (Cert.KernelIdeal.Gen.k0_pay35 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v143 c arg1 harg1 arg2 harg2 arg3 harg3 arg5 arg6 arg8 x0 x1 x2) (Cert.KernelIdeal.Hand.kernelRun0.sl.v152 c arg1 harg1 arg2 harg2 arg3 harg3 arg5 arg6 arg8 arg9 x0 x1 x2)) := by
  simp only [Cert.KernelIdeal.Hand.kernelRun0.sl.v178, Cert.KernelIdeal.Hand.kernelRun0.sl.v175, Cert.KernelIdeal.Hand.kernelRun0.sl.v172, Cert.KernelIdeal.Hand.kernelRun0.sl.H9_5, Cert.KernelIdeal.Hand.kernelRun0.sl.v174, Cert.KernelIdeal.Hand.kernelRun0.sl.v173, Cert.KernelIdeal.Hand.kernelRun0.sl.H8_5, Cert.KernelIdeal.Hand.kernelRun0.sl.H8_5, Cert.KernelIdeal.Hand.kernelRun0.sl.H9_5, k0_pay36, k0_pay35, mNew, alpha, probs, lNew, accNew, rowMax, rowSum, scoreU, scoreM, outTile, mInit, lInit, accInit, View.readCov_cons_toLoadRect, shapeCast_self] <;> (try rfl)

/-- Query tile 2's stored rows: the last numerator over the last denominator. -/
theorem out_2 :
    Cert.KernelIdeal.Hand.kernelRun0.sl.v303 c arg1 harg1 arg2 harg2 arg3 harg3 arg5 arg6 arg7 arg8 arg9 arg10 x0 x1 x2 = outTile (F := F) (Cert.KernelIdeal.Hand.kernelRun0.sl.v293 c arg1 harg1 arg2 harg2 arg3 harg3 arg5 arg6 arg7 arg8 arg10 x0 x1 x2) (Cert.KernelIdeal.Hand.kernelRun0.sl.v284 c arg1 harg1 arg2 harg2 arg3 harg3 arg5 arg6 arg8 arg9 x0 x1 x2) := by
  simp only [Cert.KernelIdeal.Hand.kernelRun0.sl.v303, Cert.KernelIdeal.Hand.kernelRun0.sl.v300, Cert.KernelIdeal.Hand.kernelRun0.sl.v297, Cert.KernelIdeal.Hand.kernelRun0.sl.H9_9, Cert.KernelIdeal.Hand.kernelRun0.sl.v299, Cert.KernelIdeal.Hand.kernelRun0.sl.v298, Cert.KernelIdeal.Hand.kernelRun0.sl.H8_9, Cert.KernelIdeal.Hand.kernelRun0.sl.H8_9, Cert.KernelIdeal.Hand.kernelRun0.sl.H9_9, mNew, alpha, probs, lNew, accNew, rowMax, rowSum, scoreU, scoreM, outTile, mInit, lInit, accInit, View.readCov_cons_toLoadRect, shapeCast_self] <;> (try rfl)

/-- Query tile 3's stored rows: the last numerator over the last denominator. -/
theorem out_3 :
    k0_pay3 (Cert.KernelIdeal.Hand.kernelRun0.sl.v454 c arg1 harg1 arg2 harg2 arg3 harg3 arg5 arg6 arg7 arg8 arg10 x0 x1 x2) (Cert.KernelIdeal.Hand.kernelRun0.sl.v455 c arg1 harg1 arg2 harg2 arg3 harg3 arg5 arg6 arg8 arg9 x0 x1 x2) = outTile (F := F) (Cert.KernelIdeal.Gen.k0_pay1 (Cert.KernelIdeal.Hand.kernelRun0.sl.v414 c arg1 harg1 arg2 harg2 arg3 harg3 arg7 x0 x1 x2) (Cert.KernelIdeal.Hand.kernelRun0.sl.r_7 c arg1 harg1 arg2 harg2 arg3 harg3 arg5 arg6 arg7 arg8 arg10 x0 x1 x2) (Cert.KernelIdeal.Hand.kernelRun0.sl.r_8 c arg1 harg1 arg2 harg2 arg3 harg3 arg5 arg6 arg8 x0 x1 x2) Cert.KernelIdeal.Hand.kernelRun0.sl.cst_40) (Cert.KernelIdeal.Gen.k0_pay95 (Cert.KernelIdeal.Hand.kernelRun0.sl.v304 c arg1 harg1 arg2 harg2 arg3 harg3 arg5 x0 x1 x2) (Cert.KernelIdeal.Hand.kernelRun0.sl.v413 c arg1 harg1 arg2 harg2 arg3 harg3 arg6 x0 x1 x2) (Cert.KernelIdeal.Hand.kernelRun0.sl.v425 c arg1 harg1 arg2 harg2 arg3 harg3 arg5 arg6 arg8 x0 x1 x2) (Cert.KernelIdeal.Hand.kernelRun0.sl.v434 c arg1 harg1 arg2 harg2 arg3 harg3 arg5 arg6 arg8 arg9 x0 x1 x2)) := by
  simp only [Cert.KernelIdeal.Hand.kernelRun0.sl.v454, Cert.KernelIdeal.Hand.kernelRun0.sl.H9_14, Cert.KernelIdeal.Hand.kernelRun0.sl.v455, Cert.KernelIdeal.Hand.kernelRun0.sl.H8_14, Cert.KernelIdeal.Hand.kernelRun0.sl.H8_14, Cert.KernelIdeal.Hand.kernelRun0.sl.H9_14, k0_pay1, k0_pay95, k0_pay3, mNew, alpha, probs, lNew, accNew, rowMax, rowSum, scoreU, scoreM, outTile, mInit, lInit, accInit, View.readCov_cons_toLoadRect, shapeCast_self] <;> (try rfl)

end Cert.KernelIdeal.Hand

end
-- ==== Proof.KI.Loads.lean ====
/-
  The three projection scratch buffers and their row tiles. The body stores the query, key and value projections of
  the whole batch element (three 128-column slices of x·W + b) into three scratch buffers, whole; every later
  load of 512 rows of one of them therefore reads those rows of the stored projection.
-/
import proofs.«427742_j6957847019746_3_alg».proof.Proof.KI.Run0
import proofs.«427742_j6957847019746_3_alg».proof.Proof.KI.Steps
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F] [Named F]

variable (c : Dev nD) (arg1 : Memref sig .tc .vmem S1x2048x1024 .f32) (harg1 : arg1.IsWhole) (arg2 : Memref sig .tc .vmem S1024x384 .bf16) (harg2 : arg2.IsWhole)
  (arg3 : Memref sig .tc .vmem S1x384 .f32) (harg3 : arg3.IsWhole)
  (arg5 arg6 arg7 : Memref sig .tc .vmem S2048x128 .bf16)
  (x0 : Vec F S1x2048x1024 .f32) (x1 : Vec F S1024x384 .bf16) (x2 : Vec F S1x384 .f32)

theorem zero2 : (![0, 0] : Fin 2 → Nat) = fun _ => 0 := by funext a; fin_cases a <;> rfl
theorem zero3 : (![0, 0, 0] : Fin 3 → Nat) = fun _ => 0 := by funext a; fin_cases a <;> rfl

/-- What the body stores into the query scratch buffer is the query projection of the three input blocks. -/
theorem qAll_eq : Cert.KernelIdeal.Hand.kernelRun0.sl.v14 c arg1 harg1 arg2 harg2 arg3 harg3 x0 x1 x2 = k0_pay5 x0 x1 x2 := by
  simp only [Cert.KernelIdeal.Hand.kernelRun0.sl.v14, Cert.KernelIdeal.Hand.kernelRun0.sl.v11, Cert.KernelIdeal.Hand.kernelRun0.sl.v10, Cert.KernelIdeal.Hand.kernelRun0.sl.v9,
    Cert.KernelIdeal.Hand.kernelRun0.sl.v5, Cert.KernelIdeal.Hand.kernelRun0.sl.v8, Cert.KernelIdeal.Hand.kernelRun0.sl.v7, Cert.KernelIdeal.Hand.kernelRun0.sl.v4,
    Cert.KernelIdeal.Hand.kernelRun0.sl.v2, Cert.KernelIdeal.Hand.kernelRun0.sl.v1, Cert.KernelIdeal.Hand.kernelRun0.sl.cst, k0_pay5, k0_pay4,
    View.readAt_eq_ld, harg1.read_unread, harg2.read_unread, harg3.read_unread,
    View.ld_unit_zero (S := S1x2048x1024) zero3, View.ld_unit_zero (S := S1024x384) zero2, View.ld_unit_zero (S := S1x384) zero2]

/-- Likewise the key scratch buffer -/
theorem kAll_eq : Cert.KernelIdeal.Hand.kernelRun0.sl.v19 c arg1 harg1 arg2 harg2 arg3 harg3 x0 x1 x2 = k0_pay6 x0 x1 x2 := by
  simp only [Cert.KernelIdeal.Hand.kernelRun0.sl.v19, Cert.KernelIdeal.Hand.kernelRun0.sl.v16, Cert.KernelIdeal.Hand.kernelRun0.sl.v15, Cert.KernelIdeal.Hand.kernelRun0.sl.v9,
    Cert.KernelIdeal.Hand.kernelRun0.sl.v5, Cert.KernelIdeal.Hand.kernelRun0.sl.v8, Cert.KernelIdeal.Hand.kernelRun0.sl.v7, Cert.KernelIdeal.Hand.kernelRun0.sl.v4,
    Cert.KernelIdeal.Hand.kernelRun0.sl.v2, Cert.KernelIdeal.Hand.kernelRun0.sl.v1, Cert.KernelIdeal.Hand.kernelRun0.sl.cst, k0_pay6, k0_pay4,
    View.readAt_eq_ld, harg1.read_unread, harg2.read_unread, harg3.read_unread,
    View.ld_unit_zero (S := S1x2048x1024) zero3, View.ld_unit_zero (S := S1024x384) zero2, View.ld_unit_zero (S := S1x384) zero2]

/-- and the value scratch buffer. -/
theorem vAll_eq : Cert.KernelIdeal.Hand.kernelRun0.sl.v24 c arg1 harg1 arg2 harg2 arg3 harg3 x0 x1 x2 = k0_pay7 x0 x1 x2 := by
  simp only [Cert.KernelIdeal.Hand.kernelRun0.sl.v24, Cert.KernelIdeal.Hand.kernelRun0.sl.v21, Cert.KernelIdeal.Hand.kernelRun0.sl.v20, Cert.KernelIdeal.Hand.kernelRun0.sl.v9,
    Cert.KernelIdeal.Hand.kernelRun0.sl.v5, Cert.KernelIdeal.Hand.kernelRun0.sl.v8, Cert.KernelIdeal.Hand.kernelRun0.sl.v7, Cert.KernelIdeal.Hand.kernelRun0.sl.v4,
    Cert.KernelIdeal.Hand.kernelRun0.sl.v2, Cert.KernelIdeal.Hand.kernelRun0.sl.v1, Cert.KernelIdeal.Hand.kernelRun0.sl.cst, k0_pay7, k0_pay4,
    View.readAt_eq_ld, harg1.read_unread, harg2.read_unread, harg3.read_unread,
    View.ld_unit_zero (S := S1x2048x1024) zero3, View.ld_unit_zero (S := S1024x384) zero2, View.ld_unit_zero (S := S1x384) zero2]

/-- Row r, column h of a 512-row box at row offset `off` of a 2048-row array is row off + r, column h of the array. -/
theorem tile_idx (off : Nat) (inb : ∀ a : Fin 2, (![off, 0] : Fin 2 → Nat) a + S512x128.size a ≤ S2048x128.size a) (r : Fin 512) (h : Fin 128)
    (hr : off + r.val < 2048) :
    (Rect.unit (s := S2048x128) ![off, 0] S512x128.size inb).toLoadRect.idx (ix2 r h) = ix2 (⟨off + r.val, hr⟩ : Fin 2048) h := by
  funext a
  refine Fin.ext ?_
  match a with
  | ⟨0, _⟩ => show off + 1 * r.val = off + r.val; omega
  | ⟨1, _⟩ => show 0 + 1 * h.val = h.val; omega

/-- A 512-row load of the query scratch buffer reads those rows of the query projection. -/
theorem qTile_apply (off : Nat) (inb : ∀ a : Fin 2, (![off, 0] : Fin 2 → Nat) a + S512x128.size a ≤ S2048x128.size a) (r : Fin 512) (h : Fin 128)
    (hr : off + r.val < 2048) :
    (arg5.view.readCov (Cert.KernelIdeal.Hand.kernelRun0.sl.H4_1 c arg1 harg1 arg2 harg2 arg3 harg3 x0 x1 x2) (Rect.unit (s := S2048x128) ![off, 0] S512x128.size inb).toLoadRect) (ix2 r h)
      = k0_pay5 x0 x1 x2 (ix2 (⟨off + r.val, hr⟩ : Fin 2048) h) := by
  rw [View.readCov_eq_canon']
  simp only [Cert.KernelIdeal.Hand.kernelRun0.sl.H4_1]
  rw [View.canon_unit_zero zero2, qAll_eq, tile_idx off inb r h hr]

theorem kTile_apply (off : Nat) (inb : ∀ a : Fin 2, (![off, 0] : Fin 2 → Nat) a + S512x128.size a ≤ S2048x128.size a) (r : Fin 512) (h : Fin 128)
    (hr : off + r.val < 2048) :
    (arg6.view.readCov (Cert.KernelIdeal.Hand.kernelRun0.sl.H5_1 c arg1 harg1 arg2 harg2 arg3 harg3 x0 x1 x2) (Rect.unit (s := S2048x128) ![off, 0] S512x128.size inb).toLoadRect) (ix2 r h)
      = k0_pay6 x0 x1 x2 (ix2 (⟨off + r.val, hr⟩ : Fin 2048) h) := by
  rw [View.readCov_eq_canon']
  simp only [Cert.KernelIdeal.Hand.kernelRun0.sl.H5_1]
  rw [View.canon_unit_zero zero2, kAll_eq, tile_idx off inb r h hr]

theorem vTile_apply (off : Nat) (inb : ∀ a : Fin 2, (![off, 0] : Fin 2 → Nat) a + S512x128.size a ≤ S2048x128.size a) (r : Fin 512) (h : Fin 128)
    (hr : off + r.val < 2048) :
    (arg7.view.readCov (Cert.KernelIdeal.Hand.kernelRun0.sl.H6_1 c arg1 harg1 arg2 harg2 arg3 harg3 x0 x1 x2) (Rect.unit (s := S2048x128) ![off, 0] S512x128.size inb).toLoadRect) (ix2 r h)
      = k0_pay7 x0 x1 x2 (ix2 (⟨off + r.val, hr⟩ : Fin 2048) h) := by
  rw [View.readCov_eq_canon']
  simp only [Cert.KernelIdeal.Hand.kernelRun0.sl.H6_1]
  rw [View.canon_unit_zero zero2, vAll_eq, tile_idx off inb r h hr]

end Cert.KernelIdeal.Hand

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.Softmax.lean ====
/-
  The running form of a softmax-weighted average, on the extended reals.

  A row of scores is a family w u in ℝ ∪ {-∞} (a masked entry is -∞), the values v u h are real. The running
  computation keeps a triple (m, l, acc): a shift m, the sum l of exp (w u - m) over the columns seen, and the
  sums acc h of exp (w u - m) · v u h. Taking in a new block T of columns with a real number X for its largest score
  replaces m by m' = max m X, and rescales l and acc by exp (m - m') before adding the block's terms. Nothing below
  uses that X is the largest score of the block: all that matters is that every shift is a REAL number, because
  exp (m - m') · exp (w - m) = exp (w - m') for real m, m', and because a common positive factor cancels in acc / l.
  The first block starts from (-∞, 0, 0): exp (-∞ - m') = 0 wipes the empty state.
-/
import Idealize.ShloMosaic.PureOps.Ideal
import proofs.«427742_j6957847019746_3_alg».proof.Proof.LibRealSums

noncomputable section

namespace Cert.Softmax

open Idealize.ShloMosaic

variable {U H : Type}

/-- The weight exp (x - μ) of a score x in ℝ ∪ {-∞} at the real shift μ, as a real number: 0 at -∞. -/
def wt (μ : ℝ) (x : EReal) : ℝ := if x = ⊥ then 0 else Real.exp (x.toReal - μ)

theorem wt_bot (μ : ℝ) : wt μ ⊥ = 0 := by simp [wt]
theorem wt_coe (μ r : ℝ) : wt μ (r : EReal) = Real.exp (r - μ) := by simp [wt]
theorem wt_zero_coe (r : ℝ) : wt 0 (r : EReal) = Real.exp r := by simp [wt]
theorem wt_nonneg (μ : ℝ) (x : EReal) : 0 ≤ wt μ x := by
  unfold wt; split_ifs
  · exact le_rfl
  · exact (Real.exp_pos _).le

/-- A score that is not -∞ has a positive weight. -/
private theorem wt_pos (μ : ℝ) {x : EReal} (hx : x ≠ ⊥) : 0 < wt μ x := by
  unfold wt; rw [if_neg hx]; exact Real.exp_pos _

/-- Changing the shift from μ to μ' multiplies every weight by exp (μ - μ'). -/
private theorem wt_rescale (μ μ' : ℝ) (x : EReal) : Real.exp (μ - μ') * wt μ x = wt μ' x := by
  unfold wt; split_ifs with hx
  · simp
  · rw [← Real.exp_add]; congr 1; ring

/-- The sum of the weights over columns that hold a real score is positive. -/
private theorem sum_wt_pos {w : U → EReal} {S : Finset U} (μ : ℝ) (hne : ∃ u ∈ S, w u ≠ ⊥) :
    0 < ∑ u ∈ S, wt μ (w u) := by
  obtain ⟨u, hu, hx⟩ := hne
  exact Finset.sum_pos' (fun i _ => wt_nonneg μ _) ⟨u, hu, wt_pos μ hx⟩

/-- The weighted average does not depend on the shift: the common factor exp (-μ) cancels. -/
private theorem ratio_shift {w : U → EReal} (f : U → ℝ) (S : Finset U) (μ : ℝ) :
    (∑ u ∈ S, wt μ (w u) * f u) / (∑ u ∈ S, wt μ (w u))
      = (∑ u ∈ S, wt 0 (w u) * f u) / (∑ u ∈ S, wt 0 (w u)) := by
  have h1 : ∑ u ∈ S, wt μ (w u) * f u = Real.exp (0 - μ) * ∑ u ∈ S, wt 0 (w u) * f u := by
    rw [Finset.mul_sum]; exact Finset.sum_congr rfl fun u _ => by rw [← mul_assoc, wt_rescale]
  have h2 : ∑ u ∈ S, wt μ (w u) = Real.exp (0 - μ) * ∑ u ∈ S, wt 0 (w u) := by
    rw [Finset.mul_sum]; exact Finset.sum_congr rfl fun u _ => by rw [wt_rescale]
  rw [h1, h2, mul_div_mul_left _ _ (Real.exp_pos _).ne']

/-- The quotient of a real by a nonzero real, in the extended reals, is the real quotient. -/
private theorem div_coe_coe (a : ℝ) {r : ℝ} (h : r ≠ 0) : Ideal.div (a : EReal) (r : EReal) = ((a / r : ℝ) : EReal) := by
  rw [Ideal.div_coe h, ← EReal.coe_mul, mul_one_div]

/-- The extended-real exponential of a shifted score is the weight. -/
theorem exp_sub (μ : ℝ) {x : EReal} (hx : x ≠ ⊤) : Ideal.exp (x - (μ : EReal)) = ((wt μ x : ℝ) : EReal) := by
  induction x using EReal.rec with
  | bot => rw [EReal.bot_sub, Ideal.exp_bot, wt_bot, EReal.coe_zero]
  | coe r => rw [← EReal.coe_sub, Ideal.exp_coe, wt_coe]
  | top => exact absurd rfl hx

/-- The running triple after the columns `S`: some real shift μ with m = μ, l = Σ_S exp (w u - μ) and
    acc h = Σ_S exp (w u - μ) · v u h. -/
def Inv (w : U → EReal) (v : U → H → ℝ) (S : Finset U) (m l : EReal) (acc : H → EReal) : Prop :=
  ∃ μ : ℝ, m = (μ : EReal) ∧ l = ((∑ u ∈ S, wt μ (w u) : ℝ) : EReal)
    ∧ ∀ h, acc h = ((∑ u ∈ S, wt μ (w u) * v u h : ℝ) : EReal)

/-- The first block, from the empty state (-∞, 0, 0). -/
theorem Inv.first {w : U → EReal} {v : U → H → ℝ} (T : Finset U) (hw : ∀ u ∈ T, w u ≠ ⊤) {X : EReal} {ξ : ℝ} (hX : X = (ξ : EReal))
    {m' l' : EReal} {acc' : H → EReal}
    (hm : m' = max ⊥ X)
    (hl : l' = Ideal.exp (⊥ - m') * 0 + ∑ u ∈ T, Ideal.exp (w u - m'))
    (hacc : ∀ h, acc' h = Ideal.exp (⊥ - m') * 0 + ∑ u ∈ T, Ideal.exp (w u - m') * ((v u h : ℝ) : EReal)) :
    Inv w v T m' l' acc' := by
  have hm' : m' = (ξ : EReal) := by rw [hm, hX, max_eq_right bot_le]
  refine ⟨ξ, hm', ?_, ?_⟩
  · rw [hl, hm', Cert.RealSums.coe_sum, mul_zero, zero_add]
    exact Finset.sum_congr rfl fun u hu => exp_sub ξ (hw u hu)
  · intro h
    rw [hacc, hm', Cert.RealSums.coe_sum, mul_zero, zero_add]
    exact Finset.sum_congr rfl fun u hu => by rw [exp_sub ξ (hw u hu), EReal.coe_mul]

/-- A further block of columns disjoint from those seen. -/
theorem Inv.step [DecidableEq U] {w : U → EReal} {v : U → H → ℝ} {S T : Finset U} (hd : Disjoint S T) {m l : EReal} {acc : H → EReal} (h : Inv w v S m l acc)
    (hw : ∀ u ∈ T, w u ≠ ⊤) {X : EReal} {ξ : ℝ} (hX : X = (ξ : EReal))
    {m' l' : EReal} {acc' : H → EReal}
    (hm : m' = max m X)
    (hl : l' = Ideal.exp (m - m') * l + ∑ u ∈ T, Ideal.exp (w u - m'))
    (hacc : ∀ h, acc' h = Ideal.exp (m - m') * acc h + ∑ u ∈ T, Ideal.exp (w u - m') * ((v u h : ℝ) : EReal)) :
    Inv w v (S ∪ T) m' l' acc' := by
  obtain ⟨μ, rfl, rfl, hacc0⟩ := h
  have hm' : m' = ((max μ ξ : ℝ) : EReal) := by rw [hm, hX, Cert.RealSums.coe_max]
  have he : Ideal.exp ((μ : EReal) - m') = ((Real.exp (μ - max μ ξ) : ℝ) : EReal) := by
    rw [hm', ← EReal.coe_sub, Ideal.exp_coe]
  refine ⟨max μ ξ, hm', ?_, ?_⟩
  · have hT : ∑ u ∈ T, Ideal.exp (w u - m') = ((∑ u ∈ T, wt (max μ ξ) (w u) : ℝ) : EReal) := by
      rw [hm', Cert.RealSums.coe_sum]; exact Finset.sum_congr rfl fun u hu => exp_sub _ (hw u hu)
    have hS : Real.exp (μ - max μ ξ) * ∑ u ∈ S, wt μ (w u) = ∑ u ∈ S, wt (max μ ξ) (w u) := by
      rw [Finset.mul_sum]; exact Finset.sum_congr rfl fun u _ => wt_rescale μ _ (w u)
    rw [hl, he, hT, ← EReal.coe_mul, ← EReal.coe_add, hS, Finset.sum_union hd]
  · intro h
    have hT : ∑ u ∈ T, Ideal.exp (w u - m') * ((v u h : ℝ) : EReal)
        = ((∑ u ∈ T, wt (max μ ξ) (w u) * v u h : ℝ) : EReal) := by
      rw [hm', Cert.RealSums.coe_sum]
      exact Finset.sum_congr rfl fun u hu => by rw [exp_sub _ (hw u hu), EReal.coe_mul]
    have hS : Real.exp (μ - max μ ξ) * ∑ u ∈ S, wt μ (w u) * v u h = ∑ u ∈ S, wt (max μ ξ) (w u) * v u h := by
      rw [Finset.mul_sum]; exact Finset.sum_congr rfl fun u _ => by rw [← mul_assoc, wt_rescale]
    rw [hacc, hacc0, he, hT, ← EReal.coe_mul, ← EReal.coe_add, hS, Finset.sum_union hd]

/-- The quotient acc / l of a running triple whose columns hold at least one real score is the weighted average
    at shift 0. -/
theorem Inv.quot {w : U → EReal} {v : U → H → ℝ} {S : Finset U} {m l : EReal} {acc : H → EReal} (h : Inv w v S m l acc)
    (hne : ∃ u ∈ S, w u ≠ ⊥) (hh : H) :
    Ideal.div (acc hh) l = (((∑ u ∈ S, wt 0 (w u) * v u hh) / (∑ u ∈ S, wt 0 (w u)) : ℝ) : EReal) := by
  obtain ⟨μ, rfl, rfl, hacc0⟩ := h
  rw [hacc0 hh, div_coe_coe _ (sum_wt_pos μ hne).ne', ratio_shift]

/-- The two-pass form: every weight exp (w u - M) divided by the row's sum first, then summed against the values,
    for any real shift M. -/
theorem two_pass [Fintype U] {w : U → EReal} {v : U → H → ℝ} (hw : ∀ u, w u ≠ ⊤) (hne : ∃ u, w u ≠ ⊥) {M : EReal} {μ : ℝ} (hM : M = (μ : EReal)) (hh : H) :
    ∑ u, Ideal.div (Ideal.exp (w u - M)) (∑ u', Ideal.exp (w u' - M)) * ((v u hh : ℝ) : EReal)
      = (((∑ u, wt 0 (w u) * v u hh) / (∑ u, wt 0 (w u)) : ℝ) : EReal) := by
  subst hM
  have hL : ∑ u', Ideal.exp (w u' - (μ : EReal)) = ((∑ u', wt μ (w u') : ℝ) : EReal) := by
    rw [Cert.RealSums.coe_sum]; exact Finset.sum_congr rfl fun u _ => exp_sub μ (hw u)
  have hpos : (∑ u', wt μ (w u')) ≠ 0 :=
    (sum_wt_pos μ (by obtain ⟨u, hu⟩ := hne; exact ⟨u, Finset.mem_univ u, hu⟩)).ne'
  have hR : (((∑ u, wt 0 (w u) * v u hh) / (∑ u, wt 0 (w u)) : ℝ) : EReal)
      = ∑ u, ((wt μ (w u) / (∑ u', wt μ (w u')) * v u hh : ℝ) : EReal) := by
    rw [← ratio_shift (fun u => v u hh) Finset.univ μ, Finset.sum_div, Cert.RealSums.coe_sum]
    exact Finset.sum_congr rfl fun u _ => by rw [div_mul_eq_mul_div]
  rw [hL, hR]
  refine Finset.sum_congr rfl fun u _ => ?_
  rw [exp_sub μ (hw u), div_coe_coe _ hpos, ← EReal.coe_mul]

/-- Columns whose score is -∞ carry weight 0: a sum of weighted terms over everything is the sum over any set that
    holds every column with a real score. -/
theorem sum_wt_of_bot_off [Fintype U] [DecidableEq U] (w : U → EReal) (S : Finset U) (hS : ∀ u, u ∉ S → w u = ⊥) (f : U → ℝ) :
    ∑ u, wt 0 (w u) * f u = ∑ u ∈ S, wt 0 (w u) * f u :=
  (Finset.sum_subset (Finset.subset_univ S) fun u _ hu => by rw [hS u hu, wt_bot, zero_mul]).symm

theorem sum_wt_of_bot_off' [Fintype U] [DecidableEq U] (w : U → EReal) (S : Finset U) (hS : ∀ u, u ∉ S → w u = ⊥) :
    ∑ u, wt 0 (w u) = ∑ u ∈ S, wt 0 (w u) :=
  (Finset.sum_subset (Finset.subset_univ S) fun u _ hu => by rw [hS u hu, wt_bot]).symm

end Cert.Softmax

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KI.StepIdeal.lean ====
/-
  The running-softmax step read at one query row, over the extended reals, and the invariant it keeps.
  A query row of a 512-row tile sees, in key tile kj, the 512 columns 512·kj + c. Reading the step functions at row r:
  the new maximum is the larger of the old one and the row's largest score; the new denominator and numerator are the
  old ones rescaled by exp (m - m') plus the tile's sums of exp (s - m') and exp (s - m')·V. If the running triple at
  row r is the weighted-sum triple of the columns seen so far (Cert.Softmax.Inv), it is so again after the tile.
-/
import proofs.«427742_j6957847019746_3_alg».proof.Proof.KI.Steps
import proofs.«427742_j6957847019746_3_alg».proof.Proof.Softmax
import proofs.«427742_j6957847019746_3_alg».proof.Proof.LibRealSums
import proofs.«427742_j6957847019746_3_alg».proof.Proof.LibColumn
import Idealize.ShloMosaic.Lib.ValueIdx
import Idealize.ShloMosaic.Lib.Pipeline.Value
import Idealize.ShloMosaic.PureOps.Ideal.Laws
import Idealize.ShloMosaic.PureOps.IdealRules
import proofs.«427742_j6957847019746_3_alg».proof.Proof.LibPlainDot

noncomputable section

namespace Cert.KernelIdeal.Hand

open Idealize.ShloMosaic Idealize.ShloMosaic.ValueIdx Cert.KernelIdeal Cert.KernelIdeal.Gen

/-- Column c of key tile kj as a position of the whole sequence. -/
def col (kj : Fin 4) (c : Fin 512) : Fin 2048 := ⟨512 * kj.val + c.val, by have := kj.isLt; have := c.isLt; omega⟩

/-- The positions key tile kj holds. -/
def tileCols (kj : Fin 4) : Finset (Fin 2048) := Finset.univ.image (col kj)

theorem sum_tileCols {α : Type} [AddCommMonoid α] (kj : Fin 4) (f : Fin 2048 → α) :
    ∑ u ∈ tileCols kj, f u = ∑ c : Fin 512, f (col kj c) := by
  unfold tileCols
  rw [Finset.sum_image]
  intro a _ b _ hab
  apply Fin.ext
  have h := congrArg Fin.val hab
  simp only [col] at h
  omega

theorem mem_tileCols (kj : Fin 4) (u : Fin 2048) : u ∈ tileCols kj ↔ 512 * kj.val ≤ u.val ∧ u.val < 512 * kj.val + 512 := by
  unfold tileCols
  rw [Finset.mem_image]
  constructor
  · rintro ⟨c, _, rfl⟩
    have := c.isLt
    simp only [col]
    omega
  · rintro ⟨h1, h2⟩
    exact ⟨⟨u.val - 512 * kj.val, by omega⟩, Finset.mem_univ _, Fin.ext (by simp only [col]; omega)⟩

/-! ## The two products' index maps

  The first product contracts the second axis of both operands (a query row against a key row); the second is a plain
  matrix product. -/

theorem lhs_qk_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_qk_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_qk_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_qk_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The second product's dimension numbers are the plain matrix product's. -/
theorem dot_pv_eq_plain : dot_S512x512_S512x128_S512x128_1_0_0_1_n_n = DotDims.plain 512 512 128 := rfl

/-- The source index of a row reduction: row r of the result, coordinate k on the reduced axis. -/
theorem lift_row (r k : Fin 512) : reduces_S512x512_S512.lift (ix1 r) k = ix2 r k := by
  funext a
  apply Fin.ext
  match a with
  | ⟨0, _⟩ => rfl
  | ⟨1, _⟩ => rfl

/-! ## The word comparison of the causal mask -/

/-- A 32-bit word below 2³¹ reads, as a signed integer, its own natural number. -/
theorem toInt_of_small (x : BitVec 32) (h : x.toNat < 2 ^ 31) : x.toInt = (x.toNat : Int) := by
  rw [BitVec.toInt_eq_toNat_cond, if_pos (by omega)]

/-- Row position off + r against column position off + c, both below 2048: the signed comparison off + r ≥ off + c is
    c ≤ r. -/
theorem sge_same_offset (off : BitVec 32) (hoff : off.toNat ≤ 1536) (r c : Fin 512) :
    IntOp.cmpi .sge (IntOp.addi off (BitVec.ofNat 32 r.val)) (IntOp.addi off (BitVec.ofNat 32 c.val))
      = if c ≤ r then 1#1 else 0#1 := by
  have hr := r.isLt
  have hc := c.isLt
  have er : (off + BitVec.ofNat 32 r.val).toNat = off.toNat + r.val := by
    rw [BitVec.toNat_add, BitVec.toNat_ofNat]; omega
  have ec : (off + BitVec.ofNat 32 c.val).toNat = off.toNat + c.val := by
    rw [BitVec.toNat_add, BitVec.toNat_ofNat]; omega
  show BitVec.ofBool ((off + BitVec.ofNat 32 c.val).sle (off + BitVec.ofNat 32 r.val)) = _
  have hs : (off + BitVec.ofNat 32 c.val).sle (off + BitVec.ofNat 32 r.val) = decide (c ≤ r) := by
    rw [BitVec.sle, toInt_of_small _ (by omega), toInt_of_small _ (by omega), er, ec]
    apply decide_eq_decide.mpr
    rw [Fin.le_def]
    omega
  rw [hs]
  by_cases h : c ≤ r
  · rw [if_pos h, decide_eq_true h]; rfl
  · rw [if_neg h, decide_eq_false h]; rfl

/-! ## The step functions at an index -/

theorem scoreU_apply (qt kt : Vec Ideal S512x128 .bf16) (r c : Fin 512) :
    scoreU (F := Ideal) qt kt (ix2 r c) = ∑ h : Fin 128, qt (ix2 r h) * kt (ix2 c h) := by
  unfold scoreU
  simp only [matmul]
  rw [Ideal.matmul_constant_zero_apply, ← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  have el : dot_S512x128_S512x128_S512x512_1_1_0_0_n_n.lhsIdx (ix2 r c) ((contrEquiv1 dot_S512x128_S512x128_S512x512_1_1_0_0_n_n 128 rfl rfl).symm k) = ix2 r k :=
    funext fun a => Fin.ext (by
      match a with
      | ⟨0, _⟩ => exact lhs_qk_0 _ _
      | ⟨1, _⟩ => exact (lhs_qk_1 _ _).trans hk)
  have er : dot_S512x128_S512x128_S512x512_1_1_0_0_n_n.rhsIdx (ix2 r c) ((contrEquiv1 dot_S512x128_S512x128_S512x512_1_1_0_0_n_n 128 rfl rfl).symm k) = ix2 c k :=
    funext fun a => Fin.ext (by
      match a with
      | ⟨0, _⟩ => exact rhs_qk_0 _ _
      | ⟨1, _⟩ => exact (rhs_qk_1 _ _).trans hk)
  rw [el, er]

/-- On a diagonal tile starting at position `off` (0, 512, 1024 or 1536) the score is kept where c ≤ r and is -∞ above
    the diagonal: both positions carry the same offset, and the named constant reads -∞. -/
theorem scoreM_apply (off : BitVec 32) (hoff : off.toNat ≤ 1536) (qt kt : Vec Ideal S512x128 .bf16) (r c : Fin 512) :
    scoreM (F := Ideal) off qt kt (ix2 r c) = if c ≤ r then scoreU (F := Ideal) qt kt (ix2 r c) else ⊥ := by
  unfold scoreM
  rw [select_apply]
  have hc : cmpi .sge (addi (broadcast S512x512 off) (iota .tc S512x512 32 [0] iota_S512x512_d0_w32))
      (addi (broadcast S512x512 off) (iota .tc S512x512 32 [1] iota_S512x512_d1_w32)) (ix2 r c)
        = if c ≤ r then 1#1 else 0#1 := by
    show IntOp.cmpi .sge (IntOp.addi off (iota .tc S512x512 32 [0] iota_S512x512_d0_w32 (ix2 r c)))
      (IntOp.addi off (iota .tc S512x512 32 [1] iota_S512x512_d1_w32 (ix2 r c))) = _
    rw [iota_single_apply .tc S512x512 32 0, iota_single_apply .tc S512x512 32 1]
    exact sge_same_offset off hoff r c
  have hn : broadcast S512x512 (Named.named (F := Ideal) κ "neg_big" (φ := .f32) 0xFF333332#32) (ix2 r c) = (⊥ : EReal) :=
    IdealRules.named_const.ideal_named_scalar _ _ _ _ rfl
  rw [hc, hn]
  by_cases h : c ≤ r
  · rw [if_pos h, if_pos h]; rfl
  · rw [if_neg h, if_neg h]; rfl

/-- The row maxima at row r: the fold of max from -∞ over the row. -/
theorem rowMax_apply (s : FVec Ideal S512x512 .f32) (r : Fin 512) :
    rowMax (F := Ideal) s (ix2 r 0) = (Finset.univ : Finset (Fin 512)).fold max ⊥ (fun c => s (ix2 r c)) := by
  unfold rowMax
  refine (Column.shapeCast_a_a1_apply _ shapeCasts_S512_S512x1 r 0).trans ?_
  refine (Ideal.multiReduction_maximumf_single s 0xFF800000#32 reduces_S512x512_S512 (.inl rfl) rfl (ix1 r)).trans ?_
  show (Finset.univ : Finset (Fin 512)).fold max (Ideal.ofBits .f32 0xFF800000#32) (s ∘ reduces_S512x512_S512.lift (ix1 r)) = _
  rw [Column.ofBits_negInf_f32]
  congr 1
  funext k
  exact congrArg s (lift_row r k)

/-- The row sums at row r. -/
theorem rowSum_apply (p : FVec Ideal S512x512 .f32) (r : Fin 512) :
    rowSum (F := Ideal) p (ix2 r 0) = ∑ c : Fin 512, p (ix2 r c) := by
  unfold rowSum
  refine (Column.shapeCast_a_a1_apply _ shapeCasts_S512_S512x1 r 0).trans ?_
  refine (Ideal.multiReduction_add_single p 0x00000000#32 reduces_S512x512_S512 (.inl rfl) rfl (ix1 r)).trans ?_
  show ∑ k : Fin 512, p (reduces_S512x512_S512.lift (ix1 r) k) = _
  exact Finset.sum_congr rfl fun k _ => congrArg p (lift_row r k)

theorem mNew_apply (s : FVec Ideal S512x512 .f32) (m : Vec Ideal S512x1 .f32) (r : Fin 512) :
    mNew (F := Ideal) s m (ix2 r 0) = max (m (ix2 r 0)) ((Finset.univ : Finset (Fin 512)).fold max ⊥ (fun c => s (ix2 r c))) := by
  unfold mNew
  show max (m (ix2 r 0)) (rowMax (F := Ideal) s (ix2 r 0)) = _
  rw [rowMax_apply]

/-- The rescaling factor at row r. -/
theorem alpha_apply (s : FVec Ideal S512x512 .f32) (m : Vec Ideal S512x1 .f32) (r : Fin 512) :
    alpha (F := Ideal) s m (ix2 r 0) = Ideal.exp (m (ix2 r 0) - mNew (F := Ideal) s m (ix2 r 0)) := rfl

/-- The tile's weights at (r, c). -/
theorem probs_apply (s : FVec Ideal S512x512 .f32) (m : Vec Ideal S512x1 .f32) (r c : Fin 512) :
    probs (F := Ideal) s m (ix2 r c) = Ideal.exp (s (ix2 r c) - mNew (F := Ideal) s m (ix2 r 0)) := by
  unfold probs
  show Ideal.exp (s (ix2 r c) - broadcastTo S512x512 (mNew (F := Ideal) s m) broadcasts_S512x1_S512x512 (ix2 r c)) = _
  rw [Column.broadcastTo_a1_ab_apply]

theorem lNew_apply (s : FVec Ideal S512x512 .f32) (m l : Vec Ideal S512x1 .f32) (r : Fin 512) :
    lNew (F := Ideal) s m l (ix2 r 0)
      = Ideal.exp (m (ix2 r 0) - mNew (F := Ideal) s m (ix2 r 0)) * l (ix2 r 0)
        + ∑ c : Fin 512, Ideal.exp (s (ix2 r c) - mNew (F := Ideal) s m (ix2 r 0)) := by
  unfold lNew
  show alpha (F := Ideal) s m (ix2 r 0) * l (ix2 r 0) + rowSum (F := Ideal) (probs (F := Ideal) s m) (ix2 r 0) = _
  rw [rowSum_apply, alpha_apply]
  congr 1
  exact Finset.sum_congr rfl fun c _ => probs_apply s m r c

theorem accNew_apply (s : FVec Ideal S512x512 .f32) (m : Vec Ideal S512x1 .f32) (acc : Vec Ideal S512x128 .f32) (vt : Vec Ideal S512x128 .bf16)
    (r : Fin 512) (h : Fin 128) :
    accNew (F := Ideal) s m acc vt (ix2 r h)
      = Ideal.exp (m (ix2 r 0) - mNew (F := Ideal) s m (ix2 r 0)) * acc (ix2 r h)
        + ∑ c : Fin 512, Ideal.exp (s (ix2 r c) - mNew (F := Ideal) s m (ix2 r 0)) * vt (ix2 c h) := by
  unfold accNew
  show broadcastTo S512x128 (alpha (F := Ideal) s m) broadcasts_S512x1_S512x128 (ix2 r h) * acc (ix2 r h)
      + FloatOps.matmul dot_S512x512_S512x128_S512x128_1_0_0_1_n_n none (truncf .bf16 (probs (F := Ideal) s m) bitsLt_bf16_f32) vt
          (constant (F := Ideal) S512x128 .f32 0x00000000#32) (ix2 r h) = _
  rw [Column.broadcastTo_a1_ab_apply, alpha_apply]
  congr 1
  refine (PlainDot.matmul_zero_apply (M := 512) (K := 512) (N := 128) none
    (truncf .bf16 (probs (F := Ideal) s m) bitsLt_bf16_f32) vt r h).trans ?_
  refine Finset.sum_congr rfl fun c _ => ?_
  show probs (F := Ideal) s m (ix2 r c) * vt (ix2 c h) = _
  rw [probs_apply]

theorem outTile_apply (acc : Vec Ideal S512x128 .f32) (l : Vec Ideal S512x1 .f32) (r : Fin 512) (h : Fin 128) :
    outTile (F := Ideal) acc l (ix3 0 r h) = Ideal.div (acc (ix2 r h)) (l (ix2 r 0)) := by
  unfold outTile
  refine (shapeCast_addUnit_apply ![512, 128] _ shapeCasts_S512x128_S1x512x128 (ix3 0 r h)).trans ?_
  have e : (fun a : Fin 2 => (ix3 (0 : Fin 1) r h) a.succ) = ix2 r h := by
    funext a
    match a with
    | ⟨0, _⟩ => rfl
    | ⟨1, _⟩ => rfl
  rw [e]
  show Ideal.div (acc (ix2 r h)) (broadcastTo S512x128 l broadcasts_S512x1_S512x128 (ix2 r h)) = _
  rw [Column.broadcastTo_a1_ab_apply]

theorem mInit_apply (r : Fin 512) : mInit (F := Ideal) (ix2 r 0) = ⊥ := by
  show Ideal.ofBits .f32 0xFF800000#32 = ⊥
  exact Column.ofBits_negInf_f32
theorem lInit_apply (r : Fin 512) : lInit (F := Ideal) (ix2 r 0) = 0 := by
  show Ideal.ofBits .f32 0x00000000#32 = 0
  exact Ideal.ofBits_zero_f32
theorem accInit_apply (r : Fin 512) (h : Fin 128) : accInit (F := Ideal) (ix2 r h) = 0 := by
  show Ideal.ofBits .f32 0x00000000#32 = 0
  exact Ideal.ofBits_zero_f32

/-! ## The invariant through one key tile -/

/-- The largest of finitely many scores, none +∞ and one of them real, is a real number. -/
theorem fold_max_real {ι : Type} (t : Finset ι) (f : ι → EReal) (hf : ∀ i ∈ t, f i ≠ ⊤) (hne : ∃ i ∈ t, f i ≠ ⊥) :
    ∃ ξ : ℝ, t.fold max ⊥ f = (ξ : EReal) := by
  have htop : t.fold max ⊥ f ≠ ⊤ :=
    ((Finset.fold_max_lt (⊤ : EReal)).mpr ⟨bot_lt_top, fun i hi => lt_top_iff_ne_top.mpr (hf i hi)⟩).ne
  have hbot : t.fold max ⊥ f ≠ ⊥ := by
    obtain ⟨i, hi, hx⟩ := hne
    have h1 : f i ≤ t.fold max ⊥ f := (Finset.le_fold_max (f i)).mpr (Or.inr ⟨i, hi, le_rfl⟩)
    exact (lt_of_lt_of_le (bot_lt_iff_ne_bot.mpr hx) h1).ne'
  exact ⟨(t.fold max ⊥ f).toReal, (EReal.coe_toReal htop hbot).symm⟩

/-- The row's largest score in key tile kj is real. -/
theorem rowMax_real {w : Fin 2048 → EReal} (hw : ∀ u, w u ≠ ⊤) (kj : Fin 4) (s : FVec Ideal S512x512 .f32) (r : Fin 512)
    (hs : ∀ c : Fin 512, s (ix2 r c) = w (col kj c)) (hreal : ∃ c : Fin 512, w (col kj c) ≠ ⊥) :
    ∃ ξ : ℝ, (Finset.univ : Finset (Fin 512)).fold max ⊥ (fun c => s (ix2 r c)) = (ξ : EReal) := by
  refine fold_max_real _ _ (fun c _ => ?_) ?_
  · rw [hs c]; exact hw _
  · obtain ⟨c, hc⟩ := hreal
    exact ⟨c, Finset.mem_univ c, by rw [hs c]; exact hc⟩

/-- The first key tile of a query tile, from the empty triple. -/
theorem first_inv {w : Fin 2048 → EReal} {v : Fin 2048 → Fin 128 → ℝ} (hw : ∀ u, w u ≠ ⊤) (kj : Fin 4)
    (s : FVec Ideal S512x512 .f32) (vt : Vec Ideal S512x128 .bf16) (r : Fin 512)
    (hs : ∀ c : Fin 512, s (ix2 r c) = w (col kj c)) (hv : ∀ (c : Fin 512) (h : Fin 128), vt (ix2 c h) = ((v (col kj c) h : ℝ) : EReal))
    (hreal : ∃ c : Fin 512, w (col kj c) ≠ ⊥) :
    Cert.Softmax.Inv w v (tileCols kj) (mNew (F := Ideal) s (mInit (F := Ideal)) (ix2 r 0))
      (lNew (F := Ideal) s (mInit (F := Ideal)) (lInit (F := Ideal)) (ix2 r 0))
      (fun h => accNew (F := Ideal) s (mInit (F := Ideal)) (accInit (F := Ideal)) vt (ix2 r h)) := by
  obtain ⟨ξ, hξ⟩ := rowMax_real hw kj s r hs hreal
  refine Cert.Softmax.Inv.first (tileCols kj) (fun u _ => hw u) hξ ?_ ?_ ?_
  · rw [mNew_apply, mInit_apply]
  · rw [lNew_apply, mInit_apply, lInit_apply, sum_tileCols]
    congr 1
    exact Finset.sum_congr rfl fun c _ => by rw [hs c]
  · intro h
    show accNew (F := Ideal) s (mInit (F := Ideal)) (accInit (F := Ideal)) vt (ix2 r h) = _
    rw [accNew_apply, mInit_apply, accInit_apply, sum_tileCols]
    congr 1
    exact Finset.sum_congr rfl fun c _ => by rw [hs c, hv c h]

/-- A further key tile, whose columns lie after every column seen. -/
theorem step_inv {w : Fin 2048 → EReal} {v : Fin 2048 → Fin 128 → ℝ} (hw : ∀ u, w u ≠ ⊤) (kj : Fin 4)
    (S : Finset (Fin 2048)) (hS : ∀ u ∈ S, u.val < 512 * kj.val)
    (s : FVec Ideal S512x512 .f32) (vt : Vec Ideal S512x128 .bf16) (m l : Vec Ideal S512x1 .f32) (acc : Vec Ideal S512x128 .f32) (r : Fin 512)
    (hs : ∀ c : Fin 512, s (ix2 r c) = w (col kj c)) (hv : ∀ (c : Fin 512) (h : Fin 128), vt (ix2 c h) = ((v (col kj c) h : ℝ) : EReal))
    (hreal : ∃ c : Fin 512, w (col kj c) ≠ ⊥)
    (hinv : Cert.Softmax.Inv w v S (m (ix2 r 0)) (l (ix2 r 0)) (fun h => acc (ix2 r h))) :
    Cert.Softmax.Inv w v (S ∪ tileCols kj) (mNew (F := Ideal) s m (ix2 r 0)) (lNew (F := Ideal) s m l (ix2 r 0))
      (fun h => accNew (F := Ideal) s m acc vt (ix2 r h)) := by
  obtain ⟨ξ, hξ⟩ := rowMax_real hw kj s r hs hreal
  have hd : Disjoint S (tileCols kj) := Finset.disjoint_left.mpr fun u hu hu' => by
    have h1 := hS u hu
    have h2 := ((mem_tileCols kj u).mp hu').1
    omega
  refine Cert.Softmax.Inv.step hd hinv (fun u _ => hw u) hξ ?_ ?_ ?_
  · rw [mNew_apply]
  · rw [lNew_apply, sum_tileCols]
    congr 1
    exact Finset.sum_congr rfl fun c _ => by rw [hs c]
  · intro h
    show accNew (F := Ideal) s m acc vt (ix2 r h) = _
    rw [accNew_apply, sum_tileCols]
    congr 1
    exact Finset.sum_congr rfl fun c _ => by rw [hs c, hv c h]

end Cert.KernelIdeal.Hand

end
-- ==== Proof.Spec.lean ====
/-
  What causal attention computes, over the reals. For one batch element: the queries, keys and values are affine
  images of the input rows; the score of query row t against key row u is their inner product; row t of the result
  is the average of the value rows u ≤ t weighted by the exponentials of the scores. Written with the plain
  exponentials (no maximum subtracted): a common positive factor cancels in the quotient, so every shifted form
  of the softmax equals this one.
-/
import Mathlib.Analysis.SpecialFunctions.Exp
import Mathlib.Algebra.BigOperators.Fin

noncomputable section

namespace Cert.Spec

/-- One projection: row t of x against column h of W, plus the bias. -/
def proj (x : Fin 2048 → Fin 1024 → ℝ) (W : Fin 1024 → Fin 128 → ℝ) (b : Fin 128 → ℝ) (t : Fin 2048) (h : Fin 128) : ℝ :=
  (∑ c, x t c * W c h) + b h

/-- The score of query row t against key row u. -/
def score (q k : Fin 2048 → Fin 128 → ℝ) (t u : Fin 2048) : ℝ := ∑ h, q t h * k u h

/-- Row t, column h of causal attention: the value rows u ≤ t averaged with weights exp (score t u). -/
def attn (q k v : Fin 2048 → Fin 128 → ℝ) (t : Fin 2048) (h : Fin 128) : ℝ :=
  (∑ u ∈ Finset.univ.filter (fun u : Fin 2048 => u ≤ t), Real.exp (score q k t u) * v u h)
    / (∑ u ∈ Finset.univ.filter (fun u : Fin 2048 => u ≤ t), Real.exp (score q k t u))

/-- The whole head on one batch element. -/
def head (x : Fin 2048 → Fin 1024 → ℝ) (Wq : Fin 1024 → Fin 128 → ℝ) (bq : Fin 128 → ℝ) (Wk : Fin 1024 → Fin 128 → ℝ) (bk : Fin 128 → ℝ)
    (Wv : Fin 1024 → Fin 128 → ℝ) (bv : Fin 128 → ℝ) (t : Fin 2048) (h : Fin 128) : ℝ :=
  attn (proj x Wq bq) (proj x Wk bk) (proj x Wv bv) t h

end Cert.Spec

end
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.KI.ProjIdeal.lean ====
/-
  The fused projection at the extended reals: for real inputs, with the three weight matrices side by side in one
  1024×384 matrix and the three biases end to end in one row of 384, the three 128-column slices of x·W + b are the
  specification's query, key and value projections, entry by entry (rounding to the shorter float format is the
  identity on extended reals).
-/
import proofs.«427742_j6957847019746_3_alg».proof.Proof.KI.Steps
import proofs.«427742_j6957847019746_3_alg».proof.Proof.Spec
import proofs.«427742_j6957847019746_3_alg».proof.Proof.LibRealSums
import proofs.«427742_j6957847019746_3_alg».proof.Proof.LibFinite
import proofs.«427742_j6957847019746_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

open scoped BigOperators

/-- The kernel's contraction record is the plain M×K by K×N one. -/
theorem dot_proj_eq_plain :
    dot_S2048x1024_S1024x384_S2048x384_1_0_0_1_n_n = DotDims.plain 2048 1024 384 := rfl

/-- The fused product plus bias at row t, column j: row t of x against column j of the wide matrix, plus entry j of the
    bias row. -/
theorem pay4_apply (x0 : Vec Ideal S1x2048x1024 .f32) (x1 : Vec Ideal S1024x384 .bf16) (x2 : Vec Ideal S1x384 .f32)
    (t : Fin 2048) (j : Fin 384) :
    k0_pay4 (F := Ideal) x0 x1 x2 (ix2 t j)
      = (∑ c : Fin 1024, x0 (ix3 0 t c) * x1 (ix2 c j)) + x2 (ix2 0 j) := by
  unfold k0_pay4
  show FloatOps.matmul dot_S2048x1024_S1024x384_S2048x384_1_0_0_1_n_n none
        (truncf .bf16 (shapeCast S2048x1024 x0 shapeCasts_S1x2048x1024_S2048x1024) bitsLt_bf16_f32)
        (shapeCast S1024x384 x1 shapeCasts_S1024x384_S1024x384) (constant (F := Ideal) S2048x384 .f32 0x00000000#32) (ix2 t j)
      + broadcastTo S2048x384 (shapeCast S1x384 x2 shapeCasts_S1x384_S1x384) broadcasts_S1x384_S2048x384 (ix2 t j) = _
  rw [shapeCast_self, shapeCast_self, dot_proj_eq_plain, PlainDot.matmul_zero_apply, broadcastTo_1b_ab_apply]
  have hx : ∀ c : Fin 1024,
      truncf (F := Ideal) (φ := .f32) .bf16 (shapeCast S2048x1024 x0 shapeCasts_S1x2048x1024_S2048x1024) bitsLt_bf16_f32 (ix2 t c)
        = x0 (ix3 0 t c) :=
    fun c => shapeCast_1ab_ab_apply x0 _ t c
  exact congrArg (· + x2 (ix2 0 j)) (Finset.sum_congr rfl fun c _ => congrArg (· * x1 (ix2 c j)) (hx c))

/-- Over the extended reals, a sum of products of reals plus a real is the coercion of the specification's projection. -/
theorem coe_proj (xr : Fin 2048 → Fin 1024 → ℝ) (W : Fin 1024 → Fin 128 → ℝ) (b : Fin 128 → ℝ) (t : Fin 2048) (h : Fin 128)
    (f g : Fin 1024 → EReal) (e : EReal) (hf : ∀ c, f c = ((xr t c : ℝ) : EReal)) (hg : ∀ c, g c = ((W c h : ℝ) : EReal))
    (he : e = ((b h : ℝ) : EReal)) :
    (∑ c, f c * g c) + e = ((Cert.Spec.proj xr W b t h : ℝ) : EReal) := by
  unfold Cert.Spec.proj
  rw [EReal.coe_add, Cert.RealSums.coe_sum, he]
  refine congrArg (· + ((b h : ℝ) : EReal)) (Finset.sum_congr rfl fun c _ => ?_)
  rw [hf c, hg c, EReal.coe_mul]

/-- A 128-column slice of the fused product plus bias, taken from column o: at (t, h) it is the specification's projection
    with the weights and bias that sit at column k = o + h. -/
theorem slice_proj (x0 : Vec Ideal S1x2048x1024 .f32) (x1 : Vec Ideal S1024x384 .bf16) (x2 : Vec Ideal S1x384 .f32)
    (xr : Fin 2048 → Fin 1024 → ℝ) (h0 : ∀ t c, x0 (ix3 0 t c) = ((xr t c : ℝ) : EReal))
    (o : Nat) (hs : S2048x384.Slices ![0, o] S2048x128) (hsc : S2048x128.ShapeCasts S2048x128)
    (W : Fin 1024 → Fin 128 → ℝ) (b : Fin 128 → ℝ) (t : Fin 2048) (h : Fin 128) (k : Fin 384) (hk : k.val = o + h.val)
    (hW : ∀ c, x1 (ix2 c k) = ((W c h : ℝ) : EReal)) (hb : x2 (ix2 0 k) = ((b h : ℝ) : EReal)) :
    shapeCast S2048x128
        (truncf (F := Ideal) (φ := .f32) .bf16 (extractStridedSlice S2048x128 ![0, o] (k0_pay4 (F := Ideal) x0 x1 x2) hs)
          bitsLt_bf16_f32) hsc (ix2 t h)
      = ((Cert.Spec.proj xr W b t h : ℝ) : EReal) := by
  rw [shapeCast_self]
  show extractStridedSlice S2048x128 ![0, o] (k0_pay4 (F := Ideal) x0 x1 x2) hs (ix2 t h) = _
  rw [slice2_axis1_apply o _ hs t h k hk, pay4_apply]
  exact coe_proj xr W b t h _ _ _ (fun c => h0 t c) hW hb

variable (x0 : Vec Ideal S1x2048x1024 .f32) (x1 : Vec Ideal S1024x384 .bf16) (x2 : Vec Ideal S1x384 .f32)
  (xr : Fin 2048 → Fin 1024 → ℝ) (Wq Wk Wv : Fin 1024 → Fin 128 → ℝ) (bq bk bv : Fin 128 → ℝ)
  (h0 : ∀ t c, x0 (ix3 0 t c) = ((xr t c : ℝ) : EReal))
  (h1q : ∀ (c : Fin 1024) (h : Fin 128), x1 (ix2 c ⟨h.val, by have := h.isLt; omega⟩) = ((Wq c h : ℝ) : EReal))
  (h1k : ∀ (c : Fin 1024) (h : Fin 128), x1 (ix2 c ⟨128 + h.val, by have := h.isLt; omega⟩) = ((Wk c h : ℝ) : EReal))
  (h1v : ∀ (c : Fin 1024) (h : Fin 128), x1 (ix2 c ⟨256 + h.val, by have := h.isLt; omega⟩) = ((Wv c h : ℝ) : EReal))
  (h2q : ∀ h : Fin 128, x2 (ix2 0 ⟨h.val, by have := h.isLt; omega⟩) = ((bq h : ℝ) : EReal))
  (h2k : ∀ h : Fin 128, x2 (ix2 0 ⟨128 + h.val, by have := h.isLt; omega⟩) = ((bk h : ℝ) : EReal))
  (h2v : ∀ h : Fin 128, x2 (ix2 0 ⟨256 + h.val, by have := h.isLt; omega⟩) = ((bv h : ℝ) : EReal))

include h0 h1q h2q in
theorem q_apply (t : Fin 2048) (h : Fin 128) :
    k0_pay5 (F := Ideal) x0 x1 x2 (ix2 t h) = ((Cert.Spec.proj xr Wq bq t h : ℝ) : EReal) := by
  unfold k0_pay5
  exact slice_proj x0 x1 x2 xr h0 0 _ _ Wq bq t h ⟨h.val, by have := h.isLt; omega⟩ (Nat.zero_add _).symm
    (fun c => h1q c h) (h2q h)

include h0 h1k h2k in
theorem k_apply (t : Fin 2048) (h : Fin 128) :
    k0_pay6 (F := Ideal) x0 x1 x2 (ix2 t h) = ((Cert.Spec.proj xr Wk bk t h : ℝ) : EReal) := by
  unfold k0_pay6
  exact slice_proj x0 x1 x2 xr h0 128 _ _ Wk bk t h ⟨128 + h.val, by have := h.isLt; omega⟩ rfl
    (fun c => h1k c h) (h2k h)

include h0 h1v h2v in
theorem v_apply (t : Fin 2048) (h : Fin 128) :
    k0_pay7 (F := Ideal) x0 x1 x2 (ix2 t h) = ((Cert.Spec.proj xr Wv bv t h : ℝ) : EReal) := by
  unfold k0_pay7
  exact slice_proj x0 x1 x2 xr h0 256 _ _ Wv bv t h ⟨256 + h.val, by have := h.isLt; omega⟩ rfl
    (fun c => h1v c h) (h2v h)

end Cert.KernelIdeal.Hand

end
-- ==== Proof.KI.RowFacts.lean ====
/-
  The facts one query row needs, over the extended reals, for real inputs. Query position t sees the masked scores
  w t u = score t u for u ≤ t and -∞ for u > t. A 512-row tile load of a projection scratch buffer reads rows of the
  real projections; so the score tile of query tile qi against an earlier key tile kj holds w (512·qi + r) at the
  tile's columns 512·kj + c, the diagonal tile holds it too (there the mask decides), and the value tile holds the
  value projection. Finally the weighted average over any column set holding every u ≤ t is the specification's row.
-/
import proofs.«427742_j6957847019746_3_alg».proof.Proof.KI.Loads
import proofs.«427742_j6957847019746_3_alg».proof.Proof.KI.StepIdeal
import proofs.«427742_j6957847019746_3_alg».proof.Proof.KI.ProjIdeal
import proofs.«427742_j6957847019746_3_alg».proof.Proof.Spec
import proofs.«427742_j6957847019746_3_alg».proof.Proof.Softmax
import proofs.«427742_j6957847019746_3_alg».proof.Proof.LibRealSums

noncomputable section

namespace Cert.KernelIdeal.Hand

open Idealize.ShloMosaic Idealize.ShloMosaic.TcCoe Idealize.ShloMosaic.ValueIdx Idealize.SL.Sem Cert.KernelIdeal Cert.KernelIdeal.Gen

theorem fv0 : ((0 : Fin 4) : ℕ) = 0 := rfl
theorem fv1 : ((1 : Fin 4) : ℕ) = 1 := rfl
theorem fv2 : ((2 : Fin 4) : ℕ) = 2 := rfl
theorem fv3 : ((3 : Fin 4) : ℕ) = 3 := rfl
theorem col_val (kj : Fin 4) (cc : Fin 512) : (col kj cc).val = 512 * kj.val + cc.val := rfl

/-- The masked scores of query position t. -/
def wRow (xr : Fin 2048 → Fin 1024 → ℝ) (Wq Wk : Fin 1024 → Fin 128 → ℝ) (bq bk : Fin 128 → ℝ) (t u : Fin 2048) : EReal :=
  if u ≤ t then ((Cert.Spec.score (Cert.Spec.proj xr Wq bq) (Cert.Spec.proj xr Wk bk) t u : ℝ) : EReal) else ⊥

theorem wRow_ne_top (xr : Fin 2048 → Fin 1024 → ℝ) (Wq Wk : Fin 1024 → Fin 128 → ℝ) (bq bk : Fin 128 → ℝ) (t : Fin 2048) :
    ∀ u, wRow xr Wq Wk bq bk t u ≠ ⊤ := by
  intro u; unfold wRow; split
  · exact EReal.coe_ne_top _
  · exact bot_ne_top

/-- Column 0 of any key tile up to the query's own is at or before the query position: its score is real. -/
theorem wRow_real (xr : Fin 2048 → Fin 1024 → ℝ) (Wq Wk : Fin 1024 → Fin 128 → ℝ) (bq bk : Fin 128 → ℝ) (qi kj : Fin 4) (hle : kj ≤ qi) (r : Fin 512) :
    ∃ cc : Fin 512, wRow xr Wq Wk bq bk (col qi r) (col kj cc) ≠ ⊥ := by
  refine ⟨0, ?_⟩
  unfold wRow
  have h : col kj 0 ≤ col qi r := by
    show 512 * kj.val + (0 : Fin 512).val ≤ 512 * qi.val + r.val
    have : kj.val ≤ qi.val := hle
    have : ((0 : Fin 512) : ℕ) = 0 := rfl
    omega
  rw [if_pos h]; exact EReal.coe_ne_bot _

theorem wRow_zero_ne_bot (xr : Fin 2048 → Fin 1024 → ℝ) (Wq Wk : Fin 1024 → Fin 128 → ℝ) (bq bk : Fin 128 → ℝ) (qi : Fin 4) (r : Fin 512) :
    wRow xr Wq Wk bq bk (col qi r) (col 0 0) ≠ ⊥ := by
  unfold wRow
  have h : col 0 0 ≤ col qi r := by
    show 512 * (0 : Fin 4).val + (0 : Fin 512).val ≤ 512 * qi.val + r.val
    have : ((0 : Fin 512) : ℕ) = 0 := rfl
    have : ((0 : Fin 4) : ℕ) = 0 := rfl
    omega
  rw [if_pos h]; exact EReal.coe_ne_bot _

theorem col00_mem : col 0 0 ∈ tileCols 0 := by
  rw [mem_tileCols]; have : ((0 : Fin 512) : ℕ) = 0 := rfl; have : ((0 : Fin 4) : ℕ) = 0 := rfl
  rw [col_val]; omega

section Tiles

variable (c : Dev nD) (arg1 : Memref sig .tc .vmem S1x2048x1024 .f32) (harg1 : arg1.IsWhole) (arg2 : Memref sig .tc .vmem S1024x384 .bf16) (harg2 : arg2.IsWhole)
  (arg3 : Memref sig .tc .vmem S1x384 .f32) (harg3 : arg3.IsWhole)
  (arg5 arg6 arg7 : Memref sig .tc .vmem S2048x128 .bf16)
  (x0 : Vec Ideal S1x2048x1024 .f32) (x1 : Vec Ideal S1024x384 .bf16) (x2 : Vec Ideal S1x384 .f32)
  (xr : Fin 2048 → Fin 1024 → ℝ) (Wq Wk Wv : Fin 1024 → Fin 128 → ℝ) (bq bk bv : Fin 128 → ℝ)
  (h0 : ∀ t c, x0 (ix3 0 t c) = ((xr t c : ℝ) : EReal))
  (h1q : ∀ (c : Fin 1024) (h : Fin 128), x1 (ix2 c ⟨h.val, by have := h.isLt; omega⟩) = ((Wq c h : ℝ) : EReal))
  (h1k : ∀ (c : Fin 1024) (h : Fin 128), x1 (ix2 c ⟨128 + h.val, by have := h.isLt; omega⟩) = ((Wk c h : ℝ) : EReal))
  (h1v : ∀ (c : Fin 1024) (h : Fin 128), x1 (ix2 c ⟨256 + h.val, by have := h.isLt; omega⟩) = ((Wv c h : ℝ) : EReal))
  (h2q : ∀ h : Fin 128, x2 (ix2 0 ⟨h.val, by have := h.isLt; omega⟩) = ((bq h : ℝ) : EReal))
  (h2k : ∀ h : Fin 128, x2 (ix2 0 ⟨128 + h.val, by have := h.isLt; omega⟩) = ((bk h : ℝ) : EReal))
  (h2v : ∀ h : Fin 128, x2 (ix2 0 ⟨256 + h.val, by have := h.isLt; omega⟩) = ((bv h : ℝ) : EReal))

include h0 h1q h2q in
/-- A query row tile reads rows of the real query projection. -/
theorem qTile_row (qi : Fin 4) (off : Nat) (hq : off = 512 * qi.val) (inb : ∀ a : Fin 2, (![off, 0] : Fin 2 → Nat) a + S512x128.size a ≤ S2048x128.size a) (r : Fin 512) (hh : Fin 128) :
    (arg5.view.readCov (Cert.KernelIdeal.Hand.kernelRun0.sl.H4_1 c arg1 harg1 arg2 harg2 arg3 harg3 x0 x1 x2) (Rect.unit (s := S2048x128) ![off, 0] S512x128.size inb).toLoadRect) (ix2 r hh)
      = ((Cert.Spec.proj xr Wq bq (col qi r) hh : ℝ) : EReal) := by
  subst hq
  rw [qTile_apply c arg1 harg1 arg2 harg2 arg3 harg3 arg5 x0 x1 x2 (512 * qi.val) inb r hh (by have := qi.isLt; have := r.isLt; omega)]
  exact q_apply x0 x1 x2 xr Wq bq h0 h1q h2q (col qi r) hh

include h0 h1k h2k in
theorem kTile_row (kj : Fin 4) (off : Nat) (hk : off = 512 * kj.val) (inb : ∀ a : Fin 2, (![off, 0] : Fin 2 → Nat) a + S512x128.size a ≤ S2048x128.size a) (cc : Fin 512) (hh : Fin 128) :
    (arg6.view.readCov (Cert.KernelIdeal.Hand.kernelRun0.sl.H5_1 c arg1 harg1 arg2 harg2 arg3 harg3 x0 x1 x2) (Rect.unit (s := S2048x128) ![off, 0] S512x128.size inb).toLoadRect) (ix2 cc hh)
      = ((Cert.Spec.proj xr Wk bk (col kj cc) hh : ℝ) : EReal) := by
  subst hk
  rw [kTile_apply c arg1 harg1 arg2 harg2 arg3 harg3 arg6 x0 x1 x2 (512 * kj.val) inb cc hh (by have := kj.isLt; have := cc.isLt; omega)]
  exact k_apply x0 x1 x2 xr Wk bk h0 h1k h2k (col kj cc) hh

include h0 h1v h2v in
theorem vTile_row (kj : Fin 4) (off : Nat) (hk : off = 512 * kj.val) (inb : ∀ a : Fin 2, (![off, 0] : Fin 2 → Nat) a + S512x128.size a ≤ S2048x128.size a) (cc : Fin 512) (hh : Fin 128) :
    (arg7.view.readCov (Cert.KernelIdeal.Hand.kernelRun0.sl.H6_1 c arg1 harg1 arg2 harg2 arg3 harg3 x0 x1 x2) (Rect.unit (s := S2048x128) ![off, 0] S512x128.size inb).toLoadRect) (ix2 cc hh)
      = ((Cert.Spec.proj xr Wv bv (col kj cc) hh : ℝ) : EReal) := by
  subst hk
  rw [vTile_apply c arg1 harg1 arg2 harg2 arg3 harg3 arg7 x0 x1 x2 (512 * kj.val) inb cc hh (by have := kj.isLt; have := cc.isLt; omega)]
  exact v_apply x0 x1 x2 xr Wv bv h0 h1v h2v (col kj cc) hh

include h0 h1q h1k h2q h2k in
/-- The unmasked score of row r of query tile qi against column cc of key tile kj is the real score of those positions. -/
theorem scoreU_real (qi kj : Fin 4) (offq : Nat) (hq : offq = 512 * qi.val) (inbq : ∀ a : Fin 2, (![offq, 0] : Fin 2 → Nat) a + S512x128.size a ≤ S2048x128.size a)
    (offk : Nat) (hk : offk = 512 * kj.val) (inbk : ∀ a : Fin 2, (![offk, 0] : Fin 2 → Nat) a + S512x128.size a ≤ S2048x128.size a) (r cc : Fin 512) :
    scoreU (F := Ideal) (arg5.view.readCov (Cert.KernelIdeal.Hand.kernelRun0.sl.H4_1 c arg1 harg1 arg2 harg2 arg3 harg3 x0 x1 x2) (Rect.unit (s := S2048x128) ![offq, 0] S512x128.size inbq).toLoadRect)
        (arg6.view.readCov (Cert.KernelIdeal.Hand.kernelRun0.sl.H5_1 c arg1 harg1 arg2 harg2 arg3 harg3 x0 x1 x2) (Rect.unit (s := S2048x128) ![offk, 0] S512x128.size inbk).toLoadRect) (ix2 r cc)
      = ((Cert.Spec.score (Cert.Spec.proj xr Wq bq) (Cert.Spec.proj xr Wk bk) (col qi r) (col kj cc) : ℝ) : EReal) := by
  rw [scoreU_apply]
  unfold Cert.Spec.score
  rw [Cert.RealSums.coe_sum]
  refine Finset.sum_congr rfl fun hh _ => ?_
  rw [qTile_row c arg1 harg1 arg2 harg2 arg3 harg3 arg5 x0 x1 x2 xr Wq bq h0 h1q h2q qi offq hq inbq r hh,
    kTile_row c arg1 harg1 arg2 harg2 arg3 harg3 arg6 x0 x1 x2 xr Wk bk h0 h1k h2k kj offk hk inbk cc hh, EReal.coe_mul]

include h0 h1q h1k h2q h2k in
/-- An earlier key tile: every column is before the query position, so the tile holds the masked scores. -/
theorem scoreU_row (qi kj : Fin 4) (hlt : kj < qi) (offq : Nat) (hq : offq = 512 * qi.val) (inbq : ∀ a : Fin 2, (![offq, 0] : Fin 2 → Nat) a + S512x128.size a ≤ S2048x128.size a)
    (offk : Nat) (hk : offk = 512 * kj.val) (inbk : ∀ a : Fin 2, (![offk, 0] : Fin 2 → Nat) a + S512x128.size a ≤ S2048x128.size a) (r cc : Fin 512) :
    scoreU (F := Ideal) (arg5.view.readCov (Cert.KernelIdeal.Hand.kernelRun0.sl.H4_1 c arg1 harg1 arg2 harg2 arg3 harg3 x0 x1 x2) (Rect.unit (s := S2048x128) ![offq, 0] S512x128.size inbq).toLoadRect)
        (arg6.view.readCov (Cert.KernelIdeal.Hand.kernelRun0.sl.H5_1 c arg1 harg1 arg2 harg2 arg3 harg3 x0 x1 x2) (Rect.unit (s := S2048x128) ![offk, 0] S512x128.size inbk).toLoadRect) (ix2 r cc)
      = wRow xr Wq Wk bq bk (col qi r) (col kj cc) := by
  rw [scoreU_real c arg1 harg1 arg2 harg2 arg3 harg3 arg5 arg6 x0 x1 x2 xr Wq Wk bq bk h0 h1q h1k h2q h2k qi kj offq hq inbq offk hk inbk r cc]
  unfold wRow
  have h : col kj cc ≤ col qi r := by
    show 512 * kj.val + cc.val ≤ 512 * qi.val + r.val
    have : kj.val < qi.val := hlt
    have := cc.isLt
    omega
  rw [if_pos h]

include h0 h1q h1k h2q h2k in
/-- The diagonal tile: the mask keeps exactly the columns at or before the query position. -/
theorem scoreM_row (qi : Fin 4) (off : Nat) (hq : off = 512 * qi.val) (inbq : ∀ a : Fin 2, (![off, 0] : Fin 2 → Nat) a + S512x128.size a ≤ S2048x128.size a) (inbk : ∀ a : Fin 2, (![off, 0] : Fin 2 → Nat) a + S512x128.size a ≤ S2048x128.size a)
    (offbv : BitVec 32) (hbv : offbv.toNat = off) (r cc : Fin 512) :
    scoreM (F := Ideal) offbv (arg5.view.readCov (Cert.KernelIdeal.Hand.kernelRun0.sl.H4_1 c arg1 harg1 arg2 harg2 arg3 harg3 x0 x1 x2) (Rect.unit (s := S2048x128) ![off, 0] S512x128.size inbq).toLoadRect)
        (arg6.view.readCov (Cert.KernelIdeal.Hand.kernelRun0.sl.H5_1 c arg1 harg1 arg2 harg2 arg3 harg3 x0 x1 x2) (Rect.unit (s := S2048x128) ![off, 0] S512x128.size inbk).toLoadRect) (ix2 r cc)
      = wRow xr Wq Wk bq bk (col qi r) (col qi cc) := by
  rw [scoreM_apply offbv (by rw [hbv, hq]; have := qi.isLt; omega),
    scoreU_real c arg1 harg1 arg2 harg2 arg3 harg3 arg5 arg6 x0 x1 x2 xr Wq Wk bq bk h0 h1q h1k h2q h2k qi qi off hq inbq off hq inbk r cc]
  unfold wRow
  have h : (col qi cc ≤ col qi r) ↔ (cc ≤ r) := by
    show 512 * qi.val + cc.val ≤ 512 * qi.val + r.val ↔ cc.val ≤ r.val
    omega
  by_cases hc : cc ≤ r
  · rw [if_pos hc, if_pos (h.mpr hc)]
  · rw [if_neg hc, if_neg (fun hh => hc (h.mp hh))]

end Tiles

/-- The weighted average over a set of columns holding every column at or before t, at shift 0, is the
    specification's row t: the later columns carry weight 0 and the earlier ones exp (score). -/
theorem quot_head (xr : Fin 2048 → Fin 1024 → ℝ) (Wq Wk Wv : Fin 1024 → Fin 128 → ℝ) (bq bk bv : Fin 128 → ℝ)
    (t : Fin 2048) (S : Finset (Fin 2048)) (hS : ∀ u, u ≤ t → u ∈ S) (hh : Fin 128) :
    (((∑ u ∈ S, Cert.Softmax.wt 0 (wRow xr Wq Wk bq bk t u) * Cert.Spec.proj xr Wv bv u hh)
        / (∑ u ∈ S, Cert.Softmax.wt 0 (wRow xr Wq Wk bq bk t u)) : ℝ) : EReal)
      = ((Cert.Spec.head xr Wq bq Wk bk Wv bv t hh : ℝ) : EReal) := by
  have key : ∀ f : Fin 2048 → ℝ, ∑ u ∈ S, Cert.Softmax.wt 0 (wRow xr Wq Wk bq bk t u) * f u
      = ∑ u ∈ Finset.univ.filter (fun u : Fin 2048 => u ≤ t),
          Real.exp (Cert.Spec.score (Cert.Spec.proj xr Wq bq) (Cert.Spec.proj xr Wk bk) t u) * f u := by
    intro f
    have hsub : Finset.univ.filter (fun u : Fin 2048 => u ≤ t) ⊆ S := fun u hu => hS u (Finset.mem_filter.mp hu).2
    rw [← Finset.sum_subset hsub (fun u _ hu => by
      have hnle : ¬ u ≤ t := fun hle => hu (Finset.mem_filter.mpr ⟨Finset.mem_univ u, hle⟩)
      unfold wRow; rw [if_neg hnle, Cert.Softmax.wt_bot, zero_mul])]
    refine Finset.sum_congr rfl fun u hu => ?_
    have hle : u ≤ t := (Finset.mem_filter.mp hu).2
    unfold wRow; rw [if_pos hle, Cert.Softmax.wt_zero_coe]
  have k1 := key (fun u => Cert.Spec.proj xr Wv bv u hh)
  have k2 := key (fun _ => 1)
  simp only [mul_one] at k2
  rw [k1, k2]
  rfl

end Cert.KernelIdeal.Hand

end
-- ==== Proof.KI.Rows.lean ====
/-
  The running triple, row by row. For each of the ten (query tile, key tile) pairs, the three values the body has stored
  after that key tile, read at row r, are the weighted-sum triple (Cert.Softmax.Inv) of the masked scores of query
  position 512·qi + r over the columns of key tiles 0..kj; so the rows a query tile stores, numerator over
  denominator, are the specification's rows.
-/
import proofs.«427742_j6957847019746_3_alg».proof.Proof.KI.Chain
import proofs.«427742_j6957847019746_3_alg».proof.Proof.KI.RowFacts

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen

variable (c : Dev nD) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
  (x0 : Vec Ideal S1x2048x1024 .f32) (x1 : Vec Ideal S1024x384 .bf16) (x2 : Vec Ideal S1x384 .f32)
  (xr : Fin 2048 → Fin 1024 → ℝ) (Wq Wk Wv : Fin 1024 → Fin 128 → ℝ) (bq bk bv : Fin 128 → ℝ)
  (h0 : ∀ t c, x0 (ix3 0 t c) = ((xr t c : ℝ) : EReal))
  (h1q : ∀ (c : Fin 1024) (h : Fin 128), x1 (ix2 c ⟨h.val, by have := h.isLt; omega⟩) = ((Wq c h : ℝ) : EReal))
  (h1k : ∀ (c : Fin 1024) (h : Fin 128), x1 (ix2 c ⟨128 + h.val, by have := h.isLt; omega⟩) = ((Wk c h : ℝ) : EReal))
  (h1v : ∀ (c : Fin 1024) (h : Fin 128), x1 (ix2 c ⟨256 + h.val, by have := h.isLt; omega⟩) = ((Wv c h : ℝ) : EReal))
  (h2q : ∀ h : Fin 128, x2 (ix2 0 ⟨h.val, by have := h.isLt; omega⟩) = ((bq h : ℝ) : EReal))
  (h2k : ∀ h : Fin 128, x2 (ix2 0 ⟨128 + h.val, by have := h.isLt; omega⟩) = ((bk h : ℝ) : EReal))
  (h2v : ∀ h : Fin 128, x2 (ix2 0 ⟨256 + h.val, by have := h.isLt; omega⟩) = ((bv h : ℝ) : EReal))

include c arg1 harg1 arg2 harg2 arg3 harg3 arg4 harg4 arg5 harg5 arg6 harg6 arg7 harg7 arg8 harg8 arg9 harg9 arg10 harg10 x0 x1 x2 xr Wq Wk Wv bq bk bv h0 h1q h1k h1v h2q h2k h2v

/-- Query tile 0, after key tile 0: the stored triple at row r is the weighted-sum triple of the columns of key tiles 0..0. -/
theorem inv_0_0 (r : Fin 512) :
    Cert.Softmax.Inv (wRow xr Wq Wk bq bk (col 0 r)) (Cert.Spec.proj xr Wv bv) (tileCols 0)
      ((Cert.KernelIdeal.Hand.kernelRun0.sl.v78 c arg1 harg1 arg2 harg2 arg3 harg3 arg5 arg6 arg8 x0 x1 x2) (ix2 r 0)) ((Cert.KernelIdeal.Gen.k0_pay16 (Cert.KernelIdeal.Hand.kernelRun0.sl.v25 c arg1 harg1 arg2 harg2 arg3 harg3 arg5 x0 x1 x2) (Cert.KernelIdeal.Hand.kernelRun0.sl.v38 c arg1 harg1 arg2 harg2 arg3 harg3 arg6 x0 x1 x2) (Cert.KernelIdeal.Hand.kernelRun0.sl.v50 c arg8) (Cert.KernelIdeal.Hand.kernelRun0.sl.v59 c arg9)) (ix2 r 0)) (fun hh => (Cert.KernelIdeal.Hand.kernelRun0.sl.v75 c arg1 harg1 arg2 harg2 arg3 harg3 arg5 arg6 arg7 arg8 arg10 x0 x1 x2) (ix2 r hh)) := by
  obtain ⟨em, el, ea⟩ := step_0_0 (F := Ideal) c arg1 harg1 arg2 harg2 arg3 harg3 arg5 arg6 arg7 arg8 arg9 arg10 x0 x1 x2
  obtain ⟨im, il, ia⟩ := init_0 (F := Ideal)
  rw [em, el, ea, im, il, ia]
  exact first_inv (wRow_ne_top xr Wq Wk bq bk _) 0 _ _ r (fun cc => scoreM_row (h0 := h0) (h1q := h1q) (h1k := h1k) (h2q := h2q) (h2k := h2k) c arg1 harg1 arg2 harg2 arg3 harg3 arg5 arg6 x0 x1 x2 xr Wq Wk bq bk 0 (0) rfl _ _ (0#32) rfl r cc) (fun cc hh => vTile_row (h0 := h0) (h1v := h1v) (h2v := h2v) c arg1 harg1 arg2 harg2 arg3 harg3 arg7 x0 x1 x2 xr Wv bv 0 (0) rfl _ cc hh) (wRow_real xr Wq Wk bq bk 0 0 (by decide) r)

/-- Query tile 1, after key tile 0: the stored triple at row r is the weighted-sum triple of the columns of key tiles 0..0. -/
theorem inv_1_0 (r : Fin 512) :
    Cert.Softmax.Inv (wRow xr Wq Wk bq bk (col 1 r)) (Cert.Spec.proj xr Wv bv) (tileCols 0)
      ((Cert.KernelIdeal.Hand.kernelRun0.sl.v130 c arg1 harg1 arg2 harg2 arg3 harg3 arg5 arg6 arg8 x0 x1 x2) (ix2 r 0)) ((Cert.KernelIdeal.Hand.kernelRun0.sl.v118 c arg1 harg1 arg2 harg2 arg3 harg3 arg5 arg6 arg8 arg9 x0 x1 x2) (ix2 r 0)) (fun hh => (Cert.KernelIdeal.Hand.kernelRun0.sl.v127 c arg1 harg1 arg2 harg2 arg3 harg3 arg5 arg6 arg7 arg8 arg10 x0 x1 x2) (ix2 r hh)) := by
  obtain ⟨em, el, ea⟩ := step_1_0 (F := Ideal) c arg1 harg1 arg2 harg2 arg3 harg3 arg5 arg6 arg7 arg8 arg9 arg10 x0 x1 x2
  obtain ⟨im, il, ia⟩ := init_1 (F := Ideal)
  rw [em, el, ea, im, il, ia]
  exact first_inv (wRow_ne_top xr Wq Wk bq bk _) 0 _ _ r (fun cc => scoreU_row (h0 := h0) (h1q := h1q) (h1k := h1k) (h2q := h2q) (h2k := h2k) c arg1 harg1 arg2 harg2 arg3 harg3 arg5 arg6 x0 x1 x2 xr Wq Wk bq bk 1 0 (by decide) (512) rfl _ (0) rfl _ r cc) (fun cc hh => vTile_row (h0 := h0) (h1v := h1v) (h2v := h2v) c arg1 harg1 arg2 harg2 arg3 harg3 arg7 x0 x1 x2 xr Wv bv 0 (0) rfl _ cc hh) (wRow_real xr Wq Wk bq bk 1 0 (by decide) r)

/-- Query tile 1, after key tile 1: the stored triple at row r is the weighted-sum triple of the columns of key tiles 0..1. -/
theorem inv_1_1 (r : Fin 512) :
    Cert.Softmax.Inv (wRow xr Wq Wk bq bk (col 1 r)) (Cert.Spec.proj xr Wv bv) ((tileCols 0) ∪ tileCols 1)
      ((Cert.KernelIdeal.Hand.kernelRun0.sl.r_3 c arg1 harg1 arg2 harg2 arg3 harg3 arg5 arg6 arg8 x0 x1 x2) (ix2 r 0)) ((Cert.KernelIdeal.Gen.k0_pay35 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v143 c arg1 harg1 arg2 harg2 arg3 harg3 arg5 arg6 arg8 x0 x1 x2) (Cert.KernelIdeal.Hand.kernelRun0.sl.v152 c arg1 harg1 arg2 harg2 arg3 harg3 arg5 arg6 arg8 arg9 x0 x1 x2)) (ix2 r 0)) (fun hh => (Cert.KernelIdeal.Gen.k0_pay36 (Cert.KernelIdeal.Hand.kernelRun0.sl.v86 c arg1 harg1 arg2 harg2 arg3 harg3 arg5 x0 x1 x2) (Cert.KernelIdeal.Hand.kernelRun0.sl.v131 c arg1 harg1 arg2 harg2 arg3 harg3 arg6 x0 x1 x2) (Cert.KernelIdeal.Hand.kernelRun0.sl.v132 c arg1 harg1 arg2 harg2 arg3 harg3 arg7 x0 x1 x2) (Cert.KernelIdeal.Hand.kernelRun0.sl.v143 c arg1 harg1 arg2 harg2 arg3 harg3 arg5 arg6 arg8 x0 x1 x2) (Cert.KernelIdeal.Hand.kernelRun0.sl.v160 c arg1 harg1 arg2 harg2 arg3 harg3 arg5 arg6 arg7 arg8 arg10 x0 x1 x2)) (ix2 r hh)) := by
  obtain ⟨em, el, ea⟩ := step_1_1 (F := Ideal) c arg1 harg1 arg2 harg2 arg3 harg3 arg5 arg6 arg7 arg8 arg9 arg10 x0 x1 x2
  rw [em, el, ea]
  exact step_inv (wRow_ne_top xr Wq Wk bq bk _) 1 _ (by intro u hu; simp only [Finset.mem_union, mem_tileCols, fv0, fv1, fv2, fv3] at hu; simp only [fv0, fv1, fv2, fv3]; omega) _ _ _ _ _ r (fun cc => scoreM_row (h0 := h0) (h1q := h1q) (h1k := h1k) (h2q := h2q) (h2k := h2k) c arg1 harg1 arg2 harg2 arg3 harg3 arg5 arg6 x0 x1 x2 xr Wq Wk bq bk 1 (512) rfl _ _ (512#32) rfl r cc) (fun cc hh => vTile_row (h0 := h0) (h1v := h1v) (h2v := h2v) c arg1 harg1 arg2 harg2 arg3 harg3 arg7 x0 x1 x2 xr Wv bv 1 (512) rfl _ cc hh) (wRow_real xr Wq Wk bq bk 1 1 (by decide) r)
    (inv_1_0 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 2, after key tile 0: the stored triple at row r is the weighted-sum triple of the columns of key tiles 0..0. -/
theorem inv_2_0 (r : Fin 512) :
    Cert.Softmax.Inv (wRow xr Wq Wk bq bk (col 2 r)) (Cert.Spec.proj xr Wv bv) (tileCols 0)
      ((Cert.KernelIdeal.Hand.kernelRun0.sl.v223 c arg1 harg1 arg2 harg2 arg3 harg3 arg5 arg6 arg8 x0 x1 x2) (ix2 r 0)) ((Cert.KernelIdeal.Hand.kernelRun0.sl.v211 c arg1 harg1 arg2 harg2 arg3 harg3 arg5 arg6 arg8 arg9 x0 x1 x2) (ix2 r 0)) (fun hh => (Cert.KernelIdeal.Hand.kernelRun0.sl.v220 c arg1 harg1 arg2 harg2 arg3 harg3 arg5 arg6 arg7 arg8 arg10 x0 x1 x2) (ix2 r hh)) := by
  obtain ⟨em, el, ea⟩ := step_2_0 (F := Ideal) c arg1 harg1 arg2 harg2 arg3 harg3 arg5 arg6 arg7 arg8 arg9 arg10 x0 x1 x2
  obtain ⟨im, il, ia⟩ := init_2 (F := Ideal)
  rw [em, el, ea, im, il, ia]
  exact first_inv (wRow_ne_top xr Wq Wk bq bk _) 0 _ _ r (fun cc => scoreU_row (h0 := h0) (h1q := h1q) (h1k := h1k) (h2q := h2q) (h2k := h2k) c arg1 harg1 arg2 harg2 arg3 harg3 arg5 arg6 x0 x1 x2 xr Wq Wk bq bk 2 0 (by decide) (1024) rfl _ (0) rfl _ r cc) (fun cc hh => vTile_row (h0 := h0) (h1v := h1v) (h2v := h2v) c arg1 harg1 arg2 harg2 arg3 harg3 arg7 x0 x1 x2 xr Wv bv 0 (0) rfl _ cc hh) (wRow_real xr Wq Wk bq bk 2 0 (by decide) r)

/-- Query tile 2, after key tile 1: the stored triple at row r is the weighted-sum triple of the columns of key tiles 0..1. -/
theorem inv_2_1 (r : Fin 512) :
    Cert.Softmax.Inv (wRow xr Wq Wk bq bk (col 2 r)) (Cert.Spec.proj xr Wv bv) ((tileCols 0) ∪ tileCols 1)
      ((Cert.KernelIdeal.Gen.k0_pay55 (Cert.KernelIdeal.Hand.kernelRun0.sl.v230 c arg1 harg1 arg2 harg2 arg3 harg3 arg5 arg6 arg8 x0 x1 x2)) (ix2 r 0)) ((Cert.KernelIdeal.Gen.k0_pay53 (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v236 c arg1 harg1 arg2 harg2 arg3 harg3 arg5 arg6 arg8 arg9 x0 x1 x2)) (ix2 r 0)) (fun hh => (Cert.KernelIdeal.Gen.k0_pay54 (Cert.KernelIdeal.Hand.kernelRun0.sl.v132 c arg1 harg1 arg2 harg2 arg3 harg3 arg7 x0 x1 x2) (Cert.KernelIdeal.Hand.kernelRun0.sl.v232 c arg1 harg1 arg2 harg2 arg3 harg3 arg5 arg6 arg8 x0 x1 x2) (Cert.KernelIdeal.Hand.kernelRun0.sl.v235 c arg1 harg1 arg2 harg2 arg3 harg3 arg5 arg6 arg8 x0 x1 x2) (Cert.KernelIdeal.Hand.kernelRun0.sl.v244 c arg1 harg1 arg2 harg2 arg3 harg3 arg5 arg6 arg7 arg8 arg10 x0 x1 x2)) (ix2 r hh)) := by
  obtain ⟨em, el, ea⟩ := step_2_1 (F := Ideal) c arg1 harg1 arg2 harg2 arg3 harg3 arg5 arg6 arg7 arg8 arg9 arg10 x0 x1 x2
  rw [em, el, ea]
  exact step_inv (wRow_ne_top xr Wq Wk bq bk _) 1 _ (by intro u hu; simp only [Finset.mem_union, mem_tileCols, fv0, fv1, fv2, fv3] at hu; simp only [fv0, fv1, fv2, fv3]; omega) _ _ _ _ _ r (fun cc => scoreU_row (h0 := h0) (h1q := h1q) (h1k := h1k) (h2q := h2q) (h2k := h2k) c arg1 harg1 arg2 harg2 arg3 harg3 arg5 arg6 x0 x1 x2 xr Wq Wk bq bk 2 1 (by decide) (1024) rfl _ (512) rfl _ r cc) (fun cc hh => vTile_row (h0 := h0) (h1v := h1v) (h2v := h2v) c arg1 harg1 arg2 harg2 arg3 harg3 arg7 x0 x1 x2 xr Wv bv 1 (512) rfl _ cc hh) (wRow_real xr Wq Wk bq bk 2 1 (by decide) r)
    (inv_2_0 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 2, after key tile 2: the stored triple at row r is the weighted-sum triple of the columns of key tiles 0..2. -/
theorem inv_2_2 (r : Fin 512) :
    Cert.Softmax.Inv (wRow xr Wq Wk bq bk (col 2 r)) (Cert.Spec.proj xr Wv bv) (((tileCols 0) ∪ tileCols 1) ∪ tileCols 2)
      ((Cert.KernelIdeal.Hand.kernelRun0.sl.v296 c arg1 harg1 arg2 harg2 arg3 harg3 arg5 arg6 arg8 x0 x1 x2) (ix2 r 0)) ((Cert.KernelIdeal.Hand.kernelRun0.sl.v284 c arg1 harg1 arg2 harg2 arg3 harg3 arg5 arg6 arg8 arg9 x0 x1 x2) (ix2 r 0)) (fun hh => (Cert.KernelIdeal.Hand.kernelRun0.sl.v293 c arg1 harg1 arg2 harg2 arg3 harg3 arg5 arg6 arg7 arg8 arg10 x0 x1 x2) (ix2 r hh)) := by
  obtain ⟨em, el, ea⟩ := step_2_2 (F := Ideal) c arg1 harg1 arg2 harg2 arg3 harg3 arg5 arg6 arg7 arg8 arg9 arg10 x0 x1 x2
  rw [em, el, ea]
  exact step_inv (wRow_ne_top xr Wq Wk bq bk _) 2 _ (by intro u hu; simp only [Finset.mem_union, mem_tileCols, fv0, fv1, fv2, fv3] at hu; simp only [fv0, fv1, fv2, fv3]; omega) _ _ _ _ _ r (fun cc => scoreM_row (h0 := h0) (h1q := h1q) (h1k := h1k) (h2q := h2q) (h2k := h2k) c arg1 harg1 arg2 harg2 arg3 harg3 arg5 arg6 x0 x1 x2 xr Wq Wk bq bk 2 (1024) rfl _ _ (1024#32) rfl r cc) (fun cc hh => vTile_row (h0 := h0) (h1v := h1v) (h2v := h2v) c arg1 harg1 arg2 harg2 arg3 harg3 arg7 x0 x1 x2 xr Wv bv 2 (1024) rfl _ cc hh) (wRow_real xr Wq Wk bq bk 2 2 (by decide) r)
    (inv_2_1 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 3, after key tile 0: the stored triple at row r is the weighted-sum triple of the columns of key tiles 0..0. -/
theorem inv_3_0 (r : Fin 512) :
    Cert.Softmax.Inv (wRow xr Wq Wk bq bk (col 3 r)) (Cert.Spec.proj xr Wv bv) (tileCols 0)
      ((Cert.KernelIdeal.Hand.kernelRun0.sl.v348 c arg1 harg1 arg2 harg2 arg3 harg3 arg5 arg6 arg8 x0 x1 x2) (ix2 r 0)) ((Cert.KernelIdeal.Hand.kernelRun0.sl.v336 c arg1 harg1 arg2 harg2 arg3 harg3 arg5 arg6 arg8 arg9 x0 x1 x2) (ix2 r 0)) (fun hh => (Cert.KernelIdeal.Hand.kernelRun0.sl.v345 c arg1 harg1 arg2 harg2 arg3 harg3 arg5 arg6 arg7 arg8 arg10 x0 x1 x2) (ix2 r hh)) := by
  obtain ⟨em, el, ea⟩ := step_3_0 (F := Ideal) c arg1 harg1 arg2 harg2 arg3 harg3 arg5 arg6 arg7 arg8 arg9 arg10 x0 x1 x2
  obtain ⟨im, il, ia⟩ := init_3 (F := Ideal)
  rw [em, el, ea, im, il, ia]
  exact first_inv (wRow_ne_top xr Wq Wk bq bk _) 0 _ _ r (fun cc => scoreU_row (h0 := h0) (h1q := h1q) (h1k := h1k) (h2q := h2q) (h2k := h2k) c arg1 harg1 arg2 harg2 arg3 harg3 arg5 arg6 x0 x1 x2 xr Wq Wk bq bk 3 0 (by decide) (1536) rfl _ (0) rfl _ r cc) (fun cc hh => vTile_row (h0 := h0) (h1v := h1v) (h2v := h2v) c arg1 harg1 arg2 harg2 arg3 harg3 arg7 x0 x1 x2 xr Wv bv 0 (0) rfl _ cc hh) (wRow_real xr Wq Wk bq bk 3 0 (by decide) r)

/-- Query tile 3, after key tile 1: the stored triple at row r is the weighted-sum triple of the columns of key tiles 0..1. -/
theorem inv_3_1 (r : Fin 512) :
    Cert.Softmax.Inv (wRow xr Wq Wk bq bk (col 3 r)) (Cert.Spec.proj xr Wv bv) ((tileCols 0) ∪ tileCols 1)
      ((Cert.KernelIdeal.Hand.kernelRun0.sl.v380 c arg1 harg1 arg2 harg2 arg3 harg3 arg5 arg6 arg8 x0 x1 x2) (ix2 r 0)) ((Cert.KernelIdeal.Hand.kernelRun0.sl.v368 c arg1 harg1 arg2 harg2 arg3 harg3 arg5 arg6 arg8 arg9 x0 x1 x2) (ix2 r 0)) (fun hh => (Cert.KernelIdeal.Hand.kernelRun0.sl.v377 c arg1 harg1 arg2 harg2 arg3 harg3 arg5 arg6 arg7 arg8 arg10 x0 x1 x2) (ix2 r hh)) := by
  obtain ⟨em, el, ea⟩ := step_3_1 (F := Ideal) c arg1 harg1 arg2 harg2 arg3 harg3 arg5 arg6 arg7 arg8 arg9 arg10 x0 x1 x2
  rw [em, el, ea]
  exact step_inv (wRow_ne_top xr Wq Wk bq bk _) 1 _ (by intro u hu; simp only [Finset.mem_union, mem_tileCols, fv0, fv1, fv2, fv3] at hu; simp only [fv0, fv1, fv2, fv3]; omega) _ _ _ _ _ r (fun cc => scoreU_row (h0 := h0) (h1q := h1q) (h1k := h1k) (h2q := h2q) (h2k := h2k) c arg1 harg1 arg2 harg2 arg3 harg3 arg5 arg6 x0 x1 x2 xr Wq Wk bq bk 3 1 (by decide) (1536) rfl _ (512) rfl _ r cc) (fun cc hh => vTile_row (h0 := h0) (h1v := h1v) (h2v := h2v) c arg1 harg1 arg2 harg2 arg3 harg3 arg7 x0 x1 x2 xr Wv bv 1 (512) rfl _ cc hh) (wRow_real xr Wq Wk bq bk 3 1 (by decide) r)
    (inv_3_0 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 3, after key tile 2: the stored triple at row r is the weighted-sum triple of the columns of key tiles 0..2. -/
theorem inv_3_2 (r : Fin 512) :
    Cert.Softmax.Inv (wRow xr Wq Wk bq bk (col 3 r)) (Cert.Spec.proj xr Wv bv) (((tileCols 0) ∪ tileCols 1) ∪ tileCols 2)
      ((Cert.KernelIdeal.Gen.k0_pay90 (Cert.KernelIdeal.Hand.kernelRun0.sl.v387 c arg1 harg1 arg2 harg2 arg3 harg3 arg5 arg6 arg8 x0 x1 x2)) (ix2 r 0)) ((Cert.KernelIdeal.Hand.kernelRun0.sl.v400 c arg1 harg1 arg2 harg2 arg3 harg3 arg5 arg6 arg8 arg9 x0 x1 x2) (ix2 r 0)) (fun hh => (Cert.KernelIdeal.Hand.kernelRun0.sl.v409 c arg1 harg1 arg2 harg2 arg3 harg3 arg5 arg6 arg7 arg8 arg10 x0 x1 x2) (ix2 r hh)) := by
  obtain ⟨em, el, ea⟩ := step_3_2 (F := Ideal) c arg1 harg1 arg2 harg2 arg3 harg3 arg5 arg6 arg7 arg8 arg9 arg10 x0 x1 x2
  rw [em, el, ea]
  exact step_inv (wRow_ne_top xr Wq Wk bq bk _) 2 _ (by intro u hu; simp only [Finset.mem_union, mem_tileCols, fv0, fv1, fv2, fv3] at hu; simp only [fv0, fv1, fv2, fv3]; omega) _ _ _ _ _ r (fun cc => scoreU_row (h0 := h0) (h1q := h1q) (h1k := h1k) (h2q := h2q) (h2k := h2k) c arg1 harg1 arg2 harg2 arg3 harg3 arg5 arg6 x0 x1 x2 xr Wq Wk bq bk 3 2 (by decide) (1536) rfl _ (1024) rfl _ r cc) (fun cc hh => vTile_row (h0 := h0) (h1v := h1v) (h2v := h2v) c arg1 harg1 arg2 harg2 arg3 harg3 arg7 x0 x1 x2 xr Wv bv 2 (1024) rfl _ cc hh) (wRow_real xr Wq Wk bq bk 3 2 (by decide) r)
    (inv_3_1 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 3, after key tile 3: the stored triple at row r is the weighted-sum triple of the columns of key tiles 0..3. -/
theorem inv_3_3 (r : Fin 512) :
    Cert.Softmax.Inv (wRow xr Wq Wk bq bk (col 3 r)) (Cert.Spec.proj xr Wv bv) ((((tileCols 0) ∪ tileCols 1) ∪ tileCols 2) ∪ tileCols 3)
      ((k0_pay2 (Cert.KernelIdeal.Hand.kernelRun0.sl.r_6 c arg1 harg1 arg2 harg2 arg3 harg3 arg5 arg6 arg8 x0 x1 x2)) (ix2 r 0)) ((Cert.KernelIdeal.Gen.k0_pay95 (Cert.KernelIdeal.Hand.kernelRun0.sl.v304 c arg1 harg1 arg2 harg2 arg3 harg3 arg5 x0 x1 x2) (Cert.KernelIdeal.Hand.kernelRun0.sl.v413 c arg1 harg1 arg2 harg2 arg3 harg3 arg6 x0 x1 x2) (Cert.KernelIdeal.Hand.kernelRun0.sl.v425 c arg1 harg1 arg2 harg2 arg3 harg3 arg5 arg6 arg8 x0 x1 x2) (Cert.KernelIdeal.Hand.kernelRun0.sl.v434 c arg1 harg1 arg2 harg2 arg3 harg3 arg5 arg6 arg8 arg9 x0 x1 x2)) (ix2 r 0)) (fun hh => (Cert.KernelIdeal.Gen.k0_pay1 (Cert.KernelIdeal.Hand.kernelRun0.sl.v414 c arg1 harg1 arg2 harg2 arg3 harg3 arg7 x0 x1 x2) (Cert.KernelIdeal.Hand.kernelRun0.sl.r_7 c arg1 harg1 arg2 harg2 arg3 harg3 arg5 arg6 arg7 arg8 arg10 x0 x1 x2) (Cert.KernelIdeal.Hand.kernelRun0.sl.r_8 c arg1 harg1 arg2 harg2 arg3 harg3 arg5 arg6 arg8 x0 x1 x2) Cert.KernelIdeal.Hand.kernelRun0.sl.cst_40) (ix2 r hh)) := by
  obtain ⟨em, el, ea⟩ := step_3_3 (F := Ideal) c arg1 harg1 arg2 harg2 arg3 harg3 arg5 arg6 arg7 arg8 arg9 arg10 x0 x1 x2
  rw [em, el, ea]
  exact step_inv (wRow_ne_top xr Wq Wk bq bk _) 3 _ (by intro u hu; simp only [Finset.mem_union, mem_tileCols, fv0, fv1, fv2, fv3] at hu; simp only [fv0, fv1, fv2, fv3]; omega) _ _ _ _ _ r (fun cc => scoreM_row (h0 := h0) (h1q := h1q) (h1k := h1k) (h2q := h2q) (h2k := h2k) c arg1 harg1 arg2 harg2 arg3 harg3 arg5 arg6 x0 x1 x2 xr Wq Wk bq bk 3 (1536) rfl _ _ (1536#32) rfl r cc) (fun cc hh => vTile_row (h0 := h0) (h1v := h1v) (h2v := h2v) c arg1 harg1 arg2 harg2 arg3 harg3 arg7 x0 x1 x2 xr Wv bv 3 (1536) rfl _ cc hh) (wRow_real xr Wq Wk bq bk 3 3 (by decide) r)
    (inv_3_2 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)

/-- Query tile 0's stored rows are the specification's rows 0…511. -/
theorem tile_0_apply (r : Fin 512) (hh : Fin 128) :
    (Cert.KernelIdeal.Hand.kernelRun0.sl.v85 c arg1 harg1 arg2 harg2 arg3 harg3 arg5 arg6 arg7 arg8 arg9 arg10 x0 x1 x2) (ix3 0 r hh) = ((Cert.Spec.head xr Wq bq Wk bk Wv bv (col 0 r) hh : ℝ) : EReal) := by
  rw [out_0 (F := Ideal) c arg1 harg1 arg2 harg2 arg3 harg3 arg5 arg6 arg7 arg8 arg9 arg10 x0 x1 x2, outTile_apply]
  exact (Cert.Softmax.Inv.quot (inv_0_0 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)
    ⟨col 0 0, col00_mem, wRow_zero_ne_bot xr Wq Wk bq bk 0 r⟩ hh).trans
    (quot_head xr Wq Wk Wv bq bk bv (col 0 r) _ (by intro u hu; have hu' : u.val ≤ 512 * 0 + r.val := hu; have := r.isLt; simp only [Finset.mem_union, mem_tileCols, fv0, fv1, fv2, fv3]; omega) hh)

/-- Query tile 1's stored rows are the specification's rows 512…1023. -/
theorem tile_1_apply (r : Fin 512) (hh : Fin 128) :
    (Cert.KernelIdeal.Hand.kernelRun0.sl.v178 c arg1 harg1 arg2 harg2 arg3 harg3 arg5 arg6 arg7 arg8 arg9 arg10 x0 x1 x2) (ix3 0 r hh) = ((Cert.Spec.head xr Wq bq Wk bk Wv bv (col 1 r) hh : ℝ) : EReal) := by
  rw [out_1 (F := Ideal) c arg1 harg1 arg2 harg2 arg3 harg3 arg5 arg6 arg7 arg8 arg9 arg10 x0 x1 x2, outTile_apply]
  exact (Cert.Softmax.Inv.quot (inv_1_1 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)
    ⟨col 0 0, (Finset.mem_union_left _ col00_mem), wRow_zero_ne_bot xr Wq Wk bq bk 1 r⟩ hh).trans
    (quot_head xr Wq Wk Wv bq bk bv (col 1 r) _ (by intro u hu; have hu' : u.val ≤ 512 * 1 + r.val := hu; have := r.isLt; simp only [Finset.mem_union, mem_tileCols, fv0, fv1, fv2, fv3]; omega) hh)

/-- Query tile 2's stored rows are the specification's rows 1024…1535. -/
theorem tile_2_apply (r : Fin 512) (hh : Fin 128) :
    (Cert.KernelIdeal.Hand.kernelRun0.sl.v303 c arg1 harg1 arg2 harg2 arg3 harg3 arg5 arg6 arg7 arg8 arg9 arg10 x0 x1 x2) (ix3 0 r hh) = ((Cert.Spec.head xr Wq bq Wk bk Wv bv (col 2 r) hh : ℝ) : EReal) := by
  rw [out_2 (F := Ideal) c arg1 harg1 arg2 harg2 arg3 harg3 arg5 arg6 arg7 arg8 arg9 arg10 x0 x1 x2, outTile_apply]
  exact (Cert.Softmax.Inv.quot (inv_2_2 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)
    ⟨col 0 0, (Finset.mem_union_left _ (Finset.mem_union_left _ col00_mem)), wRow_zero_ne_bot xr Wq Wk bq bk 2 r⟩ hh).trans
    (quot_head xr Wq Wk Wv bq bk bv (col 2 r) _ (by intro u hu; have hu' : u.val ≤ 512 * 2 + r.val := hu; have := r.isLt; simp only [Finset.mem_union, mem_tileCols, fv0, fv1, fv2, fv3]; omega) hh)

/-- Query tile 3's stored rows are the specification's rows 1536…2047. -/
theorem tile_3_apply (r : Fin 512) (hh : Fin 128) :
    (k0_pay3 (Cert.KernelIdeal.Hand.kernelRun0.sl.v454 c arg1 harg1 arg2 harg2 arg3 harg3 arg5 arg6 arg7 arg8 arg10 x0 x1 x2) (Cert.KernelIdeal.Hand.kernelRun0.sl.v455 c arg1 harg1 arg2 harg2 arg3 harg3 arg5 arg6 arg8 arg9 x0 x1 x2)) (ix3 0 r hh) = ((Cert.Spec.head xr Wq bq Wk bk Wv bv (col 3 r) hh : ℝ) : EReal) := by
  rw [out_3 (F := Ideal) c arg1 harg1 arg2 harg2 arg3 harg3 arg5 arg6 arg7 arg8 arg9 arg10 x0 x1 x2, outTile_apply]
  exact (Cert.Softmax.Inv.quot (inv_3_3 (h0 := h0) (h1q := h1q) (h1k := h1k) (h1v := h1v) (h2q := h2q) (h2k := h2k) (h2v := h2v) c arg1 harg1 arg2 harg2 arg3 harg3 arg4 harg4 arg5 harg5 arg6 harg6 arg7 harg7 arg8 harg8 arg9 harg9 arg10 harg10 x0 x1 x2 xr Wq Wk Wv bq bk bv r)
    ⟨col 0 0, (Finset.mem_union_left _ (Finset.mem_union_left _ (Finset.mem_union_left _ col00_mem))), wRow_zero_ne_bot xr Wq Wk bq bk 3 r⟩ hh).trans
    (quot_head xr Wq Wk Wv bq bk bv (col 3 r) _ (by intro u hu; have hu' : u.val ≤ 512 * 3 + r.val := hu; have := r.isLt; simp only [Finset.mem_union, mem_tileCols, fv0, fv1, fv2, fv3]; omega) hh)

end Cert.KernelIdeal.Hand

end
-- ==== Proof.KI.HostIn.lean ====
/-
  What the region finds in the two staged arrays the host prepares: the 1024×384 matrix is the three weight matrices
  side by side (columns 0–127 the query weights, 128–255 the key weights, 256–383 the value weights; rounding to
  the shorter format is the identity on extended reals), and the 1×384 row is the three biases end to end.
-/
import proofs.«427742_j6957847019746_3_alg».proof.Proof.KI.Kit
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The staged 1024×384 matrix is the three weight matrices laid side by side along the columns (the rounding to the
    shorter format is the identity on extended reals). -/
theorem V_v1_eq : (V (F := Ideal) m c main_v1 : S1024x384.Idx → EReal)
    = (concatenate S1024x384 1
        [⟨S1024x128, (m ((c : Thread nD τ).loc main_arg1) : S1024x128.Idx → EReal)⟩,
         ⟨S1024x128, (m ((c : Thread nD τ).loc main_arg3) : S1024x128.Idx → EReal)⟩,
         ⟨S1024x128, (m ((c : Thread nD τ).loc main_arg5) : S1024x128.Idx → EReal)⟩]
        concatenates_S1024x128_S1024x128_S1024x128_S1024x384_d1 : S1024x384.Idx → EReal) := by
  dsimp only [V, hostOps0]; after_results; rfl

/-- The staged 1×384 row is the three bias vectors laid end to end, viewed as one row. -/
theorem V_v3_eq : (V (F := Ideal) m c main_v3 : S1x384.Idx → EReal)
    = shapeCast S1x384 (concatenate S384 0
        [⟨S128, (m ((c : Thread nD τ).loc main_arg2) : S128.Idx → EReal)⟩,
         ⟨S128, (m ((c : Thread nD τ).loc main_arg4) : S128.Idx → EReal)⟩,
         ⟨S128, (m ((c : Thread nD τ).loc main_arg6) : S128.Idx → EReal)⟩]
        concatenates_S128_S128_S128_S384_d0) shapeCasts_S384_S1x384 := by
  dsimp only [V, hostOps0]; after_results
  dsimp only [Matrix.cons_val_zero, Matrix.cons_val_one, Matrix.cons_val_two, Matrix.head_cons, Matrix.tail_cons]
  repeat (first | (rw [StableHlo.unary_result_ne]; rotate_left; decide) | (rw [StableHlo.nary_result_ne]; rotate_left; decide))
  rfl

theorem V_v1_q (cc : Fin 1024) (h : Fin 128) :
    (V (F := Ideal) m c main_v1 : S1024x384.Idx → EReal) (ix2 cc ⟨h.val, by have := h.isLt; omega⟩)
      = (m ((c : Thread nD τ).loc main_arg1) : S1024x128.Idx → EReal) (ix2 cc h) := by
  rw [V_v1_eq]
  refine concatenate_apply_piece (t := S1024x384) (1 : Fin 2) _ _ _ 0 (by show (0 : ℕ) < 3; omega) S1024x128 _ rfl rfl 0 rfl (ix2 cc h) ?_ ?_
  · intro b hb
    match b with
    | ⟨0, _⟩ => rfl
    | ⟨1, _⟩ => exact absurd rfl hb
  · show 0 + h.val = h.val
    omega
theorem V_v1_k (cc : Fin 1024) (h : Fin 128) :
    (V (F := Ideal) m c main_v1 : S1024x384.Idx → EReal) (ix2 cc ⟨128 + h.val, by have := h.isLt; omega⟩)
      = (m ((c : Thread nD τ).loc main_arg3) : S1024x128.Idx → EReal) (ix2 cc h) := by
  rw [V_v1_eq]
  refine concatenate_apply_piece (t := S1024x384) (1 : Fin 2) _ _ _ 1 (by show (1 : ℕ) < 3; omega) S1024x128 _ rfl rfl 128 rfl (ix2 cc h) ?_ ?_
  · intro b hb
    match b with
    | ⟨0, _⟩ => rfl
    | ⟨1, _⟩ => exact absurd rfl hb
  · show 128 + h.val = 128 + h.val
    rfl
theorem V_v1_v (cc : Fin 1024) (h : Fin 128) :
    (V (F := Ideal) m c main_v1 : S1024x384.Idx → EReal) (ix2 cc ⟨256 + h.val, by have := h.isLt; omega⟩)
      = (m ((c : Thread nD τ).loc main_arg5) : S1024x128.Idx → EReal) (ix2 cc h) := by
  rw [V_v1_eq]
  refine concatenate_apply_piece (t := S1024x384) (1 : Fin 2) _ _ _ 2 (by show (2 : ℕ) < 3; omega) S1024x128 _ rfl rfl 256 rfl (ix2 cc h) ?_ ?_
  · intro b hb
    match b with
    | ⟨0, _⟩ => rfl
    | ⟨1, _⟩ => exact absurd rfl hb
  · show 256 + h.val = 256 + h.val
    rfl

theorem V_v3_q (h : Fin 128) :
    (V (F := Ideal) m c main_v3 : S1x384.Idx → EReal) (ix2 0 ⟨h.val, by have := h.isLt; omega⟩)
      = (m ((c : Thread nD τ).loc main_arg2) : S128.Idx → EReal) (ix1 h) := by
  rw [V_v3_eq]
  refine (shapeCast_a_1a_apply (a := 384) _ _ 0 ⟨h.val, by have := h.isLt; omega⟩).trans ?_
  refine concatenate_apply_piece (t := S384) (0 : Fin 1) _ _ _ 0 (by show (0 : ℕ) < 3; omega) S128 _ rfl rfl 0 rfl (ix1 h) ?_ ?_
  · intro b hb
    match b with
    | ⟨0, _⟩ => exact absurd rfl hb
  · show 0 + h.val = h.val
    omega
theorem V_v3_k (h : Fin 128) :
    (V (F := Ideal) m c main_v3 : S1x384.Idx → EReal) (ix2 0 ⟨128 + h.val, by have := h.isLt; omega⟩)
      = (m ((c : Thread nD τ).loc main_arg4) : S128.Idx → EReal) (ix1 h) := by
  rw [V_v3_eq]
  refine (shapeCast_a_1a_apply (a := 384) _ _ 0 ⟨128 + h.val, by have := h.isLt; omega⟩).trans ?_
  refine concatenate_apply_piece (t := S384) (0 : Fin 1) _ _ _ 1 (by show (1 : ℕ) < 3; omega) S128 _ rfl rfl 128 rfl (ix1 h) ?_ ?_
  · intro b hb
    match b with
    | ⟨0, _⟩ => exact absurd rfl hb
  · show 128 + h.val = 128 + h.val
    rfl
theorem V_v3_v (h : Fin 128) :
    (V (F := Ideal) m c main_v3 : S1x384.Idx → EReal) (ix2 0 ⟨256 + h.val, by have := h.isLt; omega⟩)
      = (m ((c : Thread nD τ).loc main_arg6) : S128.Idx → EReal) (ix1 h) := by
  rw [V_v3_eq]
  refine (shapeCast_a_1a_apply (a := 384) _ _ 0 ⟨256 + h.val, by have := h.isLt; omega⟩).trans ?_
  refine concatenate_apply_piece (t := S384) (0 : Fin 1) _ _ _ 2 (by show (2 : ℕ) < 3; omega) S128 _ rfl rfl 256 rfl (ix1 h) ?_ ?_
  · intro b hb
    match b with
    | ⟨0, _⟩ => exact absurd rfl hb
  · show 256 + h.val = 256 + h.val
    rfl

end Cert.KernelIdeal.Hand

end
-- ==== Proof.KI.Final.lean ====
/-
  From the blocks to the array. The pipeline writes back, at batch index t, the whole 2048×128 block of the result
  array; by the rows' lemmas that block is the specification's head of batch element t; the eight blocks cover the
  result array; so after the run the result array is the specification's head, entry by entry, for real inputs.
-/
import proofs.«427742_j6957847019746_3_alg».proof.Proof.KI.Main
import proofs.«427742_j6957847019746_3_alg».proof.Proof.KI.Rows
import proofs.«427742_j6957847019746_3_alg».proof.Proof.KI.HostIn
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)
  (xr : Fin 8 → Fin 2048 → Fin 1024 → ℝ) (Wq Wk Wv : Fin 1024 → Fin 128 → ℝ) (bq bk bv : Fin 128 → ℝ)
  (hx : ∀ (b : Fin 8) (t : Fin 2048) (cc : Fin 1024), (m ((c : Thread nD τ).loc main_arg0) : S8x2048x1024.Idx → EReal) (ix3 b t cc) = ((xr b t cc : ℝ) : EReal))
  (hWq : ∀ (cc : Fin 1024) (h : Fin 128), (m ((c : Thread nD τ).loc main_arg1) : S1024x128.Idx → EReal) (ix2 cc h) = ((Wq cc h : ℝ) : EReal))
  (hbq : ∀ h : Fin 128, (m ((c : Thread nD τ).loc main_arg2) : S128.Idx → EReal) (ix1 h) = ((bq h : ℝ) : EReal))
  (hWk : ∀ (cc : Fin 1024) (h : Fin 128), (m ((c : Thread nD τ).loc main_arg3) : S1024x128.Idx → EReal) (ix2 cc h) = ((Wk cc h : ℝ) : EReal))
  (hbk : ∀ h : Fin 128, (m ((c : Thread nD τ).loc main_arg4) : S128.Idx → EReal) (ix1 h) = ((bk h : ℝ) : EReal))
  (hWv : ∀ (cc : Fin 1024) (h : Fin 128), (m ((c : Thread nD τ).loc main_arg5) : S1024x128.Idx → EReal) (ix2 cc h) = ((Wv cc h : ℝ) : EReal))
  (hbv : ∀ h : Fin 128, (m ((c : Thread nD τ).loc main_arg6) : S128.Idx → EReal) (ix1 h) = ((bv h : ℝ) : EReal))

/-- The printed index maps, decided over the eight batch indices: the input block and the result block sit at batch
    index t on the first axis and at 0 on the others; the weight matrix and the bias row are whole. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem lt8 (t : Fin cfg0.N) : t.val < 8 := by have hN : cfg0.N = 8 := N_0; have h := t.isLt; omega

/-- The input block at batch index t is batch element t of the input array. -/
theorem xblk_apply (t : Fin cfg0.N) (tt : Fin 2048) (cc : Fin 1024) :
    (iblk m c 0 t : Vec Ideal S1x2048x1024 .f32) (ix3 0 tt cc)
      = (V m c main_arg0 : S8x2048x1024.Idx → EReal) (ix3 ⟨t.val, lt8 t⟩ tt cc) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = t.val; omega
  | ⟨1, _⟩ => show win0_0.index t (1 : Fin 3) * 2048 + 1 * tt.val = tt.val; omega
  | ⟨2, _⟩ => show win0_0.index t (2 : Fin 3) * 1024 + 1 * cc.val = cc.val; omega

/-- The weight block at any batch index is the whole fused weight matrix. -/
theorem wblk_apply (t : Fin cfg0.N) (cc : Fin 1024) (j : Fin 384) :
    (iblk m c 1 t : Vec Ideal S1024x384 .bf16) (ix2 cc j) = (V m c main_v1 : S1024x384.Idx → EReal) (ix2 cc j) := by
  obtain ⟨-, -, -, e0, e1, -⟩ := idx_facts t
  unfold iblk
  rw [View.read_apply]
  show V m c main_v1 _ = V m c main_v1 _
  congr 1
  funext a; apply Fin.ext
  match a with
  | ⟨0, _⟩ => show win0_1.index t (0 : Fin 2) * 1024 + 1 * cc.val = cc.val; omega
  | ⟨1, _⟩ => show win0_1.index t (1 : Fin 2) * 384 + 1 * j.val = j.val; omega

/-- The bias block at any batch index is the whole fused bias row. -/
theorem bblk_apply (t : Fin cfg0.N) (j : Fin 384) :
    (iblk m c 2 t : Vec Ideal S1x384 .f32) (ix2 0 j) = (V m c main_v3 : S1x384.Idx → EReal) (ix2 0 j) := by
  obtain ⟨-, -, -, -, -, e0, e1, -⟩ := idx_facts t
  unfold iblk
  rw [View.read_apply]
  show V m c main_v3 _ = V m c main_v3 _
  congr 1
  funext a; apply Fin.ext
  match a with
  | ⟨0, _⟩ => show win0_2.index t (0 : Fin 2) * 1 + 1 * 0 = 0; omega
  | ⟨1, _⟩ => show win0_2.index t (1 : Fin 2) * 384 + 1 * j.val = j.val; omega

/-- An index of the result array is in the block of batch index t iff each coordinate is in the block's range. -/
theorem mem_blk (t : Fin cfg0.N) (i : S8x2048x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v4).slice (win0_3.rect t)).set ↔ _
  rw [View.set_slice_whole, Rect.mem_set_unit]
  exact Iff.rfl

/-- Every index of the result array lies in the block of its own batch index. -/
theorem cover (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  have hN : cfg0.N = 8 := N_0
  let t : Fin cfg0.N := ⟨(i 0).val, by omega⟩
  obtain ⟨-, -, -, -, -, -, -, e0, e1, e2⟩ := idx_facts t
  have e0' : win0_3.index t (0 : Fin 3) = (i 0).val := e0
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- Row r, column h of a 512-row tile at row offset off of the 2048-row block is row off + r, column h of the block. -/
theorem tile_emb (off : Nat) (inb : ∀ a : Fin 3, (![0, off, 0] : Fin 3 → Nat) a + S1x512x128.size a ≤ S1x2048x128.size a)
    (r : Fin 512) (hh : Fin 128) (hr : off + r.val < 2048) :
    (Rect.unit (s := S1x2048x128) ![0, off, 0] S1x512x128.size inb).emb (ix3 0 r hh) = ix3 0 (⟨off + r.val, hr⟩ : Fin 2048) hh := by
  funext a
  refine Fin.ext ?_
  match a with
  | ⟨0, _⟩ => show 0 + 1 * 0 = 0; rfl
  | ⟨1, _⟩ => show off + 1 * r.val = off + r.val; omega
  | ⟨2, _⟩ => show 0 + 1 * hh.val = hh.val; omega

/-- One stored tile is the rows off … off + 511 of a function g of (row, column) of the block. -/
theorem tile_piece (g : Fin 2048 → Fin 128 → EReal) (off : Nat) (hoff : off + 512 ≤ 2048)
    (inb : ∀ a : Fin 3, (![0, off, 0] : Fin 3 → Nat) a + S1x512x128.size a ≤ S1x2048x128.size a)
    (w : Vec Ideal S1x512x128 .f32)
    (hw : ∀ (r : Fin 512) (hh : Fin 128), w (ix3 0 r hh) = g ⟨off + r.val, by have := r.isLt; omega⟩ hh)
    (x : S1x512x128.Idx) :
    w x = (fun y : S1x2048x128.Idx => g (y 1) (y 2)) ((Rect.unit (s := S1x2048x128) ![0, off, 0] S1x512x128.size inb).emb x) := by
  obtain ⟨a, r, hh, rfl⟩ : ∃ (a : Fin 1) (r : Fin 512) (hh : Fin 128), x = ix3 a r hh := ⟨x 0, x 1, x 2, eq_ix3 x⟩
  obtain rfl : a = 0 := Subsingleton.elim _ _
  rw [tile_emb off inb r hh (by have := r.isLt; omega)]
  exact hw r hh

/-- The output block the body leaves, when each of its four stored tiles holds the rows of one function g of
    (row, column): the block is g. -/
theorem out_rows (c : Dev nD) (i : grid0.Coords) (arg1 : Memref sig .tc .vmem S1x2048x1024 .f32) (harg1 : arg1.IsWhole) (arg2 : Memref sig .tc .vmem S1024x384 .bf16) (harg2 : arg2.IsWhole) (arg3 : Memref sig .tc .vmem S1x384 .f32) (harg3 : arg3.IsWhole) (arg4 : Memref sig .tc .vmem S1x2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec Ideal S1x2048x1024 .f32) (x1 : Vec Ideal S1024x384 .bf16) (x2 : Vec Ideal S1x384 .f32)
    (g : Fin 2048 → Fin 128 → EReal)
    (h0 : ∀ (r : Fin 512) (hh : Fin 128), (Cert.KernelIdeal.Hand.kernelRun0.sl.v85 c arg1 harg1 arg2 harg2 arg3 harg3 arg5 arg6 arg7 arg8 arg9 arg10 x0 x1 x2) (ix3 0 r hh) = g ⟨0 + r.val, by have := r.isLt; omega⟩ hh)
    (h1 : ∀ (r : Fin 512) (hh : Fin 128), (Cert.KernelIdeal.Hand.kernelRun0.sl.v178 c arg1 harg1 arg2 harg2 arg3 harg3 arg5 arg6 arg7 arg8 arg9 arg10 x0 x1 x2) (ix3 0 r hh) = g ⟨512 + r.val, by have := r.isLt; omega⟩ hh)
    (h2 : ∀ (r : Fin 512) (hh : Fin 128), (Cert.KernelIdeal.Hand.kernelRun0.sl.v303 c arg1 harg1 arg2 harg2 arg3 harg3 arg5 arg6 arg7 arg8 arg9 arg10 x0 x1 x2) (ix3 0 r hh) = g ⟨1024 + r.val, by have := r.isLt; omega⟩ hh)
    (h3 : ∀ (r : Fin 512) (hh : Fin 128), (k0_pay3 (Cert.KernelIdeal.Hand.kernelRun0.sl.v454 c arg1 harg1 arg2 harg2 arg3 harg3 arg5 arg6 arg7 arg8 arg10 x0 x1 x2) (Cert.KernelIdeal.Hand.kernelRun0.sl.v455 c arg1 harg1 arg2 harg2 arg3 harg3 arg5 arg6 arg8 arg9 x0 x1 x2)) (ix3 0 r hh) = g ⟨1536 + r.val, by have := r.isLt; omega⟩ hh) :
    out0_3 c i arg1 harg1 arg2 harg2 arg3 harg3 arg4 harg4 arg5 harg5 arg6 harg6 arg7 harg7 arg8 harg8 arg9 harg9 arg10 harg10 x0 x1 x2 = fun y : S1x2048x128.Idx => g (y 1) (y 2) := by
  unfold out0_3
  rw [View.read_writes_junk_eq_canon]
  have hL : (kernelRun0 c i arg1 harg1 arg2 harg2 arg3 harg3 arg4 harg4 arg5 harg5 arg6 harg6 arg7 harg7 arg8 harg8 arg9 harg9 arg10 harg10 x0 x1 x2).1
      = [⟨Rect.unit (s := S1x2048x128) ![0, 1536, 0] S1x512x128.size inb_S1x2048x128_S1x512x128_0_1536_0, k0_pay3 (Cert.KernelIdeal.Hand.kernelRun0.sl.v454 c arg1 harg1 arg2 harg2 arg3 harg3 arg5 arg6 arg7 arg8 arg10 x0 x1 x2) (Cert.KernelIdeal.Hand.kernelRun0.sl.v455 c arg1 harg1 arg2 harg2 arg3 harg3 arg5 arg6 arg8 arg9 x0 x1 x2)⟩,
         ⟨Rect.unit (s := S1x2048x128) ![0, 1024, 0] S1x512x128.size inb_S1x2048x128_S1x512x128_0_1024_0, Cert.KernelIdeal.Hand.kernelRun0.sl.v303 c arg1 harg1 arg2 harg2 arg3 harg3 arg5 arg6 arg7 arg8 arg9 arg10 x0 x1 x2⟩,
         ⟨Rect.unit (s := S1x2048x128) ![0, 512, 0] S1x512x128.size inb_S1x2048x128_S1x512x128_0_512_0, Cert.KernelIdeal.Hand.kernelRun0.sl.v178 c arg1 harg1 arg2 harg2 arg3 harg3 arg5 arg6 arg7 arg8 arg9 arg10 x0 x1 x2⟩,
         ⟨Rect.unit (s := S1x2048x128) ![0, 0, 0] S1x512x128.size inb_S1x2048x128_S1x512x128_0_0_0, Cert.KernelIdeal.Hand.kernelRun0.sl.v85 c arg1 harg1 arg2 harg2 arg3 harg3 arg5 arg6 arg7 arg8 arg9 arg10 x0 x1 x2⟩] := rfl
  funext y
  refine View.canon_apply_of_pieces (fun y : S1x2048x128.Idx => g (y 1) (y 2)) _ ?_ y (cover0_3 c i arg1 harg1 arg2 harg2 arg3 harg3 arg4 harg4 arg5 harg5 arg6 harg6 arg7 harg7 arg8 harg8 arg9 harg9 arg10 harg10 x0 x1 x2 y)
  intro p hp x
  rw [hL] at hp
  simp only [List.mem_cons, List.mem_nil_iff, or_false] at hp
  rcases hp with rfl | rfl | rfl | rfl
  · exact tile_piece g 1536 (by omega) inb_S1x2048x128_S1x512x128_0_1536_0 _ h3 x
  · exact tile_piece g 1024 (by omega) inb_S1x2048x128_S1x512x128_0_1024_0 _ h2 x
  · exact tile_piece g 512 (by omega) inb_S1x2048x128_S1x512x128_0_512_0 _ h1 x
  · exact tile_piece g 0 (by omega) inb_S1x2048x128_S1x512x128_0_0_0 _ h0 x

/-- What batch index t writes back is block t of one function G of the result array's index, when the body's
    output block at t is G at batch element t. -/
theorem flushed_eq (G : Fin 8 → Fin 2048 → Fin 128 → EReal)
    (hout : ∀ t : Fin cfg0.N, outAt0 (F := Ideal) m c t = fun y : S1x2048x128.Idx => G ⟨t.val, lt8 t⟩ (y 1) (y 2))
    (t : Fin cfg0.N) :
    (dats (F := Ideal) m 0 c).flushed 3 t
      = ((cfg0.win 3).blk t).view.read (Elt Ideal) (fun i : S8x2048x128.Idx => G (i 0) (i 1) (i 2)) := by
  show (cfg0.win 3).cut (grid0.coords t) ((dats m 0 c).after 3 t) = _
  rw [after0_3, hout t]
  obtain ⟨-, -, -, -, -, -, -, e0, e1, e2⟩ := idx_facts t
  funext y
  rw [View.read_apply]
  show G ⟨t.val, lt8 t⟩ (y 1) (y 2) = (fun i : S8x2048x128.Idx => G (i 0) (i 1) (i 2)) (((cfg0.win 3).blk t).view.emb y)
  have hy : ((cfg0.win 3).blk t).view.emb y = ix3 (⟨t.val, lt8 t⟩ : Fin 8) (y 1) (y 2) := by
    funext a; apply Fin.ext
    match a with
    | ⟨0, _⟩ => show win0_3.index t (0 : Fin 3) * 1 + 1 * (y 0).val = t.val; have hy0 : (y 0).val < 1 := (y 0).isLt; omega
    | ⟨1, _⟩ => show win0_3.index t (1 : Fin 3) * 2048 + 1 * (y 1).val = (y 1).val; omega
    | ⟨2, _⟩ => show win0_3.index t (2 : Fin 3) * 128 + 1 * (y 2).val = (y 2).val; omega
  rw [hy]

/-- The result array after the run is G, entry by entry. -/
theorem final_of (G : Fin 8 → Fin 2048 → Fin 128 → EReal)
    (hout : ∀ t : Fin cfg0.N, outAt0 (F := Ideal) m c t = fun y : S1x2048x128.Idx => G ⟨t.val, lt8 t⟩ (y 1) (y 2)) :
    (dats (F := Ideal) m 0 c).arrAt 3 cfg0.N = (fun i : S8x2048x128.Idx => G (i 0) (i 1) (i 2)) :=
  (dats m 0 c).arrAt_eq_of_cover 3 (fun i : S8x2048x128.Idx => G (i 0) (i 1) (i 2)) (fun t _ => flushed_eq m c G hout t) cover

include hx hWq hbq hWk hbk hWv hbv in
/-- The body's output block at batch index t is the specification's head of batch element t, for real inputs. -/
theorem outAt_eq (t : Fin cfg0.N) :
    outAt0 (F := Ideal) m c t
      = fun y : S1x2048x128.Idx => ((Cert.Spec.head (xr ⟨t.val, lt8 t⟩) Wq bq Wk bk Wv bv (y 1) (y 2) : ℝ) : EReal) := by
  have h0 : ∀ (tt : Fin 2048) (cc : Fin 1024), (iblk m c 0 t : Vec Ideal S1x2048x1024 .f32) (ix3 0 tt cc) = ((xr ⟨t.val, lt8 t⟩ tt cc : ℝ) : EReal) :=
    fun tt cc => (xblk_apply m c t tt cc).trans ((congrFun (V_main_arg0 m c) _).trans (hx ⟨t.val, lt8 t⟩ tt cc))
  have h1q : ∀ (cc : Fin 1024) (h : Fin 128), (iblk m c 1 t : Vec Ideal S1024x384 .bf16) (ix2 cc ⟨h.val, by have := h.isLt; omega⟩) = ((Wq cc h : ℝ) : EReal) :=
    fun cc h => (wblk_apply m c t cc _).trans ((V_v1_q m c cc h).trans (hWq cc h))
  have h1k : ∀ (cc : Fin 1024) (h : Fin 128), (iblk m c 1 t : Vec Ideal S1024x384 .bf16) (ix2 cc ⟨128 + h.val, by have := h.isLt; omega⟩) = ((Wk cc h : ℝ) : EReal) :=
    fun cc h => (wblk_apply m c t cc _).trans ((V_v1_k m c cc h).trans (hWk cc h))
  have h1v : ∀ (cc : Fin 1024) (h : Fin 128), (iblk m c 1 t : Vec Ideal S1024x384 .bf16) (ix2 cc ⟨256 + h.val, by have := h.isLt; omega⟩) = ((Wv cc h : ℝ) : EReal) :=
    fun cc h => (wblk_apply m c t cc _).trans ((V_v1_v m c cc h).trans (hWv cc h))
  have h2q : ∀ h : Fin 128, (iblk m c 2 t : Vec Ideal S1x384 .f32) (ix2 0 ⟨h.val, by have := h.isLt; omega⟩) = ((bq h : ℝ) : EReal) :=
    fun h => (bblk_apply m c t _).trans ((V_v3_q m c h).trans (hbq h))
  have h2k : ∀ h : Fin 128, (iblk m c 2 t : Vec Ideal S1x384 .f32) (ix2 0 ⟨128 + h.val, by have := h.isLt; omega⟩) = ((bk h : ℝ) : EReal) :=
    fun h => (bblk_apply m c t _).trans ((V_v3_k m c h).trans (hbk h))
  have h2v : ∀ h : Fin 128, (iblk m c 2 t : Vec Ideal S1x384 .f32) (ix2 0 ⟨256 + h.val, by have := h.isLt; omega⟩) = ((bv h : ℝ) : EReal) :=
    fun h => (bblk_apply m c t _).trans ((V_v3_v m c h).trans (hbv h))
  unfold outAt0
  exact out_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t)
    (fun r hh => ((Cert.Spec.head (xr ⟨t.val, lt8 t⟩) Wq bq Wk bk Wv bv r hh : ℝ) : EReal))
    (fun r hh => (tile_0_apply (h0 := h0) (h1q := h1q) (h1k := h1k) (h1v := h1v) (h2q := h2q) (h2k := h2k) (h2v := h2v) c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (xr ⟨t.val, lt8 t⟩) Wq Wk Wv bq bk bv r hh).trans
      (congrArg (fun u : Fin 2048 => ((Cert.Spec.head (xr ⟨t.val, lt8 t⟩) Wq bq Wk bk Wv bv u hh : ℝ) : EReal)) (Fin.ext (show 512 * 0 + r.val = 0 + r.val by omega))))
    (fun r hh => (tile_1_apply (h0 := h0) (h1q := h1q) (h1k := h1k) (h1v := h1v) (h2q := h2q) (h2k := h2k) (h2v := h2v) c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (xr ⟨t.val, lt8 t⟩) Wq Wk Wv bq bk bv r hh).trans
      (congrArg (fun u : Fin 2048 => ((Cert.Spec.head (xr ⟨t.val, lt8 t⟩) Wq bq Wk bk Wv bv u hh : ℝ) : EReal)) (Fin.ext (show 512 * 1 + r.val = 512 + r.val by omega))))
    (fun r hh => (tile_2_apply (h0 := h0) (h1q := h1q) (h1k := h1k) (h1v := h1v) (h2q := h2q) (h2k := h2k) (h2v := h2v) c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (xr ⟨t.val, lt8 t⟩) Wq Wk Wv bq bk bv r hh).trans
      (congrArg (fun u : Fin 2048 => ((Cert.Spec.head (xr ⟨t.val, lt8 t⟩) Wq bq Wk bk Wv bv u hh : ℝ) : EReal)) (Fin.ext (show 512 * 2 + r.val = 1024 + r.val by omega))))
    (fun r hh => (tile_3_apply (h0 := h0) (h1q := h1q) (h1k := h1k) (h1v := h1v) (h2q := h2q) (h2k := h2k) (h2v := h2v) c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (xr ⟨t.val, lt8 t⟩) Wq Wk Wv bq bk bv r hh).trans
      (congrArg (fun u : Fin 2048 => ((Cert.Spec.head (xr ⟨t.val, lt8 t⟩) Wq bq Wk bk Wv bv u hh : ℝ) : EReal)) (Fin.ext (show 512 * 3 + r.val = 1536 + r.val by omega))))

include hx hWq hbq hWk hbk hWv hbv in
/-- The result array after the run, for real inputs: the specification's head of each batch element. -/
theorem final3 :
    (dats (F := Ideal) m 0 c).arrAt 3 cfg0.N
      = (fun i : S8x2048x128.Idx => ((Cert.Spec.head (xr (i 0)) Wq bq Wk bk Wv bv (i 1) (i 2) : ℝ) : EReal)) :=
  final_of m c (fun b r hh => ((Cert.Spec.head (xr b) Wq bq Wk bk Wv bv r hh : ℝ) : EReal))
    (outAt_eq m c xr Wq Wk Wv bq bk bv hx hWq hbq hWk hbk hWv hbv)

end Cert.KernelIdeal.Hand

end
-- ==== Proof.LibRowMax.lean ====
/-
  The host's maximum-reduce over the LAST axis, read at a result index, at the extended reals: for a rank-2 array
  [m, n] reduced over axis 1 and for a rank-3 array [a, b, n] reduced over axis 2, the result at a row is the fold
  of max over that row's n entries, from the initial value. General in the extents.
-/
import Idealize.ShloMosaic.PureOps.Ideal.Laws
import Idealize.ShloMosaic.PureOps.Reduce
import Idealize.ShloMosaic.Lib.ValueIdx

noncomputable section

namespace Cert.LibRowMax

open Idealize.ShloMosaic Idealize.ShloMosaic.ValueIdx

/-- Row r of a rank-2 array with column k put back is (r, k). -/
theorem lift2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Row (b, s) of a rank-3 array with the last coordinate k put back is (b, s, k). -/
theorem lift3 {a b n : Nat} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- The host's max-reduce of a rank-2 array over its columns, at row r: the fold of max over the row. -/
theorem rowMax2 {m n : Nat} {u : Shape} (x : (⟨2, ![m, n]⟩ : Shape).Idx → Ideal .f32) (init : u.Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce (FloatOps.maximumf (F := Ideal) (φ := .f32)) x init h' hu (ix1 r)
      = (Finset.univ : Finset (Fin n)).fold (FloatOps.maximumf (F := Ideal) (φ := .f32)) (init (Shape.Idx.first hu))
          (fun k => x (ix2 r k)) := by
  rw [Host.reduce_eq_fold_single (FloatOps.maximumf (F := Ideal) (φ := .f32)) x init h' h hu]
  have hf : (x ∘ h.lift (ix1 r)) = fun k : Fin n => x (ix2 r k) := funext fun k => congrArg x (lift2 h r k)
  exact congrArg (fun f => Finset.fold (FloatOps.maximumf (F := Ideal) (φ := .f32)) (init (Shape.Idx.first hu)) f
    (Finset.univ : Finset (Fin n))) hf

/-- The host's max-reduce of a rank-3 array over its last axis, at (p, q): the fold of max over that line. -/
theorem rowMax3 {a b n : Nat} {u : Shape} (x : (⟨3, ![a, b, n]⟩ : Shape).Idx → Ideal .f32) (init : u.Idx → Ideal .f32)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := .f32)) x init h' hu (ix2 p q)
      = (Finset.univ : Finset (Fin n)).fold (FloatOps.maximumf (F := Ideal) (φ := .f32)) (init (Shape.Idx.first hu))
          (fun k => x (ix3 p q k)) := by
  rw [Host.reduce_eq_fold_single (FloatOps.maximumf (F := Ideal) (φ := .f32)) x init h' h hu]
  have hf : (x ∘ h.lift (ix2 p q)) = fun k : Fin n => x (ix3 p q k) := funext fun k => congrArg x (lift3 h p q k)
  exact congrArg (fun f => Finset.fold (FloatOps.maximumf (F := Ideal) (φ := .f32)) (init (Shape.Idx.first hu)) f
    (Finset.univ : Finset (Fin n))) hf

end Cert.LibRowMax

end
-- ==== Proof.RefValue.lean ====
/-
  The reference program's result, entry by entry, is the real causal attention of the specification whenever the
  inputs are arrays of reals: three affine projections, the scores as inner products, the lower-triangular mask
  filling with -∞, the row maximum subtracted, exponentials, the row sum, each weight divided by it, and the
  weighted sum of value rows. The row maximum is a real (the diagonal score is never masked) and its choice does
  not matter; the masked columns carry weight exp (-∞) = 0.
-/
import proofs.«427742_j6957847019746_3_alg».proof.Proof.Gen.ReferenceIdeal.Read
import proofs.«427742_j6957847019746_3_alg».proof.Proof.Spec
import proofs.«427742_j6957847019746_3_alg».proof.Proof.Softmax
import proofs.«427742_j6957847019746_3_alg».proof.Proof.LibRowMax
import proofs.«427742_j6957847019746_3_alg».proof.Proof.LibRealSums
import proofs.«427742_j6957847019746_3_alg».proof.Proof.LibFinite
import proofs.«427742_j6957847019746_3_alg».proof.Proof.LibColumn
import Idealize.ShloMosaic.Lib.ValueIdx
import Idealize.ShloMosaic.Lib.Pipeline.Value
import Idealize.ShloMosaic.Lib.StableHlo.Predicate
import Idealize.ShloMosaic.PureOps.Ideal.Laws

noncomputable section

namespace Cert.RefSide

open Idealize.ShloMosaic Idealize.ShloMosaic.ValueIdx Cert.ReferenceIdeal

/-- One projection entry: the contraction over the 1024 input columns plus the bias is the real affine image. -/
theorem proj_entry
    (x0 : (⟨S8x2048x1024, .f32⟩ : BufTy).Contents (Elt Ideal)) (xW : (⟨S1024x128, .f32⟩ : BufTy).Contents (Elt Ideal))
    (xb : (⟨S128, .f32⟩ : BufTy).Contents (Elt Ideal))
    (xr : Fin 8 → Fin 2048 → Fin 1024 → ℝ) (W : Fin 1024 → Fin 128 → ℝ) (bias : Fin 128 → ℝ)
    (h0 : ∀ b t c, x0 (ix3 b t c) = ((xr b t c : ℝ) : EReal))
    (hW : ∀ c h, xW (ix2 c h) = ((W c h : ℝ) : EReal)) (hb : ∀ h, xb (ix1 h) = ((bias h : ℝ) : EReal))
    (b : Fin 8) (t : Fin 2048) (h : Fin 128) :
    Read.val_main_v3 (F := Ideal) x0 xW xb (ix3 b t h) = ((Cert.Spec.proj (xr b) W bias t h : ℝ) : EReal) := by
  rw [Read.val_main_v3_apply, Read.val_main_v0_apply, Read.val_main_v2_apply, Read.val_main_v1_apply]
  have e1 : ∀ k : Fin 1024, Read.lidx_main_v0 (ix3 b t h) k = ix3 b t k := fun k => by
    funext a; match a with | ⟨0, _⟩ => rfl | ⟨1, _⟩ => rfl | ⟨2, _⟩ => rfl
  have e2 : ∀ k : Fin 1024, Read.ridx_main_v0 (ix3 b t h) k = ix2 k h := fun k => by
    funext a; match a with | ⟨0, _⟩ => rfl | ⟨1, _⟩ => rfl
  have e3 : Read.idx_main_v1 (Read.idx_main_v2 (ix3 b t h)) = ix1 h := by
    funext a; match a with | ⟨0, _⟩ => rfl
  rw [e3, hb]
  simp only [e1, e2, h0, hW, Ideal.addf_def, ← EReal.coe_mul]
  rw [← Cert.RealSums.coe_sum, ← EReal.coe_add]
  rfl

/-- The score entry: the contraction of a query row with a key row over the 128 head columns. -/
theorem score_entry
    (x0 : (⟨S8x2048x1024, .f32⟩ : BufTy).Contents (Elt Ideal)) (x1 : (⟨S1024x128, .f32⟩ : BufTy).Contents (Elt Ideal))
    (x2 : (⟨S128, .f32⟩ : BufTy).Contents (Elt Ideal)) (x3 : (⟨S1024x128, .f32⟩ : BufTy).Contents (Elt Ideal))
    (x4 : (⟨S128, .f32⟩ : BufTy).Contents (Elt Ideal))
    (xr : Fin 8 → Fin 2048 → Fin 1024 → ℝ) (Wq : Fin 1024 → Fin 128 → ℝ) (bq : Fin 128 → ℝ) (Wk : Fin 1024 → Fin 128 → ℝ) (bk : Fin 128 → ℝ)
    (h0 : ∀ b t c, x0 (ix3 b t c) = ((xr b t c : ℝ) : EReal))
    (h1 : ∀ c h, x1 (ix2 c h) = ((Wq c h : ℝ) : EReal)) (h2 : ∀ h, x2 (ix1 h) = ((bq h : ℝ) : EReal))
    (h3 : ∀ c h, x3 (ix2 c h) = ((Wk c h : ℝ) : EReal)) (h4 : ∀ h, x4 (ix1 h) = ((bk h : ℝ) : EReal))
    (b : Fin 8) (t u : Fin 2048) :
    Read.val_main_v12 (F := Ideal) x0 x1 x2 x3 x4 (ix3 b t u)
      = ((Cert.Spec.score (Cert.Spec.proj (xr b) Wq bq) (Cert.Spec.proj (xr b) Wk bk) t u : ℝ) : EReal) := by
  rw [Read.val_main_v12_apply]
  have e1 : ∀ k : Fin 128, Read.lidx_main_v12 (ix3 b t u) k = ix3 b t k := fun k => by
    funext a; match a with | ⟨0, _⟩ => rfl | ⟨1, _⟩ => rfl | ⟨2, _⟩ => rfl
  have e2 : ∀ k : Fin 128, Read.ridx_main_v12 (ix3 b t u) k = ix3 b u k := fun k => by
    funext a; match a with | ⟨0, _⟩ => rfl | ⟨1, _⟩ => rfl | ⟨2, _⟩ => rfl
  have e7 : ∀ i, Read.val_main_v7 (F := Ideal) x0 x3 x4 i = Read.val_main_v3 (F := Ideal) x0 x3 x4 i := fun _ => rfl
  simp only [e1, e2, e7, proj_entry x0 x1 x2 xr Wq bq h0 h1 h2, proj_entry x0 x3 x4 xr Wk bk h0 h3 h4, ← EReal.coe_mul]
  rw [← Cert.RealSums.coe_sum]
  rfl

/-- The causal mask at row t, column u: set exactly when u ≤ t. -/
theorem mask_entry (t u : Fin 2048) :
    Read.val_main_v14 (F := Ideal) (ix2 t u) = if u ≤ t then 1#1 else 0#1 := by
  rw [Read.val_main_v14_apply, Read.val_main_call0_v4_apply, Read.val_main_call0_v2_apply, Read.val_main_call0_v0_apply,
    Read.val_main_call0_v1_apply, Read.val_main_call0_c_apply, Read.val_main_call0_v3_apply, Read.val_main_v13_apply,
    Read.val_main_c_apply, Read.val_main_call0_v5_apply, Read.val_main_call0_c_0_apply]
  show Scalar.select (IntOp.cmpi .sge (IntOp.addi (BitVec.ofNat 32 t.val) 0#32) (BitVec.ofNat 32 u.val)) 1#1 0#1 = _
  have hadd : IntOp.addi (BitVec.ofNat 32 t.val) 0#32 = BitVec.ofNat 32 t.val := by
    show BitVec.ofNat 32 t.val + 0#32 = _
    exact BitVec.add_zero _
  rw [hadd]
  have ht : (BitVec.ofNat 32 t.val).toNat = t.val := by
    rw [BitVec.toNat_ofNat]; exact Nat.mod_eq_of_lt (by have := t.isLt; omega)
  have hu : (BitVec.ofNat 32 u.val).toNat = u.val := by
    rw [BitVec.toNat_ofNat]; exact Nat.mod_eq_of_lt (by have := u.isLt; omega)
  have hc := StableHlo.Predicate.sge_iff_toNat (a := BitVec.ofNat 32 t.val) (b := BitVec.ofNat 32 u.val)
    (by rw [ht]; have := t.isLt; omega) (by rw [hu]; have := u.isLt; omega)
  rw [ht, hu] at hc
  by_cases hle : u ≤ t
  · rw [if_pos hle, hc.mpr (Fin.le_def.mp hle), select_one]
  · rw [if_neg hle, eq_zero_of_ne_one (fun h1 => hle (Fin.le_def.mpr (hc.mp h1))), select_zero]

/-- The masked score row of query row t: the score where u ≤ t, -∞ elsewhere. -/
def wrow (q k : Fin 2048 → Fin 128 → ℝ) (t u : Fin 2048) : EReal :=
  if u ≤ t then ((Cert.Spec.score q k t u : ℝ) : EReal) else ⊥

theorem wrow_ne_top (q k : Fin 2048 → Fin 128 → ℝ) (t u : Fin 2048) : wrow q k t u ≠ ⊤ := by
  unfold wrow
  split_ifs
  · exact EReal.coe_ne_top _
  · exact bot_ne_top

theorem wrow_self_ne_bot (q k : Fin 2048 → Fin 128 → ℝ) (t : Fin 2048) : wrow q k t t ≠ ⊥ := by
  unfold wrow
  rw [if_pos le_rfl]
  exact EReal.coe_ne_bot _

/-- The masked score entry. -/
theorem masked_entry
    (x0 : (⟨S8x2048x1024, .f32⟩ : BufTy).Contents (Elt Ideal)) (x1 : (⟨S1024x128, .f32⟩ : BufTy).Contents (Elt Ideal))
    (x2 : (⟨S128, .f32⟩ : BufTy).Contents (Elt Ideal)) (x3 : (⟨S1024x128, .f32⟩ : BufTy).Contents (Elt Ideal))
    (x4 : (⟨S128, .f32⟩ : BufTy).Contents (Elt Ideal))
    (xr : Fin 8 → Fin 2048 → Fin 1024 → ℝ) (Wq : Fin 1024 → Fin 128 → ℝ) (bq : Fin 128 → ℝ) (Wk : Fin 1024 → Fin 128 → ℝ) (bk : Fin 128 → ℝ)
    (h0 : ∀ b t c, x0 (ix3 b t c) = ((xr b t c : ℝ) : EReal))
    (h1 : ∀ c h, x1 (ix2 c h) = ((Wq c h : ℝ) : EReal)) (h2 : ∀ h, x2 (ix1 h) = ((bq h : ℝ) : EReal))
    (h3 : ∀ c h, x3 (ix2 c h) = ((Wk c h : ℝ) : EReal)) (h4 : ∀ h, x4 (ix1 h) = ((bk h : ℝ) : EReal))
    (b : Fin 8) (t u : Fin 2048) :
    Read.val_main_v15 (F := Ideal) x0 x1 x2 x3 x4 (ix3 b t u)
      = wrow (Cert.Spec.proj (xr b) Wq bq) (Cert.Spec.proj (xr b) Wk bk) t u := by
  rw [Read.val_main_v15_apply, Read.val_main_call1_v1_apply, Read.val_main_call1_v2_apply, Read.val_main_call1_v0_apply,
    Read.val_main_cst_apply]
  have e : Read.idx_main_call1_v1 (ix3 b t u) = ix2 t u := by
    funext a; match a with | ⟨0, _⟩ => rfl | ⟨1, _⟩ => rfl
  rw [e, mask_entry, score_entry x0 x1 x2 x3 x4 xr Wq bq Wk bk h0 h1 h2 h3 h4, Ideal.ofBits_def,
    Idealize.ShloMosaic.Column.ofBits_negInf_f32]
  unfold wrow
  by_cases hle : u ≤ t
  · rw [if_pos hle, if_pos hle, select_one]
  · rw [if_neg hle, if_neg hle, select_zero]

/-- A maximum folded from -∞ over entries none of which is +∞ and one of which is not -∞ is a real. -/
theorem fold_max_real {ι : Type*} (s : Finset ι) (f : ι → EReal) (hf : ∀ i ∈ s, f i ≠ ⊤) (hne : ∃ i ∈ s, f i ≠ ⊥) :
    ∃ r : ℝ, s.fold max (⊥ : EReal) f = (r : EReal) := by
  obtain ⟨i, hi, hib⟩ := hne
  have hlt : s.fold max (⊥ : EReal) f < ⊤ :=
    (Finset.fold_max_lt (⊤ : EReal)).mpr ⟨bot_lt_top, fun x hx => lt_top_iff_ne_top.mpr (hf x hx)⟩
  have hle : f i ≤ s.fold max (⊥ : EReal) f := (Finset.le_fold_max (f i)).mpr (Or.inr ⟨i, hi, le_rfl⟩)
  have hnb : s.fold max (⊥ : EReal) f ≠ ⊥ := fun h => hib (le_bot_iff.mp (by rw [h] at hle; exact hle))
  exact ⟨(s.fold max (⊥ : EReal) f).toReal, (EReal.coe_toReal hlt.ne hnb).symm⟩

/-- The row maximum the reference subtracts is a real: the diagonal score is never masked. -/
theorem rowmax_real
    (x0 : (⟨S8x2048x1024, .f32⟩ : BufTy).Contents (Elt Ideal)) (x1 : (⟨S1024x128, .f32⟩ : BufTy).Contents (Elt Ideal))
    (x2 : (⟨S128, .f32⟩ : BufTy).Contents (Elt Ideal)) (x3 : (⟨S1024x128, .f32⟩ : BufTy).Contents (Elt Ideal))
    (x4 : (⟨S128, .f32⟩ : BufTy).Contents (Elt Ideal))
    (xr : Fin 8 → Fin 2048 → Fin 1024 → ℝ) (Wq : Fin 1024 → Fin 128 → ℝ) (bq : Fin 128 → ℝ) (Wk : Fin 1024 → Fin 128 → ℝ) (bk : Fin 128 → ℝ)
    (h0 : ∀ b t c, x0 (ix3 b t c) = ((xr b t c : ℝ) : EReal))
    (h1 : ∀ c h, x1 (ix2 c h) = ((Wq c h : ℝ) : EReal)) (h2 : ∀ h, x2 (ix1 h) = ((bq h : ℝ) : EReal))
    (h3 : ∀ c h, x3 (ix2 c h) = ((Wk c h : ℝ) : EReal)) (h4 : ∀ h, x4 (ix1 h) = ((bk h : ℝ) : EReal))
    (b : Fin 8) (t : Fin 2048) :
    ∃ μ : ℝ, Read.val_main_v18 (F := Ideal) x0 x1 x2 x3 x4 (ix2 b t) = (μ : EReal) := by
  have h16 : Read.val_main_v16 (F := Ideal) x0 x1 x2 x3 x4 (ix2 b t)
      = (Finset.univ : Finset (Fin 2048)).fold max (⊥ : EReal)
          (fun u => Read.val_main_v15 (F := Ideal) x0 x1 x2 x3 x4 (ix3 b t u)) := by
    unfold Read.val_main_v16
    refine (Cert.LibRowMax.rowMax3 (a := 8) (b := 2048) (n := 2048) (Read.val_main_v15 (F := Ideal) x0 x1 x2 x3 x4)
      (Read.val_main_cst_0 (F := Ideal)) Cert.ReferenceIdeal.Gen.reducesTo_S8x2048x2048_S8x2048_d2 (by decide) Cert.ReferenceIdeal.Gen.h_S_ b t).trans ?_
    rw [Read.val_main_cst_0_apply, Ideal.ofBits_def, Idealize.ShloMosaic.Column.ofBits_negInf_f32]
    rfl
  rw [Read.val_main_v18_apply, Read.val_main_v17_apply, Read.val_main_cst_1_apply, Ideal.ofBits_def,
    Idealize.ShloMosaic.Column.ofBits_negInf_f32, h16, Ideal.maximumf_def, max_eq_right bot_le]
  refine fold_max_real _ _ (fun u _ => ?_) ⟨t, Finset.mem_univ t, ?_⟩
  · rw [masked_entry x0 x1 x2 x3 x4 xr Wq bq Wk bk h0 h1 h2 h3 h4]
    exact wrow_ne_top _ _ _ _
  · rw [masked_entry x0 x1 x2 x3 x4 xr Wq bq Wk bk h0 h1 h2 h3 h4]
    exact wrow_self_ne_bot _ _ _

/-- The reference's result array at batch b, row t, column h, for real inputs. -/
theorem ref_eq
    (x0 : (⟨S8x2048x1024, .f32⟩ : BufTy).Contents (Elt Ideal)) (x1 : (⟨S1024x128, .f32⟩ : BufTy).Contents (Elt Ideal))
    (x2 : (⟨S128, .f32⟩ : BufTy).Contents (Elt Ideal)) (x3 : (⟨S1024x128, .f32⟩ : BufTy).Contents (Elt Ideal))
    (x4 : (⟨S128, .f32⟩ : BufTy).Contents (Elt Ideal)) (x5 : (⟨S1024x128, .f32⟩ : BufTy).Contents (Elt Ideal))
    (x6 : (⟨S128, .f32⟩ : BufTy).Contents (Elt Ideal))
    (xr : Fin 8 → Fin 2048 → Fin 1024 → ℝ) (Wq : Fin 1024 → Fin 128 → ℝ) (bq : Fin 128 → ℝ) (Wk : Fin 1024 → Fin 128 → ℝ) (bk : Fin 128 → ℝ)
    (Wv : Fin 1024 → Fin 128 → ℝ) (bv : Fin 128 → ℝ)
    (h0 : ∀ b t c, x0 (ix3 b t c) = ((xr b t c : ℝ) : EReal))
    (h1 : ∀ c h, x1 (ix2 c h) = ((Wq c h : ℝ) : EReal)) (h2 : ∀ h, x2 (ix1 h) = ((bq h : ℝ) : EReal))
    (h3 : ∀ c h, x3 (ix2 c h) = ((Wk c h : ℝ) : EReal)) (h4 : ∀ h, x4 (ix1 h) = ((bk h : ℝ) : EReal))
    (h5 : ∀ c h, x5 (ix2 c h) = ((Wv c h : ℝ) : EReal)) (h6 : ∀ h, x6 (ix1 h) = ((bv h : ℝ) : EReal))
    (b : Fin 8) (t : Fin 2048) (h : Fin 128) :
    Cert.ReferenceIdeal.Read.val_main_v27 (F := Ideal) x0 x1 x2 x3 x4 x5 x6 (ix3 b t h)
      = ((Cert.Spec.head (xr b) Wq bq Wk bk Wv bv t h : ℝ) : EReal) := by
  obtain ⟨μ, hμ⟩ := rowmax_real x0 x1 x2 x3 x4 xr Wq bq Wk bk h0 h1 h2 h3 h4 b t
  have hmask := masked_entry x0 x1 x2 x3 x4 xr Wq bq Wk bk h0 h1 h2 h3 h4 b t
  generalize hq : Cert.Spec.proj (xr b) Wq bq = q at hmask
  generalize hk : Cert.Spec.proj (xr b) Wk bk = k at hmask
  -- every weight exp (w u - M)
  have hexp : ∀ u : Fin 2048, Read.val_main_v22 (F := Ideal) x0 x1 x2 x3 x4 (ix3 b t u)
      = Ideal.exp (wrow q k t u - (μ : EReal)) := by
    intro u
    rw [Read.val_main_v22_apply, Read.val_main_v21_apply, Read.val_main_v20_apply, Read.val_main_v19_apply]
    have e : Read.idx_main_v19 (Read.idx_main_v20 (ix3 b t u)) = ix2 b t := by
      funext a; match a with | ⟨0, _⟩ => rfl | ⟨1, _⟩ => rfl
    rw [e, hμ, hmask]
    rfl
  -- the row sum
  have hsum : Read.val_main_v23 (F := Ideal) x0 x1 x2 x3 x4 (ix2 b t)
      = ∑ u : Fin 2048, Ideal.exp (wrow q k t u - (μ : EReal)) := by
    rw [Read.val_main_v23_apply, Read.val_main_cst_2_apply, Ideal.ofBits_def, Ideal.ofBits_zero_f32, zero_add]
    refine Finset.sum_congr rfl fun u _ => ?_
    have e : Read.idx_main_v23 (ix2 b t) u = ix3 b t u := by
      funext a; match a with | ⟨0, _⟩ => rfl | ⟨1, _⟩ => rfl | ⟨2, _⟩ => rfl
    rw [e, hexp]
  -- every weight divided by the row sum
  have hdiv : ∀ u : Fin 2048, Read.val_main_v26 (F := Ideal) x0 x1 x2 x3 x4 (ix3 b t u)
      = Ideal.div (Ideal.exp (wrow q k t u - (μ : EReal))) (∑ u' : Fin 2048, Ideal.exp (wrow q k t u' - (μ : EReal))) := by
    intro u
    rw [Read.val_main_v26_apply, Read.val_main_v25_apply, Read.val_main_v24_apply]
    have e : Read.idx_main_v24 (Read.idx_main_v25 (ix3 b t u)) = ix2 b t := by
      funext a; match a with | ⟨0, _⟩ => rfl | ⟨1, _⟩ => rfl
    rw [e, hsum, hexp]
    rfl
  have el : ∀ u : Fin 2048, Read.lidx_main_v27 (ix3 b t h) u = ix3 b t u := fun u => by
    funext a; match a with | ⟨0, _⟩ => rfl | ⟨1, _⟩ => rfl | ⟨2, _⟩ => rfl
  have er : ∀ u : Fin 2048, Read.ridx_main_v27 (ix3 b t h) u = ix3 b u h := fun u => by
    funext a; match a with | ⟨0, _⟩ => rfl | ⟨1, _⟩ => rfl | ⟨2, _⟩ => rfl
  have e11 : ∀ i, Read.val_main_v11 (F := Ideal) x0 x5 x6 i = Read.val_main_v3 (F := Ideal) x0 x5 x6 i := fun _ => rfl
  rw [Read.val_main_v27_apply]
  simp only [el, er, e11, hdiv, proj_entry x0 x5 x6 xr Wv bv h0 h5 h6]
  rw [Cert.Softmax.two_pass (w := wrow q k t) (v := Cert.Spec.proj (xr b) Wv bv) (wrow_ne_top q k t)
    ⟨t, wrow_self_ne_bot q k t⟩ rfl h]
  -- the masked columns carry weight 0; on the others the weight is the exponential of the score
  have hS : ∀ u, u ∉ Finset.univ.filter (fun u : Fin 2048 => u ≤ t) → wrow q k t u = ⊥ := fun u hu =>
    if_neg (fun hle => hu (Finset.mem_filter.mpr ⟨Finset.mem_univ u, hle⟩))
  have hin : ∀ u ∈ Finset.univ.filter (fun u : Fin 2048 => u ≤ t),
      Cert.Softmax.wt 0 (wrow q k t u) = Real.exp (Cert.Spec.score q k t u) := fun u hu => by
    unfold wrow
    rw [if_pos (Finset.mem_filter.mp hu).2, Cert.Softmax.wt_zero_coe]
  have hnum : ∑ u ∈ Finset.univ.filter (fun u : Fin 2048 => u ≤ t), Cert.Softmax.wt 0 (wrow q k t u) * Cert.Spec.proj (xr b) Wv bv u h
      = ∑ u ∈ Finset.univ.filter (fun u : Fin 2048 => u ≤ t), Real.exp (Cert.Spec.score q k t u) * Cert.Spec.proj (xr b) Wv bv u h :=
    Finset.sum_congr rfl fun u hu => by rw [hin u hu]
  have hden : ∑ u ∈ Finset.univ.filter (fun u : Fin 2048 => u ≤ t), Cert.Softmax.wt 0 (wrow q k t u)
      = ∑ u ∈ Finset.univ.filter (fun u : Fin 2048 => u ≤ t), Real.exp (Cert.Spec.score q k t u) :=
    Finset.sum_congr rfl hin
  rw [Cert.Softmax.sum_wt_of_bot_off (wrow q k t) _ hS (fun u => Cert.Spec.proj (xr b) Wv bv u h),
    Cert.Softmax.sum_wt_of_bot_off' (wrow q k t) _ hS, hnum, hden]
  subst hq hk
  rfl

end Cert.RefSide

end
-- ==== Proof.Finite.lean ====
/-
  Every entry of every input is a real number. The precondition says, for each of the seven float inputs, that
  the absolute value of every entry is below +∞; on the extended reals that leaves exactly the reals.
-/
import proofs.«427742_j6957847019746_3_alg».proof.Pre_finite_inputs
import proofs.«427742_j6957847019746_3_alg».proof.Proof.Gen.Pre_finite_inputs
import proofs.«427742_j6957847019746_3_alg».proof.Proof.LibFinite
import Idealize.ShloMosaic.Lib.ReduceAll
import Idealize.ShloMosaic.PureOps.Ideal

noncomputable section

namespace Cert.FiniteIn

open Idealize.ShloMosaic Cert.Lib Cert.Pre_finite_inputs

/-- The scalar shape has one index. -/
instance : Subsingleton S_.Idx := ⟨fun a b => funext fun d => d.elim0⟩

/-- The f32 pattern 0x7F800000 denotes +∞. -/
theorem ofBits_inf_f32 : Ideal.ofBits .f32 0x7F800000#32 = ⊤ := by simp [Ideal.ofBits, Ideal.ieee]

/-- An extended real whose absolute value compares below +∞ is a real: at either infinity the absolute value is +∞. -/
theorem real_of_abs_lt_inf {x : EReal}
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One input: if the conjunction over all entries of "the absolute value is below +∞" is 1, the array is all real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) : AllReal x := fun i =>
  real_of_abs_lt_inf (Host.reduce_andi_all _ _ hr hu _ e i)

/-- The precondition, read at the extended reals, makes all seven inputs arrays of reals. -/
theorem allReal_of_pre [Cert.Pre_finite_inputs.Facts]
    (a0 : FVec Ideal S8x2048x1024 .f32) (a1 : FVec Ideal S1024x128 .f32) (a2 : FVec Ideal S128 .f32)
    (a3 : FVec Ideal S1024x128 .f32) (a4 : FVec Ideal S128 .f32) (a5 : FVec Ideal S1024x128 .f32) (a6 : FVec Ideal S128 .f32)
    (h : Cert.Pre_finite_inputs.fn (F := Ideal) a0 a1 a2 a3 a4 a5 a6 = (fun _ => 1#1)) :
    AllReal a0 ∧ AllReal a1 ∧ AllReal a2 ∧ AllReal a3 ∧ AllReal a4 ∧ AllReal a5 ∧ AllReal a6 := by
  have h0 := congrFun h ValueIdx.ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ e0, allReal_of_all a1 _ _ _ e1, allReal_of_all a2 _ _ _ e2,
    allReal_of_all a3 _ _ _ e3, allReal_of_all a4 _ _ _ e4, allReal_of_all a5 _ _ _ e5, allReal_of_all a6 _ _ _ e6⟩

end Cert.FiniteIn

end
-- ==== Proof.lean ====
/-
  A fused causal attention head against its reference, over the extended reals.

  The kernel, for each batch element, projects the 2048 input rows to queries, keys and values with one matrix
  product against the three weight matrices laid side by side, then walks the four 512-row query tiles; for each it
  walks the key tiles up to the diagonal keeping, per query row, a running maximum m, a running denominator l and
  a running numerator acc, rescaling both by exp (m - m') whenever the maximum moves, and stores acc / l. The
  reference computes the same three projections, all scores, fills the strictly upper triangle with -∞, and applies
  a two-pass softmax and the weighted sum of value rows.

  For real inputs both are, at query position t and head coordinate h,
      Σ_{u ≤ t} exp (score t u) · v u h  /  Σ_{u ≤ t} exp (score t u):
  any real shift of the exponent cancels in the quotient, the masked columns carry weight exp (-∞) = 0, and the key
  tiles beyond the diagonal that the kernel never visits are exactly columns of weight 0 in the reference. The
  inputs are real because the precondition bounds every entry's absolute value below +∞. The kernel's finite
  stand-in for -∞ in the diagonal tiles' mask is read as -∞ (the one named constant); the row maximum is never that
  value because the diagonal entry is never masked.

  The three frames: both kernel programs run the same body, which writes every scratch buffer before reading it, so
  the region's invariant is the plain one; the reference is host operations only.
-/
import proofs.«427742_j6957847019746_3_alg».proof.Defs
import proofs.«427742_j6957847019746_3_alg».proof.Proof.Gen.Kernel
import proofs.«427742_j6957847019746_3_alg».proof.Proof.Gen.KernelIdeal
import proofs.«427742_j6957847019746_3_alg».proof.Proof.Gen.ReferenceIdeal
import proofs.«427742_j6957847019746_3_alg».proof.Proof.Gen.Pre_finite_inputs
import proofs.«427742_j6957847019746_3_alg».proof.Proof.Gen.ReferenceIdeal.Run
import proofs.«427742_j6957847019746_3_alg».proof.Proof.Gen.ReferenceIdeal.Read
import proofs.«427742_j6957847019746_3_alg».proof.Proof.K.Main
import proofs.«427742_j6957847019746_3_alg».proof.Proof.KI.RunValue
import proofs.«427742_j6957847019746_3_alg».proof.Proof.KI.Final
import proofs.«427742_j6957847019746_3_alg».proof.Proof.RefValue
import proofs.«427742_j6957847019746_3_alg».proof.Proof.Finite
import Idealize.ShloMosaic.Adequacy
import Idealize.ShloMosaic.Init
import Idealize.ShloMosaic.PureOps.IdealRules

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mask fill of each of the four diagonal tiles: the table gives the name the value -∞. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal := ⟨neg_big, neg_big, neg_big, neg_big⟩

/-- Both programs end with the specification's head in their result arrays, for the real inputs the precondition
    leaves. -/
theorem algebraic : Cert.algebraic_KernelIdeal_ReferenceIdeal := by
  intro m ρ m' ρ' hpre hagree
  refine ⟨fun c => (Cert.KernelIdeal.Hand.dats (F := Ideal) m 0 c).arrAt 3 Cert.KernelIdeal.cfg0.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  obtain ⟨r0, r1, r2, r3, r4, r5, r6⟩ := Cert.FiniteIn.allReal_of_pre _ _ _ _ _ _ _ (hpre c)
  obtain ⟨f0, e0⟩ := r0.exists_real
  obtain ⟨f1, e1⟩ := r1.exists_real
  obtain ⟨f2, e2⟩ := r2.exists_real
  obtain ⟨f3, e3⟩ := r3.exists_real
  obtain ⟨f4, e4⟩ := r4.exists_real
  obtain ⟨f5, e5⟩ := r5.exists_real
  obtain ⟨f6, e6⟩ := r6.exists_real
  have hx : ∀ (b : Fin 8) (t : Fin 2048) (cc : Fin 1024), (m ((c.tc : Thread Cert.KernelIdeal.nD Cert.KernelIdeal.τ).loc Cert.KernelIdeal.main_arg0) : Cert.KernelIdeal.S8x2048x1024.Idx → EReal) (ix3 b t cc) = ((f0 (ix3 b t cc) : ℝ) : EReal) := fun b t cc => congrFun e0 _
  have hWq : ∀ (cc : Fin 1024) (h : Fin 128), (m ((c.tc : Thread Cert.KernelIdeal.nD Cert.KernelIdeal.τ).loc Cert.KernelIdeal.main_arg1) : Cert.KernelIdeal.S1024x128.Idx → EReal) (ix2 cc h) = ((f1 (ix2 cc h) : ℝ) : EReal) := fun cc h => congrFun e1 _
  have hbq : ∀ h : Fin 128, (m ((c.tc : Thread Cert.KernelIdeal.nD Cert.KernelIdeal.τ).loc Cert.KernelIdeal.main_arg2) : Cert.KernelIdeal.S128.Idx → EReal) (ix1 h) = ((f2 (ix1 h) : ℝ) : EReal) := fun h => congrFun e2 _
  have hWk : ∀ (cc : Fin 1024) (h : Fin 128), (m ((c.tc : Thread Cert.KernelIdeal.nD Cert.KernelIdeal.τ).loc Cert.KernelIdeal.main_arg3) : Cert.KernelIdeal.S1024x128.Idx → EReal) (ix2 cc h) = ((f3 (ix2 cc h) : ℝ) : EReal) := fun cc h => congrFun e3 _
  have hbk : ∀ h : Fin 128, (m ((c.tc : Thread Cert.KernelIdeal.nD Cert.KernelIdeal.τ).loc Cert.KernelIdeal.main_arg4) : Cert.KernelIdeal.S128.Idx → EReal) (ix1 h) = ((f4 (ix1 h) : ℝ) : EReal) := fun h => congrFun e4 _
  have hWv : ∀ (cc : Fin 1024) (h : Fin 128), (m ((c.tc : Thread Cert.KernelIdeal.nD Cert.KernelIdeal.τ).loc Cert.KernelIdeal.main_arg5) : Cert.KernelIdeal.S1024x128.Idx → EReal) (ix2 cc h) = ((f5 (ix2 cc h) : ℝ) : EReal) := fun cc h => congrFun e5 _
  have hbv : ∀ h : Fin 128, (m ((c.tc : Thread Cert.KernelIdeal.nD Cert.KernelIdeal.τ).loc Cert.KernelIdeal.main_arg6) : Cert.KernelIdeal.S128.Idx → EReal) (ix1 h) = ((f6 (ix1 h) : ℝ) : EReal) := fun h => congrFun e6 _
  beta_reduce
  rw [Cert.KernelIdeal.Hand.final3 m c (fun b t cc => f0 (ix3 b t cc)) (fun cc h => f1 (ix2 cc h)) (fun cc h => f3 (ix2 cc h)) (fun cc h => f5 (ix2 cc h))
    (fun h => f2 (ix1 h)) (fun h => f4 (ix1 h)) (fun h => f6 (ix1 h)) hx hWq hbq hWk hbk hWv hbv]
  funext i
  obtain ⟨b, t, h, rfl⟩ : ∃ (b : Fin 8) (t : Fin 2048) (h : Fin 128), i = ix3 b t h := ⟨i 0, i 1, i 2, eq_ix3 i⟩
  exact Cert.RefSide.ref_eq _ _ _ _ _ _ _ (fun b t cc => f0 (ix3 b t cc)) (fun cc h => f1 (ix2 cc h)) (fun h => f2 (ix1 h)) (fun cc h => f3 (ix2 cc h)) (fun h => f4 (ix1 h))
    (fun cc h => f5 (ix2 cc h)) (fun h => f6 (ix1 h)) hx hWq hbq hWk hbk hWv hbv b t h

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
